-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S4096x32 : Shape := ⟨2, ![4096, 32]⟩
abbrev S512x512 : Shape := ⟨2, ![512, 512]⟩
abbrev S512 : Shape := ⟨1, ![512]⟩
abbrev S512x256 : Shape := ⟨2, ![512, 256]⟩
abbrev S256 : Shape := ⟨1, ![256]⟩
abbrev S288x16 : Shape := ⟨2, ![288, 16]⟩
abbrev S16 : Shape := ⟨1, ![16]⟩
abbrev S_ : Shape := ⟨0, ![]⟩
abbrev S4096 : Shape := ⟨1, ![4096]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x32 : S_.BroadcastsInDim S4096x32 (![] : Fin 0 → Fin S4096x32.rank)
  reducesTo_S4096x32_S_d0_1 : S4096x32.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S288x16 : S_.BroadcastsInDim S288x16 (![] : Fin 0 → Fin S288x16.rank)
  reducesTo_S288x16_S_d0_1 : S288x16.ReducesTo [0, 1] S_
  bcast_S_S16 : S_.BroadcastsInDim S16 (![] : Fin 0 → Fin S16.rank)
  reducesTo_S16_S_d0 : S16.ReducesTo [0] S_
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_

variable [Facts]

def fn_part3 {F : FTy → Type} [FloatOps F] (main_v43 : IVec S_ 1) (main_v51 : FVec F S4096 .f32) : IVec S_ 1 :=
  let main_cst_18 : FVec F S_ .f32 := constant S_ .f32 0x00000000#32
  let main_v52 : FVec F S4096 .f32 := broadcastInDim S4096 ![] bcast_S_S4096 main_cst_18
  let main_v53 : IVec S4096 1 := cmpf .ogt main_v51 main_v52
  let main_c_19 : IVec S_ 1 := constantI S_ 1 1#1
  let main_v54 : IVec S_ 1 := (fun x v => Host.reduce IntOp.andi x v reducesTo_S4096_S_d0 h_S_) main_v53 main_c_19
  let main_v55 : IVec S_ 1 := andi main_v43 main_v54
  main_v55

def fn_part2 {F : FTy → Type} [FloatOps F] (main_arg1 : FVec F S4096x4096 .f32) (main_arg7 : FVec F S288x16 .f32) (main_arg8 : FVec F S16 .f32) (main_v33 : IVec S_ 1) : IVec S_ 1 :=
  let main_v34 : FVec F S288x16 .f32 := Host.absf main_arg7
  let main_cst_12 : FVec F S_ .f32 := constant S_ .f32 0x7F800000#32
  let main_v35 : FVec F S288x16 .f32 := broadcastInDim S288x16 ![] bcast_S_S288x16 main_cst_12
  let main_v36 : IVec S288x16 1 := cmpf .olt main_v34 main_v35
  let main_c_13 : IVec S_ 1 := constantI S_ 1 1#1
  let main_v37 : IVec S_ 1 := (fun x v => Host.reduce IntOp.andi x v reducesTo_S288x16_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : IVec S4096x4096 32 := iotaInDim S4096x4096 32 0
  let main_v45 : IVec S4096x4096 32 := iotaInDim S4096x4096 32 1
  let main_c_16 : IVec S_ 32 := constantI S_ 32 0#32
  let main_v46 : IVec S4096x4096 32 := broadcastInDim S4096x4096 ![] bcast_S_S4096x4096 main_c_16
  let main_v47 : IVec S4096x4096 32 := addi main_v44 main_v46
  let main_v48 : IVec S4096x4096 1 := cmpi .eq main_v47 main_v45
  let main_v49 : FVec F S4096x4096 .f32 := uitofp .f32 main_v48
  let main_v50 : FVec F S4096x4096 .f32 := addf main_v49 main_arg1
  let main_cst_17 : FVec F S_ .f32 := constant S_ .f32 0x00000000#32
  let main_v51 : FVec F S4096 .f32 := (fun x v => Host.reduceAdd x v reducesTo_S4096x4096_S4096_d1 h_S_) main_v50 main_cst_17
  fn_part3 (F := F) main_v43 main_v51

def fn_part1 {F : FTy → Type} [FloatOps F] (main_arg1 : FVec F S4096x4096 .f32) (main_arg4 : FVec F S512 .f32) (main_arg5 : FVec F S512x256 .f32) (main_arg6 : FVec F S256 .f32) (main_arg7 : FVec F S288x16 .f32) (main_arg8 : FVec F S16 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg7 main_arg8 main_v33

def fn {F : FTy → Type} [FloatOps F] (main_arg0 : FVec F S4096x512 .f32) (main_arg1 : FVec F S4096x4096 .f32) (main_arg2 : FVec F S4096x32 .f32) (main_arg3 : FVec F S512x512 .f32) (main_arg4 : FVec F S512 .f32) (main_arg5 : FVec F S512x256 .f32) (main_arg6 : FVec F S256 .f32) (main_arg7 : FVec F S288x16 .f32) (main_arg8 : FVec F S16 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x32 .f32 := Host.absf main_arg2
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg1 main_arg4 main_arg5 main_arg6 main_arg7 main_arg8 main_v13 main_v16
-- ==== Kernel.lean ====
abbrev S4096x512 : Shape := ⟨2, ![4096, 512]⟩
abbrev S4096x4096 : Shape := ⟨2, ![4096, 4096]⟩
abbrev S4096x32 : Shape := ⟨2, ![4096, 32]⟩
abbrev S512x512 : Shape := ⟨2, ![512, 512]⟩
abbrev S512 : Shape := ⟨1, ![512]⟩
abbrev S512x256 : Shape := ⟨2, ![512, 256]⟩
abbrev S256 : Shape := ⟨1, ![256]⟩
abbrev S288x16 : Shape := ⟨2, ![288, 16]⟩
abbrev S16 : Shape := ⟨1, ![16]⟩
abbrev S4096x1 : Shape := ⟨2, ![4096, 1]⟩
abbrev S256x4096 : Shape := ⟨2, ![256, 4096]⟩
abbrev S256x512 : Shape := ⟨2, ![256, 512]⟩
abbrev S256x1 : Shape := ⟨2, ![256, 1]⟩
abbrev S1x512 : Shape := ⟨2, ![1, 512]⟩
abbrev S4096x256 : Shape := ⟨2, ![4096, 256]⟩
abbrev S256x256 : Shape := ⟨2, ![256, 256]⟩
abbrev S1x256 : Shape := ⟨2, ![1, 256]⟩
abbrev S256x16 : Shape := ⟨2, ![256, 16]⟩
abbrev S32x16 : Shape := ⟨2, ![32, 16]⟩
abbrev S1x16 : Shape := ⟨2, ![1, 16]⟩
abbrev S4096x16 : Shape := ⟨2, ![4096, 16]⟩
abbrev S256x32 : Shape := ⟨2, ![256, 32]⟩

abbrev nBuf : Space → Nat
  | .hbm => 20
  | .vmem => 35
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S4096x32, .f32⟩
  | .hbm, ⟨3, _⟩ => ⟨S512x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S288x16, .f32⟩
  | .hbm, ⟨8, _⟩ => ⟨S16, .f32⟩
  | .hbm, ⟨9, _⟩ => ⟨S4096x1, .f32⟩
  | .hbm, ⟨10, _⟩ => ⟨S4096x512, .bf16⟩
  | .hbm, ⟨11, _⟩ => ⟨S4096x4096, .bf16⟩
  | .hbm, ⟨12, _⟩ => ⟨S1x512, .f32⟩
  | .hbm, ⟨13, _⟩ => ⟨S4096x256, .bf16⟩
  | .hbm, ⟨14, _⟩ => ⟨S1x256, .f32⟩
  | .hbm, ⟨15, _⟩ => ⟨S256x16, .f32⟩
  | .hbm, ⟨16, _⟩ => ⟨S32x16, .f32⟩
  | .hbm, ⟨17, _⟩ => ⟨S1x16, .f32⟩
  | .hbm, ⟨18, _⟩ => ⟨S4096x256, .f32⟩
  | .hbm, ⟨19, _⟩ => ⟨S4096x16, .f32⟩
  | .local _ .vmem, ⟨0, _⟩ => ⟨S256x4096, .f32⟩
  | .local _ .vmem, ⟨1, _⟩ => ⟨S256x4096, .f32⟩
  | .local _ .vmem, ⟨2, _⟩ => ⟨S256x512, .f32⟩
  | .local _ .vmem, ⟨3, _⟩ => ⟨S256x512, .f32⟩
  | .local _ .vmem, ⟨4, _⟩ => ⟨S512x512, .f32⟩
  | .local _ .vmem, ⟨5, _⟩ => ⟨S256x1, .f32⟩
  | .local _ .vmem, ⟨6, _⟩ => ⟨S256x1, .f32⟩
  | .local _ .vmem, ⟨7, _⟩ => ⟨S256x512, .bf16⟩
  | .local _ .vmem, ⟨8, _⟩ => ⟨S256x512, .bf16⟩
  | .local _ .vmem, ⟨9, _⟩ => ⟨S256x4096, .bf16⟩
  | .local _ .vmem, ⟨10, _⟩ => ⟨S256x4096, .bf16⟩
  | .local _ .vmem, ⟨11, _⟩ => ⟨S256x4096, .bf16⟩
  | .local _ .vmem, ⟨12, _⟩ => ⟨S256x4096, .bf16⟩
  | .local _ .vmem, ⟨13, _⟩ => ⟨S4096x512, .bf16⟩
  | .local _ .vmem, ⟨14, _⟩ => ⟨S256x1, .f32⟩
  | .local _ .vmem, ⟨15, _⟩ => ⟨S256x1, .f32⟩
  | .local _ .vmem, ⟨16, _⟩ => ⟨S512x256, .f32⟩
  | .local _ .vmem, ⟨17, _⟩ => ⟨S1x512, .f32⟩
  | .local _ .vmem, ⟨18, _⟩ => ⟨S256x256, .bf16⟩
  | .local _ .vmem, ⟨19, _⟩ => ⟨S256x256, .bf16⟩
  | .local _ .vmem, ⟨20, _⟩ => ⟨S256x4096, .bf16⟩
  | .local _ .vmem, ⟨21, _⟩ => ⟨S256x4096, .bf16⟩
  | .local _ .vmem, ⟨22, _⟩ => ⟨S4096x256, .bf16⟩
  | .local _ .vmem, ⟨23, _⟩ => ⟨S256x1, .f32⟩
  | .local _ .vmem, ⟨24, _⟩ => ⟨S256x1, .f32⟩
  | .local _ .vmem, ⟨25, _⟩ => ⟨S1x256, .f32⟩
  | .local _ .vmem, ⟨26, _⟩ => ⟨S256x32, .f32⟩
  | .local _ .vmem, ⟨27, _⟩ => ⟨S256x32, .f32⟩
  | .local _ .vmem, ⟨28, _⟩ => ⟨S256x16, .f32⟩
  | .local _ .vmem, ⟨29, _⟩ => ⟨S32x16, .f32⟩
  | .local _ .vmem, ⟨30, _⟩ => ⟨S1x16, .f32⟩
  | .local _ .vmem, ⟨31, _⟩ => ⟨S256x256, .f32⟩
  | .local _ .vmem, ⟨32, _⟩ => ⟨S256x256, .f32⟩
  | .local _ .vmem, ⟨33, _⟩ => ⟨S256x16, .f32⟩
  | .local _ .vmem, ⟨34, _⟩ => ⟨S256x16, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg8_0 : Ref sig .tc := ⟨.vmem, 31, rfl⟩
abbrev cc2_stg8_1 : Ref sig .tc := ⟨.vmem, 32, rfl⟩
abbrev cc2_stg9_0 : Ref sig .tc := ⟨.vmem, 33, rfl⟩
abbrev cc2_stg9_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem6_0 : DmaSem sig := 29
abbrev cc2_sem7_0 : DmaSem sig := 30
abbrev cc2_sem8_0 : DmaSem sig := 31
abbrev cc2_sem8_1 : DmaSem sig := 32
abbrev cc2_sem9_0 : DmaSem sig := 33
abbrev cc2_sem9_1 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def k1_off1 (i : grid1.Coords) : Fin 2 → Nat :=
  let arg0 : BitVec 32 := BitVec.ofNat 32 (i 0).val
  let c256_i32 : BitVec 32 := 256#32
  let v5 : BitVec 32 := Scalar.muli arg0 c256_i32
  let v6 : Index := Scalar.indexCast v5
  let c0_3 : Index := 0#32
  ![v6.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![16], ![false]⟩

def k2_off1 (i : grid2.Coords) : Fin 2 → Nat :=
  let arg0 : BitVec 32 := BitVec.ofNat 32 (i 0).val
  let c256_i32 : BitVec 32 := 256#32
  let v5 : BitVec 32 := Scalar.muli arg0 c256_i32
  let v6 : Index := Scalar.indexCast v5
  let c0_3 : Index := 0#32
  ![v6.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S256x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S32x16 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x16 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S256x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S256x16 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  reduces_S256x4096_S256 : S256x4096.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  inb_S256x512_S256x512_0_0 : ∀ a, (![0, 0] : Fin 2 → Nat) a + S256x512.size a ≤ S256x512.size a
  h_S256x512 : 0 < S256x512.numel
  inb_S512x512_S512x512_0_0 : ∀ a, (![0, 0] : Fin 2 → Nat) a + S512x512.size a ≤ S512x512.size a
  h_S512x512 : 0 < S512x512.numel
  broadcasts_S256x1_S256x512 : S256x1.Broadcasts S256x512
  packedbf16_S256x512_S256x512_0_0 : (Rect.unit (s := S256x512) ![0, 0] S256x512.size inb_S256x512_S256x512_0_0).PackedRows (EltTy.packing .bf16)
  shapeCasts_S512_S1x512 : S512.ShapeCasts S1x512
  shapeCasts_S256x4096_S256x4096 : S256x4096.ShapeCasts S256x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  shapeCasts_S256x512_S256x512 : S256x512.ShapeCasts S256x512
  shapeCasts_S256x1_S256x1 : S256x1.ShapeCasts S256x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S512x256_S512x256_0_0 : ∀ a, (![0, 0] : Fin 2 → Nat) a + S512x256.size a ≤ S512x256.size a
  h_S512x256 : 0 < S512x256.numel
  broadcasts_S256x1_S256x256 : S256x1.Broadcasts S256x256
  inb_S256x256_S256x256_0_0 : ∀ a, (![0, 0] : Fin 2 → Nat) a + S256x256.size a ≤ S256x256.size a
  h_S256x256 : 0 < S256x256.numel
  packedbf16_S256x256_S256x256_0_0 : (Rect.unit (s := S256x256) ![0, 0] S256x256.size inb_S256x256_S256x256_0_0).PackedRows (EltTy.packing .bf16)
  shapeCasts_S256_S1x256 : S256.ShapeCasts S1x256
  slices_S288x16_S256x16_0_0 : S288x16.Slices ![0, 0] S256x16
  slices_S288x16_S32x16_256_0 : S288x16.Slices ![256, 0] S32x16
  shapeCasts_S16_S1x16 : S16.ShapeCasts S1x16
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S256x32_S256x32_0_0 : ∀ a, (![0, 0] : Fin 2 → Nat) a + S256x32.size a ≤ S256x32.size a
  h_S256x32 : 0 < S256x32.numel
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S256x16 : S1x16.Broadcasts S256x16
  reduces_S256x16_S256 : S256x16.Reduces [1] S256
  broadcasts_S256x1_S256x16 : S256x1.Broadcasts S256x16
  dot_S256x512_S512x512_S256x512_1_0_0_1_n_n_wf : DotDims.WF S256x512 S512x512 S256x512 [1] [0] [0] [1] [] []
  dot_S256x4096_S4096x512_S256x512_1_0_0_1_n_n_wf : DotDims.WF S256x4096 S4096x512 S256x512 [1] [0] [0] [1] [] []
  dot_S256x512_S512x256_S256x256_1_0_0_1_n_n_wf : DotDims.WF S256x512 S512x256 S256x256 [1] [0] [0] [1] [] []
  dot_S256x4096_S4096x256_S256x256_1_0_0_1_n_n_wf : DotDims.WF S256x4096 S4096x256 S256x256 [1] [0] [0] [1] [] []
  dot_S256x256_S256x16_S256x16_1_0_0_1_n_n_wf : DotDims.WF S256x256 S256x16 S256x16 [1] [0] [0] [1] [] []
  dot_S256x32_S32x16_S256x16_1_0_0_1_n_n_wf : DotDims.WF S256x32 S32x16 S256x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S4096x512.size a
  hwx0_1 : ∀ i : grid0.Coords, EltTy.bits .f32 = 32 ∨ (Rect.block (s := S4096x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S4096x1.size a
  hwx0_3 : ∀ i : grid0.Coords, EltTy.bits .f32 = 32 ∨ (Rect.block (s := S4096x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S4096x512.size a
  hwx0_4 : ∀ i : grid0.Coords, EltTy.bits .bf16 = 32 ∨ (Rect.block (s := S4096x512) S256x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S4096x4096.size a
  hwx0_5 : ∀ i : grid0.Coords, EltTy.bits .bf16 = 32 ∨ (Rect.block (s := S4096x4096) S256x4096.size (cc0_transform_5 i) (hinb0_5 i)).WholeWords (EltTy.packing .bf16)
  hrank1 : 0 < grid1.rank
  k1_off1_inb : ∀ i : grid1.Coords, ∀ a, (k1_off1 i) a + S256x512.size a ≤ S4096x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .bf16 = 32 ∨ (Rect.block (s := S4096x4096) S256x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x512.size a ≤ S4096x512.size a
  hwx1_1 : ∀ i : grid1.Coords, EltTy.bits .bf16 = 32 ∨ (Rect.block (s := S4096x512) S4096x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S4096x1.size a
  hwx1_2 : ∀ i : grid1.Coords, EltTy.bits .f32 = 32 ∨ (Rect.block (s := S4096x1) S256x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S512x256.size a
  hwx1_3 : ∀ i : grid1.Coords, EltTy.bits .f32 = 32 ∨ (Rect.block (s := S512x256) S512x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S4096x256.size a
  hwx1_5 : ∀ i : grid1.Coords, EltTy.bits .bf16 = 32 ∨ (Rect.block (s := S4096x256) S256x256.size (cc1_transform_5 i) (hinb1_5 i)).WholeWords (EltTy.packing .bf16)
  hrank2 : 0 < grid2.rank
  k2_off1_inb : ∀ i : grid2.Coords, ∀ a, (k2_off1 i) a + S256x256.size a ≤ S4096x256.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x4096.size a ≤ S4096x4096.size a
  hwx2_0 : ∀ i : grid2.Coords, EltTy.bits .bf16 = 32 ∨ (Rect.block (s := S4096x4096) S256x4096.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x256.size a ≤ S4096x256.size a
  hwx2_1 : ∀ i : grid2.Coords, EltTy.bits .bf16 = 32 ∨ (Rect.block (s := S4096x256) S4096x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x1.size a ≤ S4096x1.size a
  hwx2_2 : ∀ i : grid2.Coords, EltTy.bits .f32 = 32 ∨ (Rect.block (s := S4096x1) S256x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x32.size a ≤ S4096x32.size a
  hwx2_4 : ∀ i : grid2.Coords, EltTy.bits .f32 = 32 ∨ (Rect.block (s := S4096x32) S256x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x16.size a ≤ S256x16.size a
  hwx2_5 : ∀ i : grid2.Coords, EltTy.bits .f32 = 32 ∨ (Rect.block (s := S256x16) S256x16.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S32x16.size a ≤ S32x16.size a
  hwx2_6 : ∀ i : grid2.Coords, EltTy.bits .f32 = 32 ∨ (Rect.block (s := S32x16) S32x16.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x16.size a ≤ S1x16.size a
  hwx2_7 : ∀ i : grid2.Coords, EltTy.bits .f32 = 32 ∨ (Rect.block (s := S1x16) S1x16.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S256x256.size a ≤ S4096x256.size a
  hwx2_8 : ∀ i : grid2.Coords, EltTy.bits .f32 = 32 ∨ (Rect.block (s := S4096x256) S256x256.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S256x16.size a ≤ S4096x16.size a
  hwx2_9 : ∀ i : grid2.Coords, EltTy.bits .f32 = 32 ∨ (Rect.block (s := S4096x16) S256x16.size (cc2_transform_9 i) (hinb2_9 i)).WholeWords (EltTy.packing .f32)

variable [Facts₀]

def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x256_S256x16_S256x16_1_0_0_1_n_n : DotDims S256x256 S256x16 S256x16 where
  lhsContracting := [1]
  rhsContracting := [0]
  lhsNonContracting := [0]
  rhsNonContracting := [1]
  lhsBatch := []
  rhsBatch := []
  wf := dot_S256x256_S256x16_S256x16_1_0_0_1_n_n_wf
def dot_S256x32_S32x16_S256x16_1_0_0_1_n_n : DotDims S256x32 S32x16 S256x16 where
  lhsContracting := [1]
  rhsContracting := [0]
  lhsNonContracting := [0]
  rhsNonContracting := [1]
  lhsBatch := []
  rhsBatch := []
  wf := dot_S256x32_S32x16_S256x16_1_0_0_1_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S256x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S256x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0_2) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S4096x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S256x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S512x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S256x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v0_2) S256x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S4096x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0_0) S256x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg2) S256x32.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v4) S256x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v5) S32x16.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v6) S1x16.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v7_0) S256x256.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v7_1) S256x16.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S4096x512 : Shape := ⟨2, ![4096, 512]⟩
abbrev S4096x4096 : Shape := ⟨2, ![4096, 4096]⟩
abbrev S4096x32 : Shape := ⟨2, ![4096, 32]⟩
abbrev S512x512 : Shape := ⟨2, ![512, 512]⟩
abbrev S512 : Shape := ⟨1, ![512]⟩
abbrev S512x256 : Shape := ⟨2, ![512, 256]⟩
abbrev S256 : Shape := ⟨1, ![256]⟩
abbrev S288x16 : Shape := ⟨2, ![288, 16]⟩
abbrev S16 : Shape := ⟨1, ![16]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S1x512 : Shape := ⟨2, ![1, 512]⟩
abbrev S4096x256 : Shape := ⟨2, ![4096, 256]⟩
abbrev S1x256 : Shape := ⟨2, ![1, 256]⟩
abbrev S4096x288 : Shape := ⟨2, ![4096, 288]⟩
abbrev S4096x16 : Shape := ⟨2, ![4096, 16]⟩
abbrev S1x16 : Shape := ⟨2, ![1, 16]⟩

abbrev nBuf : Space → Nat
  | .hbm => 86
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S4096x32, .f32⟩
  | .hbm, ⟨3, _⟩ => ⟨S512x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S288x16, .f32⟩
  | .hbm, ⟨8, _⟩ => ⟨S16, .f32⟩
  | .hbm, ⟨9, _⟩ => ⟨S4096x4096, .i32⟩
  | .hbm, ⟨10, _⟩ => ⟨S4096x4096, .i32⟩
  | .hbm, ⟨11, _⟩ => ⟨S_, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1, .f32⟩
  | .hbm, ⟨24, _⟩ => ⟨S4096x4096, .f32⟩
  | .hbm, ⟨25, _⟩ => ⟨S4096x4096, .f32⟩
  | .hbm, ⟨26, _⟩ => ⟨S1x4096, .f32⟩
  | .hbm, ⟨27, _⟩ => ⟨S4096x4096, .f32⟩
  | .hbm, ⟨28, _⟩ => ⟨S4096x4096, .f32⟩
  | .hbm, ⟨29, _⟩ => ⟨S4096x512, .f32⟩
  | .hbm, ⟨30, _⟩ => ⟨S4096x512, .f32⟩
  | .hbm, ⟨31, _⟩ => ⟨S1x512, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S_, .f32⟩
  | .hbm, ⟨36, _⟩ => ⟨S4096x512, .f32⟩
  | .hbm, ⟨37, _⟩ => ⟨S4096x512, .i1⟩
  | .hbm, ⟨38, _⟩ => ⟨S_, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S4096x4096, .i32⟩
  | .hbm, ⟨43, _⟩ => ⟨S4096x4096, .i32⟩
  | .hbm, ⟨44, _⟩ => ⟨S_, .i32⟩
  | .hbm, ⟨45, _⟩ => ⟨S4096x4096, .i32⟩
  | .hbm, ⟨46, _⟩ => ⟨S4096x4096, .i32⟩
  | .hbm, ⟨47, _⟩ => ⟨S4096x4096, .i1⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S_, .f32⟩
  | .hbm, ⟨54, _⟩ => ⟨S4096, .f32⟩
  | .hbm, ⟨55, _⟩ => ⟨S4096, .f32⟩
  | .hbm, ⟨56, _⟩ => ⟨S4096x1, .f32⟩
  | .hbm, ⟨57, _⟩ => ⟨S4096x4096, .f32⟩
  | .hbm, ⟨58, _⟩ => ⟨S4096x4096, .f32⟩
  | .hbm, ⟨59, _⟩ => ⟨S1x4096, .f32⟩
  | .hbm, ⟨60, _⟩ => ⟨S4096x4096, .f32⟩
  | .hbm, ⟨61, _⟩ => ⟨S4096x4096, .f32⟩
  | .hbm, ⟨62, _⟩ => ⟨S4096x256, .f32⟩
  | .hbm, ⟨63, _⟩ => ⟨S4096x256, .f32⟩
  | .hbm, ⟨64, _⟩ => ⟨S1x256, .f32⟩
  | .hbm, ⟨65, _⟩ => ⟨S4096x256, .f32⟩
  | .hbm, ⟨66, _⟩ => ⟨S4096x256, .f32⟩
  | .hbm, ⟨67, _⟩ => ⟨S4096x288, .f32⟩
  | .hbm, ⟨68, _⟩ => ⟨S4096x16, .f32⟩
  | .hbm, ⟨69, _⟩ => ⟨S1x16, .f32⟩
  | .hbm, ⟨70, _⟩ => ⟨S4096x16, .f32⟩
  | .hbm, ⟨71, _⟩ => ⟨S4096x16, .f32⟩
  | .hbm, ⟨72, _⟩ => ⟨S_, .f32⟩
  | .hbm, ⟨73, _⟩ => ⟨S4096, .f32⟩
  | .hbm, ⟨74, _⟩ => ⟨S_, .f32⟩
  | .hbm, ⟨75, _⟩ => ⟨S4096, .f32⟩
  | .hbm, ⟨76, _⟩ => ⟨S4096, .f32⟩
  | .hbm, ⟨77, _⟩ => ⟨S4096x1, .f32⟩
  | .hbm, ⟨78, _⟩ => ⟨S4096x16, .f32⟩
  | .hbm, ⟨79, _⟩ => ⟨S4096x16, .f32⟩
  | .hbm, ⟨80, _⟩ => ⟨S4096x16, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S4096x16, .f32⟩
  | .hbm, ⟨85, _⟩ => ⟨S4096x16, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_v31 : Ref sig .tc := ⟨.hbm, 52, rfl⟩
abbrev main_cst_4 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_5 : Ref sig .tc := ⟨.hbm, 72, rfl⟩
abbrev main_v50 : Ref sig .tc := ⟨.hbm, 73, rfl⟩
abbrev main_cst_6 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_7 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  concatenates_S4096x256_S4096x32_S4096x288_d1 : Shape.Concatenates [S4096x256, S4096x32] S4096x288 1
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  reducesTo_S4096x16_S4096_d1 : S4096x16.ReducesTo [1] S4096
  bcast_S4096x1_S4096x16_0_1 : S4096x1.BroadcastsInDim S4096x16 (![0, 1] : Fin 2 → Fin S4096x16.rank)
  dot_S4096x512_S512x512_S4096x512_1_0_0_1_n_n_wf : DotDims.WF S4096x512 S512x512 S4096x512 [1] [0] [0] [1] [] []
  dot_S4096x4096_S4096x512_S4096x512_1_0_0_1_n_n_wf : DotDims.WF S4096x4096 S4096x512 S4096x512 [1] [0] [0] [1] [] []
  dot_S4096x512_S512x256_S4096x256_1_0_0_1_n_n_wf : DotDims.WF S4096x512 S512x256 S4096x256 [1] [0] [0] [1] [] []
  dot_S4096x4096_S4096x256_S4096x256_1_0_0_1_n_n_wf : DotDims.WF S4096x4096 S4096x256 S4096x256 [1] [0] [0] [1] [] []
  dot_S4096x288_S288x16_S4096x16_1_0_0_1_n_n_wf : DotDims.WF S4096x288 S288x16 S4096x16 [1] [0] [0] [1] [] []

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x288_S288x16_S4096x16_1_0_0_1_n_n : DotDims S4096x288 S288x16 S4096x16 where
  lhsContracting := [1]
  rhsContracting := [0]
  lhsNonContracting := [0]
  rhsNonContracting := [1]
  lhsBatch := []
  rhsBatch := []
  wf := dot_S4096x288_S288x16_S4096x16_1_0_0_1_n_n_wf

class Facts : Prop extends Facts₀ where

variable [Facts]
-- ==== Proof.Spec.lean ====
/-
  The two-layer graph convolution with a softmax classifier, written index by index over the extended reals, twice:
  in the arrangement the kernel computes it and in the arrangement the reference computes it.

  Notation: a (i, k) is the adjacency, x the node features, W0, b0, W1, b1 the two layers' weights and biases, S the
  side features, Wc, bc the classifier. Let r i be the i-th row sum of I + a and d i = r i ^ (-1/2).

  The kernel never forms the normalised adjacency  Â (i, k) = (δ i k + a i k) · d i · d k.  For a layer with support
  p = h · W it computes  d i · (Σ k, a i k · (d k · p k j) + d i · p i j) + b j,  the identity's contribution folded
  into one extra term per row; the reference computes  Σ k, Â i k · p k j + b j.  The two agree when every quantity
  is a real number (the distributive law); Algebra.lean proves that, this file only states both sides.
-/
import Idealize.ShloMosaic.PureOps.Ideal
import Idealize.ShloMosaic.Lib.ValueIdx

noncomputable section

open scoped BigOperators

namespace Cert.Gcn

open Idealize.ShloMosaic

/-! ## The four float literals both programs carry, as the extended reals their words denote -/

/-- The word of 0.0. -/
abbrev c0 : EReal := Ideal.ofBits .f32 0x00000000#32
/-- The word of 1.0. -/
abbrev c1 : EReal := Ideal.ofBits .f32 0x3F800000#32
/-- The word of the leaky slope, the single-precision number nearest 0.01 (the same word in both programs). -/
abbrev slope : EReal := Ideal.ofBits .f32 0x3C23D70A#32
/-- The word of -∞, from which both row maxima start. -/
abbrev negInf : EReal := Ideal.ofBits .f32 0xFF800000#32

/-! ## Arrays read by coordinates -/

/-- A two-dimensional array read by its row and its column. -/
abbrev cur {m n : Nat} (A : (⟨2, ![m, n]⟩ : Shape).Idx → EReal) (i : Fin m) (k : Fin n) : EReal := A (ValueIdx.ix2 i k)
/-- An m × 1 array read by its row. -/
abbrev colv {m : Nat} (A : (⟨2, ![m, 1]⟩ : Shape).Idx → EReal) (i : Fin m) : EReal := A (ValueIdx.ix2 i 0)
/-- A 1 × n array read by its column. -/
abbrev rowv {n : Nat} (A : (⟨2, ![1, n]⟩ : Shape).Idx → EReal) (j : Fin n) : EReal := A (ValueIdx.ix2 0 j)
/-- A one-dimensional array read by its coordinate. -/
abbrev vec1 {n : Nat} (A : (⟨1, ![n]⟩ : Shape).Idx → EReal) (j : Fin n) : EReal := A (ValueIdx.ix1 j)

/-- An extended real that is a real number. -/
def IsFin (z : EReal) : Prop := z ≠ ⊥ ∧ z ≠ ⊤

/-- The leaky rectifier as both programs spell it: z where 0 ≤ z, slope · z elsewhere. -/
def leaky (z : EReal) : EReal := Scalar.select (Ideal.cmp .oge z c0) z (slope * z)

/-- The softmax of one row of 16 logits as both programs spell it: shift by the row maximum (a fold of max from
    -∞), exponentiate, divide by the sum of the exponentials. -/
def softmaxRow (lg : Fin 16 → EReal) (j : Fin 16) : EReal :=
  Ideal.div (Ideal.exp (lg j - (Finset.univ : Finset (Fin 16)).fold max negInf lg))
    (∑ j' : Fin 16, Ideal.exp (lg j' - (Finset.univ : Finset (Fin 16)).fold max negInf lg))

/-! ## The kernel's arrangement, launch by launch

Each function below is what ONE launch writes, as a function of the arrays that launch reads. -/

/-- First launch: d i = rsqrt (1 + Σ k, a i k). -/
def dG (a : Fin 4096 → Fin 4096 → EReal) (i : Fin 4096) : EReal :=
  Ideal.rsqrt (c1 + ∑ k : Fin 4096, a i k)

/-- First launch: the scaled support of layer 0, d i · (x · W0) i j. -/
def s0G (a : Fin 4096 → Fin 4096 → EReal) (x : Fin 4096 → Fin 512 → EReal) (W0 : Fin 512 → Fin 512 → EReal)
    (i : Fin 4096) (j : Fin 512) : EReal :=
  dG a i * ∑ q : Fin 512, x i q * W0 q j

/-- One aggregation as the kernel does it, from a scaled support s: d i · (Σ k, a i k · s k j + s i j) + bias j. -/
def aggG {n : Nat} (ab : Fin 4096 → Fin 4096 → EReal) (s : Fin 4096 → Fin n → EReal) (d : Fin 4096 → EReal)
    (bias : Fin n → EReal) (i : Fin 4096) (j : Fin n) : EReal :=
  d i * (∑ k : Fin 4096, ab i k * s k j + s i j) + bias j

/-- Second launch: the scaled support of layer 1, d i · (leaky (layer 0) · W1) i j. -/
def s1G (ab : Fin 4096 → Fin 4096 → EReal) (s0 : Fin 4096 → Fin 512 → EReal) (d : Fin 4096 → EReal)
    (W1 : Fin 512 → Fin 256 → EReal) (b0 : Fin 512 → EReal) (i : Fin 4096) (j : Fin 256) : EReal :=
  d i * ∑ q : Fin 512, leaky (aggG ab s0 d b0 i q) * W1 q j

/-- Third launch, first output: layer 1. -/
def hG (ab : Fin 4096 → Fin 4096 → EReal) (s1 : Fin 4096 → Fin 256 → EReal) (d : Fin 4096 → EReal)
    (b1 : Fin 256 → EReal) (i : Fin 4096) (j : Fin 256) : EReal :=
  aggG ab s1 d b1 i j

/-- The classifier's logits with its weight matrix already split in the rows that meet h and the rows that meet S. -/
def lgG (h : Fin 4096 → Fin 256 → EReal) (S : Fin 4096 → Fin 32 → EReal) (Wch : Fin 256 → Fin 16 → EReal)
    (Wcs : Fin 32 → Fin 16 → EReal) (bc : Fin 16 → EReal) (i : Fin 4096) (j : Fin 16) : EReal :=
  (∑ q : Fin 256, h i q * Wch q j + ∑ q : Fin 32, S i q * Wcs q j) + bc j

/-- Third launch, second output: the class probabilities. -/
def yG (ab : Fin 4096 → Fin 4096 → EReal) (s1 : Fin 4096 → Fin 256 → EReal) (d : Fin 4096 → EReal)
    (b1 : Fin 256 → EReal) (S : Fin 4096 → Fin 32 → EReal) (Wch : Fin 256 → Fin 16 → EReal)
    (Wcs : Fin 32 → Fin 16 → EReal) (bc : Fin 16 → EReal) (i : Fin 4096) (j : Fin 16) : EReal :=
  softmaxRow (lgG (hG ab s1 d b1) S Wch Wcs bc i) j

/-- Rows 0 … 255 of the classifier's weights: the rows that meet h. -/
def WcTop (Wc : Fin 288 → Fin 16 → EReal) (q : Fin 256) (j : Fin 16) : EReal := Wc ⟨q.val, by omega⟩ j
/-- Rows 256 … 287 of the classifier's weights: the rows that meet S. -/
def WcBot (Wc : Fin 288 → Fin 16 → EReal) (q : Fin 32) (j : Fin 16) : EReal := Wc ⟨256 + q.val, by omega⟩ j

section Whole

variable (a : Fin 4096 → Fin 4096 → EReal) (x : Fin 4096 → Fin 512 → EReal) (S : Fin 4096 → Fin 32 → EReal)
  (W0 : Fin 512 → Fin 512 → EReal) (b0 : Fin 512 → EReal) (W1 : Fin 512 → Fin 256 → EReal) (b1 : Fin 256 → EReal)
  (Wc : Fin 288 → Fin 16 → EReal) (bc : Fin 16 → EReal)

/-- The kernel's first result, the three launches composed. -/
def hK : Fin 4096 → Fin 256 → EReal :=
  hG a (s1G a (s0G a x W0) (dG a) W1 b0) (dG a) b1

/-- The kernel's second result, the three launches composed. -/
def yK : Fin 4096 → Fin 16 → EReal :=
  yG a (s1G a (s0G a x W0) (dG a) W1 b0) (dG a) b1 S (WcTop Wc) (WcBot Wc) bc

/-! ## The reference's arrangement -/

/-- The identity matrix's entry. -/
def delta (i k : Fin 4096) : EReal := if i = k then 1 else 0

/-- I + a. -/
def AR (i k : Fin 4096) : EReal := delta i k + a i k

/-- The row sums of I + a, summed from the word of 0.0. -/
def rsR (i : Fin 4096) : EReal := c0 + ∑ k : Fin 4096, AR a i k

/-- 1 / sqrt (row sum). -/
def dR (i : Fin 4096) : EReal := Ideal.div c1 (Ideal.sqrt (rsR a i))

/-- The normalised adjacency, scaled by rows and then by columns. -/
def AnR (i k : Fin 4096) : EReal := (AR a i k * dR a i) * dR a k

/-- Layer 0 before its rectifier. -/
def z0R (i : Fin 4096) (j : Fin 512) : EReal :=
  (∑ k : Fin 4096, AnR a i k * ∑ q : Fin 512, x k q * W0 q j) + b0 j

/-- Layer 1: the reference's first result. -/
def hR (i : Fin 4096) (j : Fin 256) : EReal :=
  (∑ k : Fin 4096, AnR a i k * ∑ q : Fin 512, leaky (z0R a x W0 b0 k q) * W1 q j) + b1 j

/-- Layer 1 and the side features side by side: columns 0 … 255 from h, columns 256 … 287 from S. -/
def catR (i : Fin 4096) (q : Fin 288) : EReal :=
  if hq : q.val < 256 then hR a x W0 b0 W1 b1 i ⟨q.val, hq⟩ else S i ⟨q.val - 256, by omega⟩

/-- The classifier's logits over the concatenation. -/
def lgR (i : Fin 4096) (j : Fin 16) : EReal :=
  (∑ q : Fin 288, catR a x S W0 b0 W1 b1 i q * Wc q j) + bc j

/-- The reference's second result: its softmax takes the larger of -∞ and the row maximum, and sums the
    exponentials from the word of 0.0. -/
def yR (i : Fin 4096) (j : Fin 16) : EReal :=
  Ideal.div
    (Ideal.exp (lgR a x S W0 b0 W1 b1 Wc bc i j
      - max negInf ((Finset.univ : Finset (Fin 16)).fold max negInf (lgR a x S W0 b0 W1 b1 Wc bc i))))
    (c0 + ∑ j' : Fin 16, Ideal.exp (lgR a x S W0 b0 W1 b1 Wc bc i j'
      - max negInf ((Finset.univ : Finset (Fin 16)).fold max negInf (lgR a x S W0 b0 W1 b1 Wc bc i))))

end Whole

end Cert.Gcn
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.Launch0.lean ====
/-
  The first launch, block by block. At grid point t it reads rows 256·t … 256·t + 255 of adj and of x and the whole
  of W0, and writes the same rows of three arrays: d, one column holding the reciprocal square root of 1 + the row's
  sum of adj; the scaled support d · (x · W0); and a copy of adj. Each block written is the restriction to those rows
  of ONE function of the whole input arrays, and the sixteen blocks cover the 4096 rows, so each output array ends
  holding that function.
-/
import proofs.«148359_g79121887527625_cont_sun_m_466_4_alg».proof.Proof.Gen.KernelIdeal.Frame
import proofs.«148359_g79121887527625_cont_sun_m_466_4_alg».proof.Proof.Spec
import proofs.«148359_g79121887527625_cont_sun_m_466_4_alg».proof.Proof.LibDotPlain
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Launch0

open Idealize.ShloMosaic Idealize.ShloMosaic.TcCoe Idealize.SL.Sem Idealize.ShloMosaic.ValueIdx
open Idealize.ShloMosaic.Pipeline (Dat)
open Cert.KernelIdeal Cert.KernelIdeal.Gen Cert.Gcn

-- the arrays as the launch finds them: any contents
variable (V : (c : Dev nD) → (b : Ref sig .tc) → Buf (Elt Ideal) ((c : Thread nD τ).loc b))

/-!
# The first launch, array by array

The launch visits 16 points; at point t it holds rows 256 t … 256 t + 255 of its first two operands and the whole
weight matrix, and writes the same rows of its three results. On one block of rows the body computes, row by row,
d = rsqrt (1 + the row's sum), the product of the feature rows with the weights scaled by d, and a copy of the
adjacency rows. Each result is therefore the restriction to those rows of ONE function of the whole operands, and the
16 row blocks cover every row, so each result array ends holding that function.
-/

/-! ## Two layouts of a column -/

/-- A vector of length a viewed as an a × 1 column reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a × 1 column repeated along b columns reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's three results at an index -/

/-- The sum along the lanes of a 256 × 4096 block, at row i: the sum over the 4096 columns. -/
theorem rowSum_apply (x0 : FVec Ideal S256x4096 .f32) (h : S256x4096.Reduces [1] S256) (i : Fin 256) :
    multiReduction (F := Ideal) .add [1] S256 x0 0x00000000#32 h (.inl rfl) rfl (ix1 i)
      = ∑ k : Fin 4096, x0 (ix2 i k) := by
  refine (Ideal.multiReduction_add_single x0 _ h (.inl rfl) rfl (ix1 i)).trans ?_
  exact Finset.sum_congr rfl fun k _ => congrArg x0 (funext fun a => Fin.ext (by
    match a with
    | ⟨0, _⟩ => rfl
    | ⟨1, _⟩ => rfl))

/-- The body's first result at (i, u): rsqrt of one plus the block's i-th row sum. -/
theorem pay2_apply (x0 : Vec Ideal S256x4096 .f32) (i : Fin 256) (u : Fin 1) :
    k0_pay2 (F := Ideal) x0 (ix2 i u) = Ideal.rsqrt (c1 + ∑ k : Fin 4096, x0 (ix2 i k)) := by
  unfold k0_pay2
  show Ideal.rsqrt (c1 + shapeCast S256x1 _ shapeCasts_S256_S256x1 (ix2 i u)) = _
  refine congrArg (fun z => Ideal.rsqrt (c1 + z)) ?_
  refine (shapeCast_a_a1_apply _ shapeCasts_S256_S256x1 i u).trans ?_
  exact rowSum_apply x0 reduces_S256x4096_S256 i

/-- The body's second result at (i, j): its first result at row i times the (i, j) entry of the product of the two
    other blocks. -/
theorem pay3_apply (x0 : Vec Ideal S256x4096 .f32) (x1 : Vec Ideal S256x512 .f32) (x2 : Vec Ideal S512x512 .f32)
    (i : Fin 256) (j : Fin 512) :
    k0_pay3 (F := Ideal) x0 x1 x2 (ix2 i j)
      = Ideal.rsqrt (c1 + ∑ k : Fin 4096, x0 (ix2 i k)) * ∑ q : Fin 512, x1 (ix2 i q) * x2 (ix2 q j) := by
  unfold k0_pay3
  show broadcastTo S256x512 (k0_pay2 (F := Ideal) x0) broadcasts_S256x1_S256x512 (ix2 i j)
      * FloatOps.matmul dot_S256x512_S512x512_S256x512_1_0_0_1_n_n none x1 x2 (constant S256x512 .f32 0x00000000#32) (ix2 i j) = _
  refine congrArg₂ (· * ·) ?_ ?_
  · refine (broadcastTo_a1_ab_apply _ broadcasts_S256x1_S256x512 i j).trans ?_
    exact pay2_apply x0 i 0
  · exact Cert.LibDotPlain.matmul_zero_plain 256 512 512 none x1 x2 i j

/-- The body's third result is its first block unchanged. -/
theorem pay1_apply (x0 : Vec Ideal S256x4096 .f32) (y : S256x4096.Idx) : k0_pay1 (F := Ideal) x0 y = x0 y := rfl

/-! ## The blocks: which rows of its array a window's block is at point t

Every window of this launch but the third moves by whole blocks of 256 rows: at point t its block is rows
256 t … 256 t + 255, all columns. The third window (the weight matrix) is the whole array at every point. -/

theorem hz : (![0, 0] : Fin 2 → Nat) = fun _ => 0 := funext fun a => by fin_cases a <;> rfl

/-- The block indices at point t, decided over the 16 points: row block t, column block 0; the weights' block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The first operand's block at point t, at (p, k), is the array at (256 t + p, k). -/
theorem adjBlk_apply (c : Dev nD) (t : Fin cfg0.N) (p : Fin 256) (k : Fin 4096) (r : Fin 4096)
    (hr : r.val = t.val * 256 + p.val) :
    (iblk0 V c 0 t : Vec Ideal S256x4096 .f32) (ix2 p k) = (V c main_arg1 : S4096x4096.Idx → EReal) (ix2 r k) := by
  obtain ⟨e0, e1, -⟩ := idx_facts t
  unfold iblk0
  rw [View.read_apply]
  show (V c main_arg1 : S4096x4096.Idx → EReal) _ = _
  congr 1
  funext a
  apply Fin.ext
  match a with
  | ⟨0, _⟩ => show win0_0.index t 0 * 256 + 1 * p.val = r.val; rw [e0, hr]; omega
  | ⟨1, _⟩ => show win0_0.index t 1 * 4096 + 1 * k.val = k.val; rw [e1]; omega

/-- The second operand's block at point t, at (p, q), is the array at (256 t + p, q). -/
theorem xBlk_apply (c : Dev nD) (t : Fin cfg0.N) (p : Fin 256) (q : Fin 512) (r : Fin 4096)
    (hr : r.val = t.val * 256 + p.val) :
    (iblk0 V c 1 t : Vec Ideal S256x512 .f32) (ix2 p q) = (V c main_arg0 : S4096x512.Idx → EReal) (ix2 r q) := by
  obtain ⟨-, -, e0, e1, -⟩ := idx_facts t
  unfold iblk0
  rw [View.read_apply]
  show (V c main_arg0 : S4096x512.Idx → EReal) _ = _
  congr 1
  funext a
  apply Fin.ext
  match a with
  | ⟨0, _⟩ => show win0_1.index t 0 * 256 + 1 * p.val = r.val; rw [e0, hr]; omega
  | ⟨1, _⟩ => show win0_1.index t 1 * 512 + 1 * q.val = q.val; rw [e1]; omega

/-- The weights' block at every point is the whole array. -/
theorem wBlk_apply (c : Dev nD) (t : Fin cfg0.N) (q : Fin 512) (j : Fin 512) :
    (iblk0 V c 2 t : Vec Ideal S512x512 .f32) (ix2 q j) = (V c main_arg3 : S512x512.Idx → EReal) (ix2 q j) := by
  obtain ⟨-, -, -, -, e0, e1, -⟩ := idx_facts t
  unfold iblk0
  rw [View.read_apply]
  show (V c main_arg3 : S512x512.Idx → EReal) _ = _
  congr 1
  funext a
  apply Fin.ext
  match a with
  | ⟨0, _⟩ => show win0_2.index t 0 * 512 + 1 * q.val = q.val; rw [e0]; omega
  | ⟨1, _⟩ => show win0_2.index t 1 * 512 + 1 * j.val = j.val; rw [e1]; omega

/-! ## Where an output block's entry sits in its array -/

/-- Entry (p, u) of the first output's block at point t is entry (256 t + p, u) of the array. -/
theorem dEmb (t : Fin cfg0.N) (p : Fin 256) (u : Fin 1) (r : Fin 4096) (hr : r.val = t.val * 256 + p.val) :
    (((cfg0.win 3).blk t).view.emb (ix2 p u) : S4096x1.Idx) = ix2 r u := by
  obtain ⟨-, -, -, -, -, -, e0, e1, -⟩ := idx_facts t
  funext a
  apply Fin.ext
  match a with
  | ⟨0, _⟩ => show win0_3.index t 0 * 256 + 1 * p.val = r.val; rw [e0, hr]; omega
  | ⟨1, _⟩ => show win0_3.index t 1 * 1 + 1 * u.val = u.val; rw [e1]; omega

/-- Entry (p, j) of the second output's block at point t is entry (256 t + p, j) of the array. -/
theorem s0Emb (t : Fin cfg0.N) (p : Fin 256) (j : Fin 512) (r : Fin 4096) (hr : r.val = t.val * 256 + p.val) :
    (((cfg0.win 4).blk t).view.emb (ix2 p j) : S4096x512.Idx) = ix2 r j := by
  obtain ⟨-, -, -, -, -, -, -, -, e0, e1, -⟩ := idx_facts t
  funext a
  apply Fin.ext
  match a with
  | ⟨0, _⟩ => show win0_4.index t 0 * 256 + 1 * p.val = r.val; rw [e0, hr]; omega
  | ⟨1, _⟩ => show win0_4.index t 1 * 512 + 1 * j.val = j.val; rw [e1]; omega

/-- Entry (p, k) of the third output's block at point t is entry (256 t + p, k) of the array. -/
theorem adjbEmb (t : Fin cfg0.N) (p : Fin 256) (k : Fin 4096) (r : Fin 4096) (hr : r.val = t.val * 256 + p.val) :
    (((cfg0.win 5).blk t).view.emb (ix2 p k) : S4096x4096.Idx) = ix2 r k := by
  obtain ⟨-, -, -, -, -, -, -, -, -, -, e0, e1⟩ := idx_facts t
  funext a
  apply Fin.ext
  match a with
  | ⟨0, _⟩ => show win0_5.index t 0 * 256 + 1 * p.val = r.val; rw [e0, hr]; omega
  | ⟨1, _⟩ => show win0_5.index t 1 * 4096 + 1 * k.val = k.val; rw [e1]; omega

/-! ## What each point writes back: the block of one whole-array function -/

/-- Point t writes back, as the first output's block, rows 256 t … 256 t + 255 of d. -/
theorem flushed_d (c : Dev nD) (t : Fin cfg0.N) :
    (dat0 V c).flushed 3 t = ((cfg0.win 3).blk t).view.read (Elt Ideal)
      (fun idx : S4096x1.Idx => dG (cur (V c main_arg1 : S4096x4096.Idx → EReal)) (idx 0)) := by
  show (cfg0.win 3).cut (grid0.coords t) ((dat0 V c).after 3 t) = _
  rw [after0_3]
  unfold out0_3
  rw [View.canon_unit_zero hz]
  simp only [View.ld_unit_zero (S := S256x4096) hz]
  refine funext fun (j : S256x1.Idx) => ?_
  obtain ⟨p, u, rfl⟩ : ∃ (p : Fin 256) (u : Fin 1), j = ix2 p u := ⟨j 0, j 1, eq_ix2 j⟩
  have hN : cfg0.N = 16 := N_0
  have hp : p.val < 256 := p.isLt
  have ht : t.val < cfg0.N := t.isLt
  obtain ⟨r, hr⟩ : ∃ r : Fin 4096, r.val = t.val * 256 + p.val := ⟨⟨t.val * 256 + p.val, by omega⟩, rfl⟩
  rw [View.read_apply]
  show k0_pay2 (F := Ideal) (iblk0 V c 0 t) (ix2 p u)
      = dG (cur (V c main_arg1 : S4096x4096.Idx → EReal)) ((((cfg0.win 3).blk t).view.emb (ix2 p u) : S4096x1.Idx) 0)
  rw [dEmb t p u r hr]
  refine (pay2_apply (iblk0 V c 0 t) p u).trans ?_
  show _ = Ideal.rsqrt (c1 + ∑ k : Fin 4096, cur (V c main_arg1 : S4096x4096.Idx → EReal) r k)
  exact congrArg (fun z => Ideal.rsqrt (c1 + z)) (Finset.sum_congr rfl fun k _ => adjBlk_apply V c t p k r hr)

/-- Point t writes back, as the second output's block, rows 256 t … 256 t + 255 of the scaled support. -/
theorem flushed_s0 (c : Dev nD) (t : Fin cfg0.N) :
    (dat0 V c).flushed 4 t = ((cfg0.win 4).blk t).view.read (Elt Ideal)
      (fun idx : S4096x512.Idx => s0G (cur (V c main_arg1 : S4096x4096.Idx → EReal))
        (cur (V c main_arg0 : S4096x512.Idx → EReal)) (cur (V c main_arg3 : S512x512.Idx → EReal)) (idx 0) (idx 1)) := by
  show (cfg0.win 4).cut (grid0.coords t) ((dat0 V c).after 4 t) = _
  rw [after0_4]
  unfold out0_4
  rw [View.canon_unit_zero hz]
  simp only [View.ld_unit_zero (S := S256x4096) hz, View.ld_unit_zero (S := S256x512) hz,
    View.ld_unit_zero (S := S512x512) hz]
  refine funext fun (j : S256x512.Idx) => ?_
  obtain ⟨p, q, rfl⟩ : ∃ (p : Fin 256) (q : Fin 512), j = ix2 p q := ⟨j 0, j 1, eq_ix2 j⟩
  have hN : cfg0.N = 16 := N_0
  have hp : p.val < 256 := p.isLt
  have ht : t.val < cfg0.N := t.isLt
  obtain ⟨r, hr⟩ : ∃ r : Fin 4096, r.val = t.val * 256 + p.val := ⟨⟨t.val * 256 + p.val, by omega⟩, rfl⟩
  rw [View.read_apply]
  show k0_pay3 (F := Ideal) (iblk0 V c 0 t) (iblk0 V c 1 t) (iblk0 V c 2 t) (ix2 p q)
      = s0G (cur (V c main_arg1 : S4096x4096.Idx → EReal)) (cur (V c main_arg0 : S4096x512.Idx → EReal))
          (cur (V c main_arg3 : S512x512.Idx → EReal))
          ((((cfg0.win 4).blk t).view.emb (ix2 p q) : S4096x512.Idx) 0)
          ((((cfg0.win 4).blk t).view.emb (ix2 p q) : S4096x512.Idx) 1)
  rw [s0Emb t p q r hr]
  refine (pay3_apply (iblk0 V c 0 t) (iblk0 V c 1 t) (iblk0 V c 2 t) p q).trans ?_
  show _ = Ideal.rsqrt (c1 + ∑ k : Fin 4096, cur (V c main_arg1 : S4096x4096.Idx → EReal) r k)
      * ∑ q' : Fin 512, cur (V c main_arg0 : S4096x512.Idx → EReal) r q' * cur (V c main_arg3 : S512x512.Idx → EReal) q' q
  refine congrArg₂ (· * ·)
    (congrArg (fun z => Ideal.rsqrt (c1 + z)) (Finset.sum_congr rfl fun k _ => adjBlk_apply V c t p k r hr))
    (Finset.sum_congr rfl fun q' _ => congrArg₂ (· * ·) (xBlk_apply V c t p q' r hr) (wBlk_apply V c t q' q))

/-- Point t writes back, as the third output's block, rows 256 t … 256 t + 255 of the first operand. -/
theorem flushed_adjb (c : Dev nD) (t : Fin cfg0.N) :
    (dat0 V c).flushed 5 t = ((cfg0.win 5).blk t).view.read (Elt Ideal)
      (fun idx : S4096x4096.Idx => (V c main_arg1 : S4096x4096.Idx → EReal) idx) := by
  show (cfg0.win 5).cut (grid0.coords t) ((dat0 V c).after 5 t) = _
  rw [after0_5]
  unfold out0_5
  rw [View.canon_unit_zero hz]
  simp only [View.ld_unit_zero (S := S256x4096) hz]
  refine funext fun (j : S256x4096.Idx) => ?_
  obtain ⟨p, k, rfl⟩ : ∃ (p : Fin 256) (k : Fin 4096), j = ix2 p k := ⟨j 0, j 1, eq_ix2 j⟩
  have hN : cfg0.N = 16 := N_0
  have hp : p.val < 256 := p.isLt
  have ht : t.val < cfg0.N := t.isLt
  obtain ⟨r, hr⟩ : ∃ r : Fin 4096, r.val = t.val * 256 + p.val := ⟨⟨t.val * 256 + p.val, by omega⟩, rfl⟩
  rw [View.read_apply]
  show k0_pay1 (F := Ideal) (iblk0 V c 0 t) (ix2 p k)
      = (V c main_arg1 : S4096x4096.Idx → EReal) (((cfg0.win 5).blk t).view.emb (ix2 p k) : S4096x4096.Idx)
  rw [adjbEmb t p k r hr]
  exact (pay1_apply (iblk0 V c 0 t) (ix2 p k)).trans (adjBlk_apply V c t p k r hr)

/-! ## The blocks cover each output: row i is in the block of point i / 256 -/

theorem cover_d (i : S4096x1.Idx) :
    ∃ t : Fin cfg0.N, (cfg0.win 3).flush t = true ∧ i ∈ ((cfg0.win 3).blk t).view.set := by
  have hN : cfg0.N = 16 := N_0
  have hi0 : (i 0).val < 4096 := (i 0).isLt
  have hi1 : (i 1).val < 1 := (i 1).isLt
  obtain ⟨t, ht⟩ : ∃ t : Fin cfg0.N, t.val = (i 0).val / 256 := ⟨⟨(i 0).val / 256, by omega⟩, rfl⟩
  obtain ⟨-, -, -, -, -, -, e0, e1, -⟩ := idx_facts t
  refine ⟨t, flush0_3 t, ?_⟩
  show i ∈ ((View.whole main_v0_0).slice (win0_3.rect t)).set
  rw [View.set_slice_whole, Rect.mem_set_unit]
  intro a
  match a with
  | ⟨0, _⟩ =>
    show win0_3.index t 0 * 256 ≤ (i 0).val ∧ (i 0).val < win0_3.index t 0 * 256 + 256
    rw [e0]; omega
  | ⟨1, _⟩ =>
    show win0_3.index t 1 * 1 ≤ (i 1).val ∧ (i 1).val < win0_3.index t 1 * 1 + 1
    rw [e1]; omega

theorem cover_s0 (i : S4096x512.Idx) :
    ∃ t : Fin cfg0.N, (cfg0.win 4).flush t = true ∧ i ∈ ((cfg0.win 4).blk t).view.set := by
  have hN : cfg0.N = 16 := N_0
  have hi0 : (i 0).val < 4096 := (i 0).isLt
  have hi1 : (i 1).val < 512 := (i 1).isLt
  obtain ⟨t, ht⟩ : ∃ t : Fin cfg0.N, t.val = (i 0).val / 256 := ⟨⟨(i 0).val / 256, by omega⟩, rfl⟩
  obtain ⟨-, -, -, -, -, -, -, -, e0, e1, -⟩ := idx_facts t
  refine ⟨t, flush0_4 t, ?_⟩
  show i ∈ ((View.whole main_v0_1).slice (win0_4.rect t)).set
  rw [View.set_slice_whole, Rect.mem_set_unit]
  intro a
  match a with
  | ⟨0, _⟩ =>
    show win0_4.index t 0 * 256 ≤ (i 0).val ∧ (i 0).val < win0_4.index t 0 * 256 + 256
    rw [e0]; omega
  | ⟨1, _⟩ =>
    show win0_4.index t 1 * 512 ≤ (i 1).val ∧ (i 1).val < win0_4.index t 1 * 512 + 512
    rw [e1]; omega

theorem cover_adjb (i : S4096x4096.Idx) :
    ∃ t : Fin cfg0.N, (cfg0.win 5).flush t = true ∧ i ∈ ((cfg0.win 5).blk t).view.set := by
  have hN : cfg0.N = 16 := N_0
  have hi0 : (i 0).val < 4096 := (i 0).isLt
  have hi1 : (i 1).val < 4096 := (i 1).isLt
  obtain ⟨t, ht⟩ : ∃ t : Fin cfg0.N, t.val = (i 0).val / 256 := ⟨⟨(i 0).val / 256, by omega⟩, rfl⟩
  obtain ⟨-, -, -, -, -, -, -, -, -, -, e0, e1⟩ := idx_facts t
  refine ⟨t, flush0_5 t, ?_⟩
  show i ∈ ((View.whole main_v0_2).slice (win0_5.rect t)).set
  rw [View.set_slice_whole, Rect.mem_set_unit]
  intro a
  match a with
  | ⟨0, _⟩ =>
    show win0_5.index t 0 * 256 ≤ (i 0).val ∧ (i 0).val < win0_5.index t 0 * 256 + 256
    rw [e0]; omega
  | ⟨1, _⟩ =>
    show win0_5.index t 1 * 4096 ≤ (i 1).val ∧ (i 1).val < win0_5.index t 1 * 4096 + 4096
    rw [e1]; omega

/-- The first launch's first output array ends holding d: entry (i, 0) is rsqrt (1 + the i-th row sum of its first
    operand). -/
theorem final_d (c : Dev nD) :
    (dat0 V c).arrAt 3 cfg0.N
      = (fun idx : S4096x1.Idx => dG (cur (V c main_arg1 : S4096x4096.Idx → EReal)) (idx 0)) :=
  (dat0 V c).arrAt_eq_of_cover 3 _ (fun t _ => flushed_d V c t) cover_d

/-- The first launch's second output array ends holding the scaled support of layer 0. -/
theorem final_s0 (c : Dev nD) :
    (dat0 V c).arrAt 4 cfg0.N
      = (fun idx : S4096x512.Idx => s0G (cur (V c main_arg1 : S4096x4096.Idx → EReal))
          (cur (V c main_arg0 : S4096x512.Idx → EReal)) (cur (V c main_arg3 : S512x512.Idx → EReal)) (idx 0) (idx 1)) :=
  (dat0 V c).arrAt_eq_of_cover 4 _ (fun t _ => flushed_s0 V c t) cover_s0

/-- The first launch's third output array ends holding a copy of its first operand. -/
theorem final_adjb (c : Dev nD) :
    (dat0 V c).arrAt 5 cfg0.N = (fun idx : S4096x4096.Idx => (V c main_arg1 : S4096x4096.Idx → EReal) idx) :=
  (dat0 V c).arrAt_eq_of_cover 5 _ (fun t _ => flushed_adjb V c t) cover_adjb

end Cert.KernelIdeal.Launch0
-- ==== Proof.Launch1.lean ====
/-
  The second launch, block by block. At grid point t it reads rows 256·t … 256·t + 255 of the adjacency copy and of d,
  the WHOLE scaled support s0 (once as the right factor of the aggregation, once through its own rows 256·t … for the
  identity's term), W1 and the bias row, and writes the same rows of the scaled support of layer 1:
  d · (leaky (d · (adj · s0 + own rows of s0) + b0) · W1). The block written at t is the restriction to those rows of
  ONE function of the whole input arrays, and the sixteen blocks cover the 4096 rows.
-/
import proofs.«148359_g79121887527625_cont_sun_m_466_4_alg».proof.Proof.Gen.KernelIdeal.Frame
import proofs.«148359_g79121887527625_cont_sun_m_466_4_alg».proof.Proof.Spec
import proofs.«148359_g79121887527625_cont_sun_m_466_4_alg».proof.Proof.LibDotPlain
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Launch1

open Idealize.ShloMosaic Idealize.ShloMosaic.TcCoe Idealize.SL.Sem Idealize.ShloMosaic.ValueIdx
open Idealize.ShloMosaic.Pipeline (Dat)
open Cert.KernelIdeal Cert.KernelIdeal.Gen Cert.Gcn

-- the arrays as the launch finds them: any contents
variable (V : (c : Dev nD) → (b : Ref sig .tc) → Buf (Elt Ideal) ((c : Thread nD τ).loc b))

/-! ## The body's arithmetic at one entry of a block -/

/-- An a × 1 column broadcast to a × b reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

section Payload

variable {F : FTy → Type} [FloatOps F]

/-- Layer 0 before its rectifier, on one block of 256 rows: the block's rows of the adjacency times the whole scaled
    support, plus the block's own rows of the scaled support, scaled by the block's entries of d, plus the bias row. -/
def pre (x0 : Vec F S256x4096 .bf16) (x1 : Vec F S4096x512 .bf16) (x7 : Vec F S256x512 .bf16) (x2 : Vec F S256x1 .f32)
    (x4 : Vec F S1x512 .f32) : FVec F S256x512 .f32 :=
  addf
    (mulf (broadcastTo S256x512 (shapeCast S256x1 x2 shapeCasts_S256x1_S256x1) broadcasts_S256x1_S256x512)
      (addf
        (matmul dot_S256x4096_S4096x512_S256x512_1_0_0_1_n_n none (shapeCast S256x4096 x0 shapeCasts_S256x4096_S256x4096)
          (shapeCast S4096x512 x1 shapeCasts_S4096x512_S4096x512) (constant S256x512 .f32 0x00000000#32))
        (extf .f32 (shapeCast S256x512 x7 shapeCasts_S256x512_S256x512) bitsLt_bf16_f32)))
    (broadcastTo S256x512 (shapeCast S1x512 x4 shapeCasts_S1x512_S1x512) broadcasts_S1x512_S256x512)

/-- The block the body stores: the rectified layer 0 times W1, scaled by the block's entries of d. -/
theorem pay_eq (x0 : Vec F S256x4096 .bf16) (x1 : Vec F S4096x512 .bf16) (x7 : Vec F S256x512 .bf16)
    (x2 : Vec F S256x1 .f32) (x4 : Vec F S1x512 .f32) (x2' : Vec F S256x1 .f32) (x3 : Vec F S512x256 .f32) :
    k1_pay1 x0 x1 x7 x2 x4 x2' x3
      = truncf .bf16
          (mulf (broadcastTo S256x256 (shapeCast S256x1 x2' shapeCasts_S256x1_S256x1) broadcasts_S256x1_S256x256)
            (matmul dot_S256x512_S512x256_S256x256_1_0_0_1_n_n none
              (select (cmpf .oge (pre x0 x1 x7 x2 x4) (broadcast S256x512 (Scalar.ofBits .f32 0x00000000#32)))
                (pre x0 x1 x7 x2 x4)
                (mulf (broadcast S256x512 (Scalar.ofBits .f32 0x3C23D70A#32)) (pre x0 x1 x7 x2 x4)))
              x3 (constant S256x256 .f32 0x00000000#32)))
          bitsLt_bf16_f32 := rfl

end Payload

theorem dot_a_plain : dot_S256x4096_S4096x512_S256x512_1_0_0_1_n_n = DotDims.plain 256 4096 512 := rfl
theorem dot_b_plain : dot_S256x512_S512x256_S256x256_1_0_0_1_n_n = DotDims.plain 256 512 256 := rfl

/-- Layer 0 before its rectifier at entry (r, q) of a block. -/
theorem pre_apply (x0 : FVec Ideal S256x4096 .bf16) (x1 : FVec Ideal S4096x512 .bf16) (x7 : FVec Ideal S256x512 .bf16)
    (x2 : FVec Ideal S256x1 .f32) (x4 : FVec Ideal S1x512 .f32) (r : Fin 256) (q : Fin 512) :
    pre (F := Ideal) x0 x1 x7 x2 x4 (ix2 r q)
      = x2 (ix2 r 0) * (∑ k : Fin 4096, x0 (ix2 r k) * x1 (ix2 k q) + x7 (ix2 r q)) + x4 (ix2 0 q) := by
  unfold pre
  rw [shapeCast_self, shapeCast_self, shapeCast_self, shapeCast_self, shapeCast_self, dot_a_plain]
  show broadcastTo S256x512 x2 _ (ix2 r q) * (FloatOps.matmul (DotDims.plain 256 4096 512) none x0 x1 (constant (F := Ideal) S256x512 .f32 0x00000000#32) (ix2 r q) + x7 (ix2 r q))
      + broadcastTo S256x512 x4 _ (ix2 r q) = _
  rw [broadcastTo_a1_ab_apply, broadcastTo_1b_ab_apply, Cert.LibDotPlain.matmul_zero_plain]

/-- The stored block at entry (r, j): d times the sum over q of the rectified layer 0 at (r, q) times W1 (q, j). -/
theorem pay_apply (x0 : FVec Ideal S256x4096 .bf16) (x1 : FVec Ideal S4096x512 .bf16) (x7 : FVec Ideal S256x512 .bf16)
    (x2 : FVec Ideal S256x1 .f32) (x4 : FVec Ideal S1x512 .f32) (x2' : FVec Ideal S256x1 .f32)
    (x3 : FVec Ideal S512x256 .f32) (r : Fin 256) (j : Fin 256) :
    k1_pay1 (F := Ideal) x0 x1 x7 x2 x4 x2' x3 (ix2 r j)
      = x2' (ix2 r 0) * ∑ q : Fin 512,
          leaky (x2 (ix2 r 0) * (∑ k : Fin 4096, x0 (ix2 r k) * x1 (ix2 k q) + x7 (ix2 r q)) + x4 (ix2 0 q))
            * x3 (ix2 q j) := by
  rw [pay_eq, shapeCast_self, dot_b_plain]
  show broadcastTo S256x256 x2' _ (ix2 r j)
      * FloatOps.matmul (DotDims.plain 256 512 256) none
          (select (cmpf .oge (pre (F := Ideal) x0 x1 x7 x2 x4) (broadcast S256x512 (Scalar.ofBits .f32 0x00000000#32)))
            (pre (F := Ideal) x0 x1 x7 x2 x4)
            (mulf (broadcast S256x512 (Scalar.ofBits .f32 0x3C23D70A#32)) (pre (F := Ideal) x0 x1 x7 x2 x4)))
          x3 (constant (F := Ideal) S256x256 .f32 0x00000000#32) (ix2 r j) = _
  rw [broadcastTo_a1_ab_apply, Cert.LibDotPlain.matmul_zero_plain]
  refine congrArg (x2' (ix2 r 0) * ·) (Finset.sum_congr rfl fun q _ => ?_)
  refine congrArg (· * x3 (ix2 q j)) ?_
  show leaky (pre (F := Ideal) x0 x1 x7 x2 x4 (ix2 r q)) = _
  rw [pre_apply]

/-! ## What the body leaves in the output's staging buffer -/

section Piece

variable {F : FTy → Type} [FloatOps F]

theorem hz : (![0, 0] : Fin 2 → Nat) = fun _ => 0 := funext fun a => by fin_cases a <;> rfl

/-- The point's own rows of the whole scaled support: rows 256 · i … 256 · i + 255, as the body's second load of it
    reads them. -/
abbrev ownRows (i : grid1.Coords) (x1 : Vec F S4096x512 .bf16) : Vec F S256x512 .bf16 :=
  View.ld x1 (Rect.unit (s := S4096x512) (k1_off1 i) S256x512.size (k1_off1_inb i))

/-- The body's one store covers the output block, so the block ends holding the stored payload, computed from the
    input blocks as the loads read them: every load but one reads a whole buffer. -/
theorem out_eq (c : Dev nD) (i : grid1.Coords) (a1 : Memref sig .tc .vmem S256x4096 .bf16) (h1 : a1.IsWhole) (a2 : Memref sig .tc .vmem S4096x512 .bf16) (h2 : a2.IsWhole) (a3 : Memref sig .tc .vmem S256x1 .f32) (h3 : a3.IsWhole) (a4 : Memref sig .tc .vmem S512x256 .f32) (h4 : a4.IsWhole) (a5 : Memref sig .tc .vmem S1x512 .f32) (h5 : a5.IsWhole) (a6 : Memref sig .tc .vmem S256x256 .bf16) (h6 : a6.IsWhole)
    (x0 : Vec F S256x4096 .bf16) (x1 : Vec F S4096x512 .bf16) (x2 : Vec F S256x1 .f32) (x3 : Vec F S512x256 .f32) (x4 : Vec F S1x512 .f32) :
    out1_A_5 c i a1 h1 a2 h2 a3 h3 a4 h4 a5 h5 a6 h6 x0 x1 x2 x3 x4
      = k1_pay1 x0 x1 (ownRows i x1) x2 x4 x2 x3 := by
  unfold out1_A_5
  rw [View.read_writes_eq_canon _ _ _ (cover1_A_5 c i a1 h1 a2 h2 a3 h3 a4 h4 a5 h5 a6 h6 x0 x1 x2 x3 x4)]
  unfold kernelRun1_A
  dsimp only
  sl_unfold_words
  rw [View.canon_unit_zero hz]
  simp only [View.readAt_eq_ld, h1.read_unread, h2.read_unread, h3.read_unread, h4.read_unread, h5.read_unread,
    View.ld_unit_zero (S := S256x4096) hz, View.ld_unit_zero (S := S4096x512) hz, View.ld_unit_zero (S := S256x1) hz,
    View.ld_unit_zero (S := S512x256) hz, View.ld_unit_zero (S := S1x512) hz]
  rfl

end Piece

/-! ## The blocks the body reads, as parts of the arrays -/

/-- The printed index maps over the sixteen grid points: the adjacency copy, d and the output move one block of
    256 rows per point; the scaled support, W1 and the bias row stay whole; the grid coordinate is the point. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ ((grid1.coords t) 0).val = t.val :=
  (by decide +kernel : ∀ t : Fin grid1.N, _)

/-- Row r of the point's block of the adjacency copy is row 256 · t + r of the array. -/
theorem blkA_apply (c : Dev nD) (t : Fin cfg1.N) (r : Fin 256) (k : Fin 4096) (R : Fin 4096)
    (hR : R.val = 256 * t.val + r.val) :
    (iblk1 V c 0 t : FVec Ideal S256x4096 .bf16) (ix2 r k) = (V c main_v0_2 : S4096x4096.Idx → EReal) (ix2 R k) := by
  obtain ⟨e0, e1, -⟩ := idx_facts t
  unfold iblk1
  rw [View.read_apply]
  show (V c main_v0_2 : S4096x4096.Idx → EReal) _ = _
  congr 1
  funext a
  apply Fin.ext
  match a with
  | ⟨0, _⟩ => show win1_0.index t (0 : Fin 2) * 256 + 1 * r.val = R.val; rw [e0, hR]; omega
  | ⟨1, _⟩ => show win1_0.index t (1 : Fin 2) * 4096 + 1 * k.val = k.val; rw [e1]; omega

/-- The scaled support's block is the whole array. -/
theorem blkS_apply (c : Dev nD) (t : Fin cfg1.N) (k : Fin 4096) (q : Fin 512) :
    (iblk1 V c 1 t : FVec Ideal S4096x512 .bf16) (ix2 k q) = (V c main_v0_1 : S4096x512.Idx → EReal) (ix2 k q) := by
  obtain ⟨-, -, e0, e1, -⟩ := idx_facts t
  unfold iblk1
  rw [View.read_apply]
  show (V c main_v0_1 : S4096x512.Idx → EReal) _ = _
  congr 1
  funext a
  apply Fin.ext
  match a with
  | ⟨0, _⟩ => show win1_1.index t (0 : Fin 2) * 4096 + 1 * k.val = k.val; rw [e0]; omega
  | ⟨1, _⟩ => show win1_1.index t (1 : Fin 2) * 512 + 1 * q.val = q.val; rw [e1]; omega

/-- Entry r of the point's block of d is entry 256 · t + r of the array. -/
theorem blkD_apply (c : Dev nD) (t : Fin cfg1.N) (r : Fin 256) (R : Fin 4096) (hR : R.val = 256 * t.val + r.val) :
    (iblk1 V c 2 t : FVec Ideal S256x1 .f32) (ix2 r 0) = (V c main_v0_0 : S4096x1.Idx → EReal) (ix2 R 0) := by
  obtain ⟨-, -, -, -, e0, e1, -⟩ := idx_facts t
  unfold iblk1
  rw [View.read_apply]
  show (V c main_v0_0 : S4096x1.Idx → EReal) _ = _
  congr 1
  funext a
  apply Fin.ext
  match a with
  | ⟨0, _⟩ => show win1_2.index t (0 : Fin 2) * 256 + 1 * r.val = R.val; rw [e0, hR]; omega
  | ⟨1, _⟩ => show win1_2.index t (1 : Fin 2) * 1 + 1 * 0 = 0; rw [e1]

/-- W1's block is the whole array. -/
theorem blkW_apply (c : Dev nD) (t : Fin cfg1.N) (q : Fin 512) (j : Fin 256) :
    (iblk1 V c 3 t : FVec Ideal S512x256 .f32) (ix2 q j) = (V c main_arg5 : S512x256.Idx → EReal) (ix2 q j) := by
  obtain ⟨-, -, -, -, -, -, e0, e1, -⟩ := idx_facts t
  unfold iblk1
  rw [View.read_apply]
  show (V c main_arg5 : S512x256.Idx → EReal) _ = _
  congr 1
  funext a
  apply Fin.ext
  match a with
  | ⟨0, _⟩ => show win1_3.index t (0 : Fin 2) * 512 + 1 * q.val = q.val; rw [e0]; omega
  | ⟨1, _⟩ => show win1_3.index t (1 : Fin 2) * 256 + 1 * j.val = j.val; rw [e1]; omega

/-- The bias row's block is the whole array. -/
theorem blkB_apply (c : Dev nD) (t : Fin cfg1.N) (q : Fin 512) :
    (iblk1 V c 4 t : FVec Ideal S1x512 .f32) (ix2 0 q) = (V c main_v1 : S1x512.Idx → EReal) (ix2 0 q) := by
  obtain ⟨-, -, -, -, -, -, -, -, e0, e1, -⟩ := idx_facts t
  unfold iblk1
  rw [View.read_apply]
  show (V c main_v1 : S1x512.Idx → EReal) _ = _
  congr 1
  funext a
  apply Fin.ext
  match a with
  | ⟨0, _⟩ => show win1_4.index t (0 : Fin 2) * 1 + 1 * 0 = 0; rw [e0]
  | ⟨1, _⟩ => show win1_4.index t (1 : Fin 2) * 512 + 1 * q.val = q.val; rw [e1]; omega

/-- The point's own rows of a 4096 × 512 array: row r of them is row 256 · i + r of the array. -/
theorem ownRows_apply {F : FTy → Type} (i : grid1.Coords) (x1 : Vec F S4096x512 .bf16) (r : Fin 256) (q : Fin 512)
    (R : Fin 4096) (hR : R.val = 256 * (i 0).val + r.val) :
    ownRows i x1 (ix2 r q) = x1 (ix2 R q) := by
  show x1 _ = x1 _
  congr 1
  funext a
  apply Fin.ext
  match a with
  | ⟨0, _⟩ => show k1_off1 i 0 + 1 * r.val = R.val; rw [k1_off1_eq i, hR]; show 256 * (i 0).val + 1 * r.val = _; omega
  | ⟨1, _⟩ => show k1_off1 i 1 + 1 * q.val = q.val; rw [k1_off1_eq i]; show 0 + 1 * q.val = _; omega

/-! ## From the blocks to the array -/

/-- The stored block's entry (r, j) is the launch's function at (R, j) once every block entry the body reads is the
    arrays' entry in row R: R is the global row of the block's row r. -/
theorem pay_entry (A : FVec Ideal S4096x4096 .bf16) (S : FVec Ideal S4096x512 .bf16) (D : FVec Ideal S4096x1 .f32)
    (W : FVec Ideal S512x256 .f32) (B : FVec Ideal S1x512 .f32)
    (x0 : FVec Ideal S256x4096 .bf16) (x1 : FVec Ideal S4096x512 .bf16) (x7 : FVec Ideal S256x512 .bf16)
    (x2 : FVec Ideal S256x1 .f32) (x3 : FVec Ideal S512x256 .f32) (x4 : FVec Ideal S1x512 .f32)
    (r : Fin 256) (j : Fin 256) (R : Fin 4096)
    (h0 : ∀ k, x0 (ix2 r k) = A (ix2 R k)) (h1 : ∀ k q, x1 (ix2 k q) = S (ix2 k q))
    (h7 : ∀ q, x7 (ix2 r q) = S (ix2 R q)) (h2 : x2 (ix2 r 0) = D (ix2 R 0))
    (h3 : ∀ q, x3 (ix2 q j) = W (ix2 q j)) (h4 : ∀ q, x4 (ix2 0 q) = B (ix2 0 q)) :
    k1_pay1 (F := Ideal) x0 x1 x7 x2 x4 x2 x3 (ix2 r j) = s1G (cur A) (cur S) (colv D) (cur W) (rowv B) R j := by
  rw [pay_apply]
  unfold s1G aggG
  simp only [h0, h1, h7, h2, h3, h4]

/-- The launch's result as one function of the five arrays it reads. -/
abbrev s1Arr (c : Dev nD) : S4096x256.Idx → EReal := fun idx =>
  s1G (cur (V c main_v0_2 : S4096x4096.Idx → EReal)) (cur (V c main_v0_1 : S4096x512.Idx → EReal))
    (colv (V c main_v0_0 : S4096x1.Idx → EReal)) (cur (V c main_arg5 : S512x256.Idx → EReal))
    (rowv (V c main_v1 : S1x512.Idx → EReal)) (idx 0) (idx 1)

/-- What point t writes back is block t of the launch's function of the arrays. -/
theorem flushed_eq (c : Dev nD) (t : Fin cfg1.N) :
    (dat1 V c).flushed 5 t = ((cfg1.win 5).blk t).view.read (Elt Ideal) (s1Arr V c) := by
  have hN : cfg1.N = 16 := N_1
  obtain ⟨-, -, -, -, -, -, -, -, -, -, e0, e1, eg⟩ := idx_facts t
  show (cfg1.win 5).cut (grid1.coords t) ((dat1 V c).after 5 t) = _
  rw [after1_5]
  unfold outsAt1
  rw [out_eq]
  funext y
  obtain ⟨r, j, rfl⟩ : ∃ (r : Fin 256) (j : Fin 256), y = ix2 r j := ⟨y 0, y 1, eq_ix2 y⟩
  have hRlt : 256 * t.val + r.val < 4096 := by have := t.isLt; have := r.isLt; omega
  rw [View.read_apply]
  have hemb : ((cfg1.win 5).blk t).view.emb (ix2 r j) = (ix2 (⟨256 * t.val + r.val, hRlt⟩ : Fin 4096) j : S4096x256.Idx) := by
    funext a
    apply Fin.ext
    match a with
    | ⟨0, _⟩ => show win1_5.index t (0 : Fin 2) * 256 + 1 * r.val = 256 * t.val + r.val; rw [e0]; omega
    | ⟨1, _⟩ => show win1_5.index t (1 : Fin 2) * 256 + 1 * j.val = j.val; rw [e1]; omega
  rw [hemb]
  show k1_pay1 (F := Ideal) (iblk1 V c 0 t) (iblk1 V c 1 t) (ownRows (grid1.coords t) (iblk1 V c 1 t)) (iblk1 V c 2 t) (iblk1 V c 4 t) (iblk1 V c 2 t) (iblk1 V c 3 t) (ix2 r j) = _
  exact pay_entry (V c main_v0_2) (V c main_v0_1) (V c main_v0_0) (V c main_arg5) (V c main_v1)
    (iblk1 V c 0 t) (iblk1 V c 1 t) (ownRows (grid1.coords t) (iblk1 V c 1 t)) (iblk1 V c 2 t) (iblk1 V c 3 t) (iblk1 V c 4 t)
    r j ⟨256 * t.val + r.val, hRlt⟩
    (fun k => blkA_apply V c t r k _ rfl) (fun k q => blkS_apply V c t k q)
    (fun q => (ownRows_apply (grid1.coords t) (iblk1 V c 1 t) r q ⟨256 * t.val + r.val, hRlt⟩ (by rw [eg])).trans (blkS_apply V c t _ q))
    (blkD_apply V c t r _ rfl) (fun q => blkW_apply V c t q j) (fun q => blkB_apply V c t q)

/-- An index of the output array is in point t's block iff each coordinate is in the block's range on its axis. -/
theorem mem_blk (t : Fin cfg1.N) (i : S4096x256.Idx) :
    i ∈ ((cfg1.win 5).blk t).view.set ↔ ∀ a : Fin 2, win1_5.index t a * S256x256.size a ≤ (i a).val
      ∧ (i a).val < win1_5.index t a * S256x256.size a + S256x256.size a := by
  show i ∈ ((View.whole main_v2).slice (win1_5.rect t)).set ↔ _
  rw [View.set_slice_whole, Rect.mem_set_unit]
  exact Iff.rfl

/-- Every index of the output array is in the block of the point its row falls in: row R is in block R / 256. -/
theorem covered (i : S4096x256.Idx) :
    ∃ t : Fin cfg1.N, (cfg1.win 5).flush t = true ∧ i ∈ ((cfg1.win 5).blk t).view.set := by
  have hN : cfg1.N = 16 := N_1
  have hi0 : (i 0).val < 4096 := idx2_lt0 i
  have hi1 : (i 1).val < 256 := idx2_lt1 i
  refine ⟨⟨(i 0).val / 256, by omega⟩, flush1_5 _, ?_⟩
  obtain ⟨-, -, -, -, -, -, -, -, -, -, e0, e1, -⟩ := idx_facts ⟨(i 0).val / 256, by omega⟩
  rw [mem_blk]
  intro a
  match a with
  | ⟨0, _⟩ =>
    show win1_5.index _ (0 : Fin 2) * 256 ≤ (i 0).val ∧ (i 0).val < win1_5.index _ (0 : Fin 2) * 256 + 256
    rw [e0]; dsimp only; omega
  | ⟨1, _⟩ =>
    show win1_5.index _ (1 : Fin 2) * 256 ≤ (i 1).val ∧ (i 1).val < win1_5.index _ (1 : Fin 2) * 256 + 256
    rw [e1]; omega

/-- The second launch's output array ends holding the scaled support of layer 1, as a function of the five arrays
    the launch reads: the adjacency copy, the scaled support of layer 0, d, W1 and the bias row. -/
theorem final_s1 (c : Dev nD) :
    (dat1 V c).arrAt 5 cfg1.N
      = (fun idx : S4096x256.Idx => s1G (cur (V c main_v0_2 : S4096x4096.Idx → EReal))
          (cur (V c main_v0_1 : S4096x512.Idx → EReal)) (colv (V c main_v0_0 : S4096x1.Idx → EReal))
          (cur (V c main_arg5 : S512x256.Idx → EReal)) (rowv (V c main_v1 : S1x512.Idx → EReal)) (idx 0) (idx 1)) :=
  (dat1 V c).arrAt_eq_of_cover 5 (s1Arr V c) (fun t _ => flushed_eq V c t) covered

end Cert.KernelIdeal.Launch1
-- ==== Proof.Launch2.lean ====
/-
  The third launch, block by block. At grid point t it reads rows 256·t … 256·t + 255 of the adjacency copy, of d and of
  the side features, the WHOLE scaled support s1 (as the right factor of the aggregation and through its own rows
  256·t … for the identity's term), the bias row, the two pieces of the classifier's weights and its bias row, and
  writes the same rows of two arrays: layer 1, h = d · (adj · s1 + own rows of s1) + b1, and the class probabilities,
  the softmax along each row of h · Wc[0:256] + S · Wc[256:288] + bc. Each block written is the restriction to those
  rows of ONE function of the whole input arrays, and the sixteen blocks cover the 4096 rows.
-/
import proofs.«148359_g79121887527625_cont_sun_m_466_4_alg».proof.Proof.Gen.KernelIdeal.Frame
import proofs.«148359_g79121887527625_cont_sun_m_466_4_alg».proof.Proof.Spec
import proofs.«148359_g79121887527625_cont_sun_m_466_4_alg».proof.Proof.LibDotPlain
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Launch2

open Idealize.ShloMosaic Idealize.ShloMosaic.TcCoe Idealize.SL.Sem Idealize.ShloMosaic.ValueIdx
open Idealize.ShloMosaic.Pipeline (Dat)
open Cert.KernelIdeal Cert.KernelIdeal.Gen Cert.Gcn

-- the arrays as the launch finds them: any contents
variable (V : (c : Dev nD) → (b : Ref sig .tc) → Buf (Elt Ideal) ((c : Thread nD τ).loc b))

theorem hz : (![0, 0] : Fin 2 → Nat) = fun _ => 0 := funext fun a => by fin_cases a <;> rfl

/-! ## What one grid point leaves in the two outputs' buffers -/

/-- The rows of the whole scaled-support array that belong to the block of grid point i: 256 rows from row 256·i. -/
abbrev ownRows {F : FTy → Type} (i : grid2.Coords) (x1 : Vec F S4096x256 .bf16) : Vec F S256x256 .bf16 :=
  View.ld x1 (Rect.unit (s := S4096x256) (k2_off1 i) S256x256.size (k2_off1_inb i))

/-- The first output's buffer after the body: the aggregation's arithmetic on the loaded blocks. -/
theorem out8_eq {F : FTy → Type} [FloatOps F] (c : Dev nD) (i : grid2.Coords) (arg1 : Memref sig .tc .vmem S256x4096 .bf16) (harg1 : arg1.IsWhole) (arg2 : Memref sig .tc .vmem S4096x256 .bf16) (harg2 : arg2.IsWhole) (arg3 : Memref sig .tc .vmem S256x1 .f32) (harg3 : arg3.IsWhole) (arg4 : Memref sig .tc .vmem S1x256 .f32) (harg4 : arg4.IsWhole) (arg5 : Memref sig .tc .vmem S256x32 .f32) (harg5 : arg5.IsWhole) (arg6 : Memref sig .tc .vmem S256x16 .f32) (harg6 : arg6.IsWhole) (arg7 : Memref sig .tc .vmem S32x16 .f32) (harg7 : arg7.IsWhole) (arg8 : Memref sig .tc .vmem S1x16 .f32) (harg8 : arg8.IsWhole) (arg9 : Memref sig .tc .vmem S256x256 .f32) (harg9 : arg9.IsWhole) (arg10 : Memref sig .tc .vmem S256x16 .f32) (harg10 : arg10.IsWhole)
    (x0 : Vec F S256x4096 .bf16) (x1 : Vec F S4096x256 .bf16) (x2 : Vec F S256x1 .f32) (x3 : Vec F S1x256 .f32) (x4 : Vec F S256x32 .f32) (x5 : Vec F S256x16 .f32) (x6 : Vec F S32x16 .f32) (x7 : Vec F S1x16 .f32) :
    out2_A_8 c i arg1 harg1 arg2 harg2 arg3 harg3 arg4 harg4 arg5 harg5 arg6 harg6 arg7 harg7 arg8 harg8 arg9 harg9 arg10 harg10 x0 x1 x2 x3 x4 x5 x6 x7 = k2_pay2 x0 x1 (ownRows i x1) x2 x3 := by
  unfold out2_A_8
  rw [View.read_writes_eq_canon _ _ _ (cover2_A_8 c i arg1 harg1 arg2 harg2 arg3 harg3 arg4 harg4 arg5 harg5 arg6 harg6 arg7 harg7 arg8 harg8 arg9 harg9 arg10 harg10 x0 x1 x2 x3 x4 x5 x6 x7)]
  unfold kernelRun2_A
  dsimp only
  sl_unfold_words
  rw [View.canon_unit_zero hz]
  simp only [View.readAt_eq_ld, harg1.read_unread, harg2.read_unread, harg3.read_unread, harg4.read_unread,
    View.ld_unit_zero (S := S256x4096) hz, View.ld_unit_zero (S := S4096x256) hz, View.ld_unit_zero (S := S256x1) hz,
    View.ld_unit_zero (S := S1x256) hz]
  rfl

/-- The second output's buffer after the body: the softmax's arithmetic on the logits and their row maximum, both
    computed from the first output's value and the loaded blocks. -/
theorem out9_eq {F : FTy → Type} [FloatOps F] (c : Dev nD) (i : grid2.Coords) (arg1 : Memref sig .tc .vmem S256x4096 .bf16) (harg1 : arg1.IsWhole) (arg2 : Memref sig .tc .vmem S4096x256 .bf16) (harg2 : arg2.IsWhole) (arg3 : Memref sig .tc .vmem S256x1 .f32) (harg3 : arg3.IsWhole) (arg4 : Memref sig .tc .vmem S1x256 .f32) (harg4 : arg4.IsWhole) (arg5 : Memref sig .tc .vmem S256x32 .f32) (harg5 : arg5.IsWhole) (arg6 : Memref sig .tc .vmem S256x16 .f32) (harg6 : arg6.IsWhole) (arg7 : Memref sig .tc .vmem S32x16 .f32) (harg7 : arg7.IsWhole) (arg8 : Memref sig .tc .vmem S1x16 .f32) (harg8 : arg8.IsWhole) (arg9 : Memref sig .tc .vmem S256x256 .f32) (harg9 : arg9.IsWhole) (arg10 : Memref sig .tc .vmem S256x16 .f32) (harg10 : arg10.IsWhole)
    (x0 : Vec F S256x4096 .bf16) (x1 : Vec F S4096x256 .bf16) (x2 : Vec F S256x1 .f32) (x3 : Vec F S1x256 .f32) (x4 : Vec F S256x32 .f32) (x5 : Vec F S256x16 .f32) (x6 : Vec F S32x16 .f32) (x7 : Vec F S1x16 .f32) :
    out2_A_9 c i arg1 harg1 arg2 harg2 arg3 harg3 arg4 harg4 arg5 harg5 arg6 harg6 arg7 harg7 arg8 harg8 arg9 harg9 arg10 harg10 x0 x1 x2 x3 x4 x5 x6 x7 = k2_pay1 (k2_pay3 x0 x1 (ownRows i x1) x2 x3 x5 x4 x6 x7) (k2_pay4 x0 x1 (ownRows i x1) x2 x3 x5 x4 x6 x7) := by
  unfold out2_A_9
  rw [View.read_writes_eq_canon _ _ _ (cover2_A_9 c i arg1 harg1 arg2 harg2 arg3 harg3 arg4 harg4 arg5 harg5 arg6 harg6 arg7 harg7 arg8 harg8 arg9 harg9 arg10 harg10 x0 x1 x2 x3 x4 x5 x6 x7)]
  unfold kernelRun2_A
  dsimp only
  sl_unfold_words
  rw [View.canon_unit_zero hz]
  simp only [View.readAt_eq_ld, harg1.read_unread, harg2.read_unread, harg3.read_unread, harg4.read_unread,
    harg5.read_unread, harg6.read_unread, harg7.read_unread, harg8.read_unread,
    View.ld_unit_zero (S := S256x4096) hz, View.ld_unit_zero (S := S4096x256) hz, View.ld_unit_zero (S := S256x1) hz,
    View.ld_unit_zero (S := S1x256) hz, View.ld_unit_zero (S := S256x16) hz, View.ld_unit_zero (S := S256x32) hz,
    View.ld_unit_zero (S := S32x16) hz, View.ld_unit_zero (S := S1x16) hz]
  rfl

/-! ## Layout operations at an index -/

/-- A column, an a × 1 array, broadcast along the lanes reads at (p, q) the column's entry of row p. -/
theorem bcast_col {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector of a entries kept as an a × 1 column reads at (p, u) the vector's entry p. -/
theorem keep_col {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu]; omega)

/-- The three matrix products of the launch carry the dimension numbers of the plain product. -/
theorem dot_agg : dot_S256x4096_S4096x256_S256x256_1_0_0_1_n_n = DotDims.plain 256 4096 256 := rfl
theorem dot_h : dot_S256x256_S256x16_S256x16_1_0_0_1_n_n = DotDims.plain 256 256 16 := rfl
theorem dot_s : dot_S256x32_S32x16_S256x16_1_0_0_1_n_n = DotDims.plain 256 32 16 := rfl

/-! ## The first output's arithmetic at an entry -/

/-- Entry (p, q) of the aggregation of one block: d p · (Σ k, A p k · s k q + own p q) + b q. -/
theorem pay2_apply (x0 : Vec Ideal S256x4096 .bf16) (x1 : Vec Ideal S4096x256 .bf16) (v7 : Vec Ideal S256x256 .bf16)
    (x2 : Vec Ideal S256x1 .f32) (x3 : Vec Ideal S1x256 .f32) (p q : Fin 256) :
    k2_pay2 (F := Ideal) x0 x1 v7 x2 x3 (ix2 p q)
      = x2 (ix2 p 0) * (∑ k : Fin 4096, x0 (ix2 p k) * x1 (ix2 k q) + v7 (ix2 p q)) + x3 (ix2 0 q) := by
  unfold k2_pay2
  simp only [shapeCast_self, addf_apply, mulf_apply, extf_apply]
  rw [bcast_col, broadcastTo_1b_ab_apply]
  exact congrArg (fun z => x2 (ix2 p 0) * (z + v7 (ix2 p q)) + x3 (ix2 0 q))
    (Cert.LibDotPlain.matmul_zero_plain 256 4096 256 none x0 x1 p q)

/-! ## The second output's arithmetic at an entry -/

/-- Entry (p, j) of the logits of one block: (Σ q, h p q · Wh q j + Σ q, S p q · Ws q j) + bc j, where h is the first
    output's block. -/
theorem pay3_apply (x0 : Vec Ideal S256x4096 .bf16) (x1 : Vec Ideal S4096x256 .bf16) (v7 : Vec Ideal S256x256 .bf16)
    (x2 : Vec Ideal S256x1 .f32) (x3 : Vec Ideal S1x256 .f32) (x5 : Vec Ideal S256x16 .f32) (x4 : Vec Ideal S256x32 .f32)
    (x6 : Vec Ideal S32x16 .f32) (x7 : Vec Ideal S1x16 .f32) (p : Fin 256) (j : Fin 16) :
    k2_pay3 (F := Ideal) x0 x1 v7 x2 x3 x5 x4 x6 x7 (ix2 p j)
      = (∑ q : Fin 256, k2_pay2 (F := Ideal) x0 x1 v7 x2 x3 (ix2 p q) * x5 (ix2 q j)
          + ∑ q : Fin 32, x4 (ix2 p q) * x6 (ix2 q j)) + x7 (ix2 0 j) := by
  unfold k2_pay3
  simp only [shapeCast_self, addf_apply]
  rw [broadcastTo_1b_ab_apply]
  exact congrArg₂ (fun a b => (a + b) + x7 (ix2 0 j))
    (Cert.LibDotPlain.matmul_zero_plain 256 256 16 none (k2_pay2 (F := Ideal) x0 x1 v7 x2 x3) x5 p j)
    (Cert.LibDotPlain.matmul_zero_plain 256 32 16 none x4 x6 p j)

/-- A row's index with a lane put back in is the entry (row, lane). -/
theorem lift_row (p : Fin 256) (k : Fin 16) : reduces_S256x16_S256.lift (ix1 p) k = ix2 p k :=
  funext fun a => Fin.ext (by
    match a with
    | ⟨0, _⟩ => rfl
    | ⟨1, _⟩ => rfl)

/-- The row maximum kept as a column: at row p the fold of max from -∞ over the row's sixteen entries. -/
theorem rowmax_apply (L : FVec Ideal S256x16 .f32) (hφ : FKind.Formats .f32)
    (hacc : (0xFF800000#32 : BitVec 32) = FKind.maximumf.neutral .f32 hφ) (p : Fin 256) (u : Fin 1) :
    shapeCast S256x1 (multiReduction (F := Ideal) .maximumf [1] S256 L 0xFF800000#32 reduces_S256x16_S256 hφ hacc)
        shapeCasts_S256_S256x1 (ix2 p u)
      = (Finset.univ : Finset (Fin 16)).fold max negInf (fun k => L (ix2 p k)) := by
  refine (keep_col _ _ p u).trans ?_
  refine (Ideal.multiReduction_maximumf_single L _ reduces_S256x16_S256 hφ hacc (ix1 p)).trans ?_
  have e : (L ∘ reduces_S256x16_S256.lift (ix1 p)) = fun k => L (ix2 p k) :=
    funext fun k => congrArg L (lift_row p k)
  rw [e]
  rfl

/-- The row sum kept as a column: at row p the sum of the row's sixteen entries. -/
theorem rowsum_apply (E : FVec Ideal S256x16 .f32) (hφ : FKind.Formats .f32)
    (hacc : (0x00000000#32 : BitVec 32) = FKind.add.neutral .f32 hφ) (p : Fin 256) (u : Fin 1) :
    shapeCast S256x1 (multiReduction (F := Ideal) .add [1] S256 E 0x00000000#32 reduces_S256x16_S256 hφ hacc)
        shapeCasts_S256_S256x1 (ix2 p u)
      = ∑ k : Fin 16, E (ix2 p k) := by
  refine (keep_col _ _ p u).trans ?_
  refine (Ideal.multiReduction_add_single E _ reduces_S256x16_S256 hφ hacc (ix1 p)).trans ?_
  exact Finset.sum_congr rfl fun k _ => congrArg E (lift_row p k)

/-- The exponential of a vector at an entry. -/
theorem exp_at {s : Shape} {φ : FTy} (a : FVec Ideal s φ) (i : s.Idx) : exp a i = Ideal.exp (a i) := rfl

/-- The row maximum of the logits' block, a column. -/
theorem pay4_apply (x0 : Vec Ideal S256x4096 .bf16) (x1 : Vec Ideal S4096x256 .bf16) (v7 : Vec Ideal S256x256 .bf16)
    (x2 : Vec Ideal S256x1 .f32) (x3 : Vec Ideal S1x256 .f32) (x5 : Vec Ideal S256x16 .f32) (x4 : Vec Ideal S256x32 .f32)
    (x6 : Vec Ideal S32x16 .f32) (x7 : Vec Ideal S1x16 .f32) (p : Fin 256) (u : Fin 1) :
    k2_pay4 (F := Ideal) x0 x1 v7 x2 x3 x5 x4 x6 x7 (ix2 p u)
      = (Finset.univ : Finset (Fin 16)).fold max negInf
          (fun k => k2_pay3 (F := Ideal) x0 x1 v7 x2 x3 x5 x4 x6 x7 (ix2 p k)) := by
  unfold k2_pay4
  exact rowmax_apply (k2_pay3 (F := Ideal) x0 x1 v7 x2 x3 x5 x4 x6 x7) _ _ p u

/-- Entry (p, j) of the softmax of a block of logits L shifted by the column m. -/
theorem pay1_apply (L : FVec Ideal S256x16 .f32) (m : FVec Ideal S256x1 .f32) (p : Fin 256) (j : Fin 16) :
    k2_pay1 (F := Ideal) L m (ix2 p j)
      = Ideal.div (Ideal.exp (L (ix2 p j) - m (ix2 p 0)))
          (∑ k : Fin 16, Ideal.exp (L (ix2 p k) - m (ix2 p 0))) := by
  unfold k2_pay1
  simp only [divf_apply, exp_at, subf_apply]
  rw [bcast_col, bcast_col]
  refine congrArg (Ideal.div (Ideal.exp (L (ix2 p j) - m (ix2 p 0)))) ?_
  refine (rowsum_apply (exp (subf L (broadcastTo S256x16 m broadcasts_S256x1_S256x16))) _ _ p 0).trans ?_
  exact Finset.sum_congr rfl fun k _ => by rw [exp_at, subf_apply, bcast_col]

/-! ## The blocks as parts of the arrays

A block's entry (p, ·) is the array's entry (256·t + p, ·) for the windows that move with the grid point t, and the
array's own entry for the windows that hold a whole array. The block indices are decided once over the sixteen points. -/

/-- The input blocks at point t, at their literal types. -/
abbrev bA (c : Dev nD) (t : Fin cfg2.N) : Vec Ideal S256x4096 .bf16 := iblk2 V c 0 t
abbrev bS (c : Dev nD) (t : Fin cfg2.N) : Vec Ideal S4096x256 .bf16 := iblk2 V c 1 t
abbrev bD (c : Dev nD) (t : Fin cfg2.N) : Vec Ideal S256x1 .f32 := iblk2 V c 2 t
abbrev bB (c : Dev nD) (t : Fin cfg2.N) : Vec Ideal S1x256 .f32 := iblk2 V c 3 t

theorem idxA : ∀ t : Fin cfg2.N, win2_0.index t (0 : Fin 2) = t.val ∧ win2_0.index t (1 : Fin 2) = 0 :=
  (by decide +kernel : ∀ t : Fin grid2.N, _)
theorem idxS : ∀ t : Fin cfg2.N, win2_1.index t (0 : Fin 2) = 0 ∧ win2_1.index t (1 : Fin 2) = 0 :=
  (by decide +kernel : ∀ t : Fin grid2.N, _)
theorem idxD : ∀ t : Fin cfg2.N, win2_2.index t (0 : Fin 2) = t.val ∧ win2_2.index t (1 : Fin 2) = 0 :=
  (by decide +kernel : ∀ t : Fin grid2.N, _)
theorem idxB : ∀ t : Fin cfg2.N, win2_3.index t (0 : Fin 2) = 0 ∧ win2_3.index t (1 : Fin 2) = 0 :=
  (by decide +kernel : ∀ t : Fin grid2.N, _)
theorem idxH : ∀ t : Fin cfg2.N, win2_8.index t (0 : Fin 2) = t.val ∧ win2_8.index t (1 : Fin 2) = 0 :=
  (by decide +kernel : ∀ t : Fin grid2.N, _)
/-- The own-rows load starts at row 256·t, lane 0. -/
theorem offOwn : ∀ t : Fin cfg2.N, k2_off1 (grid2.coords t) (0 : Fin 2) = 256 * t.val ∧ k2_off1 (grid2.coords t) (1 : Fin 2) = 0 :=
  (by decide +kernel : ∀ t : Fin grid2.N, _)

theorem bA_apply (c : Dev nD) (t : Fin cfg2.N) (p : Fin 256) (k : Fin 4096) (r : Fin 4096)
    (hr : r.val = 256 * t.val + p.val) :
    bA V c t (ix2 p k) = cur (V c main_v0_2 : S4096x4096.Idx → EReal) r k := by
  have hi := idxA t
  unfold bA iblk2
  rw [View.read_apply]
  refine congrArg (V c main_v0_2 : S4096x4096.Idx → EReal) (funext fun a => Fin.ext ?_)
  match a with
  | ⟨0, _⟩ => show win2_0.index t 0 * 256 + 1 * p.val = r.val; rw [hi.1, hr]; omega
  | ⟨1, _⟩ => show win2_0.index t 1 * 4096 + 1 * k.val = k.val; rw [hi.2]; omega

theorem bS_apply (c : Dev nD) (t : Fin cfg2.N) (k : Fin 4096) (q : Fin 256) :
    bS V c t (ix2 k q) = cur (V c main_v2 : S4096x256.Idx → EReal) k q := by
  have hi := idxS t
  unfold bS iblk2
  rw [View.read_apply]
  refine congrArg (V c main_v2 : S4096x256.Idx → EReal) (funext fun a => Fin.ext ?_)
  match a with
  | ⟨0, _⟩ => show win2_1.index t 0 * 4096 + 1 * k.val = k.val; rw [hi.1]; omega
  | ⟨1, _⟩ => show win2_1.index t 1 * 256 + 1 * q.val = q.val; rw [hi.2]; omega

theorem bD_apply (c : Dev nD) (t : Fin cfg2.N) (p : Fin 256) (u : Fin 1) (r : Fin 4096)
    (hr : r.val = 256 * t.val + p.val) :
    bD V c t (ix2 p u) = colv (V c main_v0_0 : S4096x1.Idx → EReal) r := by
  have hi := idxD t
  unfold bD iblk2
  rw [View.read_apply]
  refine congrArg (V c main_v0_0 : S4096x1.Idx → EReal) (funext fun a => Fin.ext ?_)
  match a with
  | ⟨0, _⟩ => show win2_2.index t 0 * 256 + 1 * p.val = r.val; rw [hi.1, hr]; omega
  | ⟨1, _⟩ => show win2_2.index t 1 * 1 + 1 * u.val = 0; rw [hi.2]; omega

theorem bB_apply (c : Dev nD) (t : Fin cfg2.N) (u : Fin 1) (q : Fin 256) :
    bB V c t (ix2 u q) = rowv (V c main_v3 : S1x256.Idx → EReal) q := by
  have hi := idxB t
  unfold bB iblk2
  rw [View.read_apply]
  refine congrArg (V c main_v3 : S1x256.Idx → EReal) (funext fun a => Fin.ext ?_)
  match a with
  | ⟨0, _⟩ => show win2_3.index t 0 * 1 + 1 * u.val = 0; rw [hi.1]; omega
  | ⟨1, _⟩ => show win2_3.index t 1 * 256 + 1 * q.val = q.val; rw [hi.2]; omega

/-- The own-rows load of the whole scaled-support array reads, at (p, q), the array at (256·t + p, q). -/
theorem own_apply (c : Dev nD) (t : Fin cfg2.N) (p q : Fin 256) (r : Fin 4096) (hr : r.val = 256 * t.val + p.val) :
    ownRows (grid2.coords t) (bS V c t) (ix2 p q) = cur (V c main_v2 : S4096x256.Idx → EReal) r q := by
  have ho := offOwn t
  have e : (Rect.unit (s := S4096x256) (k2_off1 (grid2.coords t)) S256x256.size (k2_off1_inb (grid2.coords t))).toLoadRect.idx (ix2 p q)
      = ix2 r q := funext fun a => Fin.ext (by
    match a with
    | ⟨0, _⟩ => show k2_off1 (grid2.coords t) 0 + 1 * p.val = r.val; rw [ho.1, hr]; omega
    | ⟨1, _⟩ => show k2_off1 (grid2.coords t) 1 + 1 * q.val = q.val; rw [ho.2]; omega)
  show bS V c t ((Rect.unit (s := S4096x256) (k2_off1 (grid2.coords t)) S256x256.size (k2_off1_inb (grid2.coords t))).toLoadRect.idx (ix2 p q)) = _
  rw [e]
  exact bS_apply V c t r q

/-! ## The first output -/

/-- The whole first output: layer 1 as a function of the launch's arrays. -/
abbrev wholeH (c : Dev nD) : S4096x256.Idx → EReal := fun idx =>
  hG (cur (V c main_v0_2 : S4096x4096.Idx → EReal)) (cur (V c main_v2 : S4096x256.Idx → EReal))
    (colv (V c main_v0_0 : S4096x1.Idx → EReal)) (rowv (V c main_v3 : S1x256.Idx → EReal)) (idx 0) (idx 1)

/-- What grid point t leaves in the first output's buffer. -/
abbrev blockH (c : Dev nD) (t : Fin cfg2.N) : Vec Ideal S256x256 .f32 :=
  k2_pay2 (F := Ideal) (bA V c t) (bS V c t) (ownRows (grid2.coords t) (bS V c t)) (bD V c t) (bB V c t)

theorem outs8 (c : Dev nD) (t : Fin cfg2.N) : (outsAt2 V c t).1 = blockH V c t := by
  unfold outsAt2
  dsimp only
  exact out8_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (iblk2 V c 0 t) (iblk2 V c 1 t) (iblk2 V c 2 t) (iblk2 V c 3 t) (iblk2 V c 4 t) (iblk2 V c 5 t) (iblk2 V c 6 t) (iblk2 V c 7 t)

/-- Entry (p, q) of that block is layer 1 at (256·t + p, q). -/
theorem blockH_apply (c : Dev nD) (t : Fin cfg2.N) (p q : Fin 256) (r : Fin 4096) (hr : r.val = 256 * t.val + p.val) :
    blockH V c t (ix2 p q)
      = hG (cur (V c main_v0_2 : S4096x4096.Idx → EReal)) (cur (V c main_v2 : S4096x256.Idx → EReal))
          (colv (V c main_v0_0 : S4096x1.Idx → EReal)) (rowv (V c main_v3 : S1x256.Idx → EReal)) r q := by
  refine (pay2_apply (bA V c t) (bS V c t) (ownRows (grid2.coords t) (bS V c t)) (bD V c t) (bB V c t) p q).trans ?_
  have hsum : ∑ k : Fin 4096, bA V c t (ix2 p k) * bS V c t (ix2 k q)
      = ∑ k : Fin 4096, cur (V c main_v0_2 : S4096x4096.Idx → EReal) r k * cur (V c main_v2 : S4096x256.Idx → EReal) k q :=
    Finset.sum_congr rfl fun k _ => by rw [bA_apply V c t p k r hr, bS_apply V c t k q]
  rw [hsum, bD_apply V c t p 0 r hr, own_apply V c t p q r hr, bB_apply V c t 0 q]
  rfl

/-- What point t writes back to the first output's array is block t of layer 1. -/
theorem flushedH (c : Dev nD) (t : Fin cfg2.N) :
    (dat2 V c).flushed 8 t = ((cfg2.win 8).blk t).view.read (Elt Ideal) (wholeH V c) := by
  show (cfg2.win 8).cut (grid2.coords t) ((dat2 V c).after 8 t) = _
  rw [after2_8, outs8]
  funext j
  obtain ⟨p, q, rfl⟩ : ∃ (p : Fin 256) (q : Fin 256), j = ix2 p q := ⟨j 0, j 1, eq_ix2 j⟩
  have hi := idxH t
  have hN : cfg2.N = 16 := N_2
  have hp : 256 * t.val + p.val < 4096 := by have := t.isLt; omega
  rw [View.read_apply]
  refine (congrArg (blockH V c t)
    (funext fun a => Fin.ext rfl : (cfg2.win 8).xinj (grid2.coords t) (ix2 p q) = ix2 p q)).trans ?_
  refine (blockH_apply V c t p q ⟨256 * t.val + p.val, hp⟩ rfl).trans ?_
  show hG _ _ _ _ _ _
    = hG _ _ _ _ ((((cfg2.win 8).blk t).view.emb (ix2 p q)) 0) ((((cfg2.win 8).blk t).view.emb (ix2 p q)) 1)
  congr 1
  · exact Fin.ext (by show 256 * t.val + p.val = win2_8.index t 0 * 256 + 1 * p.val; rw [hi.1]; omega)
  · exact Fin.ext (by show q.val = win2_8.index t 1 * 256 + 1 * q.val; rw [hi.2]; omega)

/-- Row r of the first output's array lies in the block of point r / 256. -/
theorem coverH (i : S4096x256.Idx) :
    ∃ t : Fin cfg2.N, (cfg2.win 8).flush t = true ∧ i ∈ ((cfg2.win 8).blk t).view.set := by
  have hN : cfg2.N = 16 := N_2
  have h0 : (i 0).val < 4096 := (i 0).isLt
  have h1 : (i 1).val < 256 := (i 1).isLt
  have ht : (i 0).val / 256 < cfg2.N := by rw [hN]; omega
  refine ⟨⟨(i 0).val / 256, ht⟩, flush2_8 _, ?_⟩
  have hi := idxH ⟨(i 0).val / 256, ht⟩
  show i ∈ ((View.whole main_v7_0).slice (win2_8.rect ⟨(i 0).val / 256, ht⟩)).set
  rw [View.set_slice_whole, Rect.mem_set_unit]
  intro a
  match a with
  | ⟨0, _⟩ =>
    show win2_8.index ⟨(i 0).val / 256, ht⟩ 0 * 256 ≤ (i 0).val
      ∧ (i 0).val < win2_8.index ⟨(i 0).val / 256, ht⟩ 0 * 256 + 256
    rw [hi.1]; dsimp only; omega
  | ⟨1, _⟩ =>
    show win2_8.index ⟨(i 0).val / 256, ht⟩ 1 * 256 ≤ (i 1).val
      ∧ (i 1).val < win2_8.index ⟨(i 0).val / 256, ht⟩ 1 * 256 + 256
    rw [hi.2]; omega

/-- The third launch's first output array ends holding layer 1, as a function of the adjacency copy, the scaled
    support of layer 1, d and the bias row. -/
theorem final_h (c : Dev nD) :
    (dat2 V c).arrAt 8 cfg2.N
      = (fun idx : S4096x256.Idx => hG (cur (V c main_v0_2 : S4096x4096.Idx → EReal))
          (cur (V c main_v2 : S4096x256.Idx → EReal)) (colv (V c main_v0_0 : S4096x1.Idx → EReal))
          (rowv (V c main_v3 : S1x256.Idx → EReal)) (idx 0) (idx 1)) :=
  (dat2 V c).arrAt_eq_of_cover 8 (wholeH V c) (fun t _ => flushedH V c t) coverH

/-! ## The second output -/

/-- The remaining input blocks at point t, at their literal types. -/
abbrev bSide (c : Dev nD) (t : Fin cfg2.N) : Vec Ideal S256x32 .f32 := iblk2 V c 4 t
abbrev bWh (c : Dev nD) (t : Fin cfg2.N) : Vec Ideal S256x16 .f32 := iblk2 V c 5 t
abbrev bWs (c : Dev nD) (t : Fin cfg2.N) : Vec Ideal S32x16 .f32 := iblk2 V c 6 t
abbrev bBc (c : Dev nD) (t : Fin cfg2.N) : Vec Ideal S1x16 .f32 := iblk2 V c 7 t

theorem idxSide : ∀ t : Fin cfg2.N, win2_4.index t (0 : Fin 2) = t.val ∧ win2_4.index t (1 : Fin 2) = 0 :=
  (by decide +kernel : ∀ t : Fin grid2.N, _)
theorem idxWh : ∀ t : Fin cfg2.N, win2_5.index t (0 : Fin 2) = 0 ∧ win2_5.index t (1 : Fin 2) = 0 :=
  (by decide +kernel : ∀ t : Fin grid2.N, _)
theorem idxWs : ∀ t : Fin cfg2.N, win2_6.index t (0 : Fin 2) = 0 ∧ win2_6.index t (1 : Fin 2) = 0 :=
  (by decide +kernel : ∀ t : Fin grid2.N, _)
theorem idxBc : ∀ t : Fin cfg2.N, win2_7.index t (0 : Fin 2) = 0 ∧ win2_7.index t (1 : Fin 2) = 0 :=
  (by decide +kernel : ∀ t : Fin grid2.N, _)
theorem idxY : ∀ t : Fin cfg2.N, win2_9.index t (0 : Fin 2) = t.val ∧ win2_9.index t (1 : Fin 2) = 0 :=
  (by decide +kernel : ∀ t : Fin grid2.N, _)

theorem bSide_apply (c : Dev nD) (t : Fin cfg2.N) (p : Fin 256) (q : Fin 32) (r : Fin 4096)
    (hr : r.val = 256 * t.val + p.val) :
    bSide V c t (ix2 p q) = cur (V c main_arg2 : S4096x32.Idx → EReal) r q := by
  have hi := idxSide t
  unfold bSide iblk2
  rw [View.read_apply]
  refine congrArg (V c main_arg2 : S4096x32.Idx → EReal) (funext fun a => Fin.ext ?_)
  match a with
  | ⟨0, _⟩ => show win2_4.index t 0 * 256 + 1 * p.val = r.val; rw [hi.1, hr]; omega
  | ⟨1, _⟩ => show win2_4.index t 1 * 32 + 1 * q.val = q.val; rw [hi.2]; omega

theorem bWh_apply (c : Dev nD) (t : Fin cfg2.N) (q : Fin 256) (j : Fin 16) :
    bWh V c t (ix2 q j) = cur (V c main_v4 : S256x16.Idx → EReal) q j := by
  have hi := idxWh t
  unfold bWh iblk2
  rw [View.read_apply]
  refine congrArg (V c main_v4 : S256x16.Idx → EReal) (funext fun a => Fin.ext ?_)
  match a with
  | ⟨0, _⟩ => show win2_5.index t 0 * 256 + 1 * q.val = q.val; rw [hi.1]; omega
  | ⟨1, _⟩ => show win2_5.index t 1 * 16 + 1 * j.val = j.val; rw [hi.2]; omega

theorem bWs_apply (c : Dev nD) (t : Fin cfg2.N) (q : Fin 32) (j : Fin 16) :
    bWs V c t (ix2 q j) = cur (V c main_v5 : S32x16.Idx → EReal) q j := by
  have hi := idxWs t
  unfold bWs iblk2
  rw [View.read_apply]
  refine congrArg (V c main_v5 : S32x16.Idx → EReal) (funext fun a => Fin.ext ?_)
  match a with
  | ⟨0, _⟩ => show win2_6.index t 0 * 32 + 1 * q.val = q.val; rw [hi.1]; omega
  | ⟨1, _⟩ => show win2_6.index t 1 * 16 + 1 * j.val = j.val; rw [hi.2]; omega

theorem bBc_apply (c : Dev nD) (t : Fin cfg2.N) (u : Fin 1) (j : Fin 16) :
    bBc V c t (ix2 u j) = rowv (V c main_v6 : S1x16.Idx → EReal) j := by
  have hi := idxBc t
  unfold bBc iblk2
  rw [View.read_apply]
  refine congrArg (V c main_v6 : S1x16.Idx → EReal) (funext fun a => Fin.ext ?_)
  match a with
  | ⟨0, _⟩ => show win2_7.index t 0 * 1 + 1 * u.val = 0; rw [hi.1]; omega
  | ⟨1, _⟩ => show win2_7.index t 1 * 16 + 1 * j.val = j.val; rw [hi.2]; omega

/-- The whole second output: the class probabilities as a function of the launch's arrays. -/
abbrev wholeY (c : Dev nD) : S4096x16.Idx → EReal := fun idx =>
  yG (cur (V c main_v0_2 : S4096x4096.Idx → EReal)) (cur (V c main_v2 : S4096x256.Idx → EReal))
          (colv (V c main_v0_0 : S4096x1.Idx → EReal)) (rowv (V c main_v3 : S1x256.Idx → EReal))
          (cur (V c main_arg2 : S4096x32.Idx → EReal)) (cur (V c main_v4 : S256x16.Idx → EReal))
          (cur (V c main_v5 : S32x16.Idx → EReal)) (rowv (V c main_v6 : S1x16.Idx → EReal)) (idx 0) (idx 1)

/-- The logits, their row maxima and the probabilities that grid point t computes. -/
abbrev blockL (c : Dev nD) (t : Fin cfg2.N) : FVec Ideal S256x16 .f32 :=
  k2_pay3 (F := Ideal) (bA V c t) (bS V c t) (ownRows (grid2.coords t) (bS V c t)) (bD V c t) (bB V c t) (bWh V c t) (bSide V c t)
    (bWs V c t) (bBc V c t)
abbrev blockM (c : Dev nD) (t : Fin cfg2.N) : FVec Ideal S256x1 .f32 :=
  k2_pay4 (F := Ideal) (bA V c t) (bS V c t) (ownRows (grid2.coords t) (bS V c t)) (bD V c t) (bB V c t) (bWh V c t) (bSide V c t)
    (bWs V c t) (bBc V c t)
abbrev blockY (c : Dev nD) (t : Fin cfg2.N) : FVec Ideal S256x16 .f32 :=
  k2_pay1 (F := Ideal) (blockL V c t) (blockM V c t)

theorem outs9 (c : Dev nD) (t : Fin cfg2.N) : (outsAt2 V c t).2 = blockY V c t := by
  unfold outsAt2
  dsimp only
  exact out9_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (iblk2 V c 0 t) (iblk2 V c 1 t) (iblk2 V c 2 t) (iblk2 V c 3 t) (iblk2 V c 4 t) (iblk2 V c 5 t) (iblk2 V c 6 t) (iblk2 V c 7 t)

/-- Entry (p, j) of the logits' block is the classifier's logit of row 256·t + p. -/
theorem blockL_apply (c : Dev nD) (t : Fin cfg2.N) (p : Fin 256) (j : Fin 16) (r : Fin 4096)
    (hr : r.val = 256 * t.val + p.val) :
    blockL V c t (ix2 p j)
      = lgG (hG (cur (V c main_v0_2 : S4096x4096.Idx → EReal)) (cur (V c main_v2 : S4096x256.Idx → EReal))
          (colv (V c main_v0_0 : S4096x1.Idx → EReal)) (rowv (V c main_v3 : S1x256.Idx → EReal)))
          (cur (V c main_arg2 : S4096x32.Idx → EReal)) (cur (V c main_v4 : S256x16.Idx → EReal))
          (cur (V c main_v5 : S32x16.Idx → EReal)) (rowv (V c main_v6 : S1x16.Idx → EReal)) r j := by
  refine (pay3_apply (bA V c t) (bS V c t) (ownRows (grid2.coords t) (bS V c t)) (bD V c t) (bB V c t) (bWh V c t) (bSide V c t)
    (bWs V c t) (bBc V c t) p j).trans ?_
  have h1 : ∑ q : Fin 256, blockH V c t (ix2 p q) * bWh V c t (ix2 q j)
      = ∑ q : Fin 256, (hG (cur (V c main_v0_2 : S4096x4096.Idx → EReal)) (cur (V c main_v2 : S4096x256.Idx → EReal))
          (colv (V c main_v0_0 : S4096x1.Idx → EReal)) (rowv (V c main_v3 : S1x256.Idx → EReal))) r q * (cur (V c main_v4 : S256x16.Idx → EReal)) q j :=
    Finset.sum_congr rfl fun q _ => by rw [blockH_apply V c t p q r hr, bWh_apply V c t q j]
  have h2 : ∑ q : Fin 32, bSide V c t (ix2 p q) * bWs V c t (ix2 q j)
      = ∑ q : Fin 32, (cur (V c main_arg2 : S4096x32.Idx → EReal)) r q * (cur (V c main_v5 : S32x16.Idx → EReal)) q j :=
    Finset.sum_congr rfl fun q _ => by rw [bSide_apply V c t p q r hr, bWs_apply V c t q j]
  show (∑ q : Fin 256, blockH V c t (ix2 p q) * bWh V c t (ix2 q j)
      + ∑ q : Fin 32, bSide V c t (ix2 p q) * bWs V c t (ix2 q j)) + bBc V c t (ix2 0 j) = _
  rw [h1, h2, bBc_apply V c t 0 j]
  rfl

/-- The row maximum at row p is the fold of max from -∞ over the sixteen logits of row 256·t + p. -/
theorem blockM_apply (c : Dev nD) (t : Fin cfg2.N) (p : Fin 256) (u : Fin 1) (r : Fin 4096)
    (hr : r.val = 256 * t.val + p.val) :
    blockM V c t (ix2 p u)
      = (Finset.univ : Finset (Fin 16)).fold max negInf
          (lgG (hG (cur (V c main_v0_2 : S4096x4096.Idx → EReal)) (cur (V c main_v2 : S4096x256.Idx → EReal))
          (colv (V c main_v0_0 : S4096x1.Idx → EReal)) (rowv (V c main_v3 : S1x256.Idx → EReal)))
          (cur (V c main_arg2 : S4096x32.Idx → EReal)) (cur (V c main_v4 : S256x16.Idx → EReal))
          (cur (V c main_v5 : S32x16.Idx → EReal)) (rowv (V c main_v6 : S1x16.Idx → EReal)) r) := by
  refine (pay4_apply (bA V c t) (bS V c t) (ownRows (grid2.coords t) (bS V c t)) (bD V c t) (bB V c t) (bWh V c t) (bSide V c t)
    (bWs V c t) (bBc V c t) p u).trans ?_
  exact congrArg (fun f : Fin 16 → EReal => (Finset.univ : Finset (Fin 16)).fold max negInf f)
    (funext fun k => blockL_apply V c t p k r hr)

/-- Entry (p, j) of the probabilities' block is the softmax of the logits of row 256·t + p. -/
theorem blockY_apply (c : Dev nD) (t : Fin cfg2.N) (p : Fin 256) (j : Fin 16) (r : Fin 4096)
    (hr : r.val = 256 * t.val + p.val) :
    blockY V c t (ix2 p j)
      = yG (cur (V c main_v0_2 : S4096x4096.Idx → EReal)) (cur (V c main_v2 : S4096x256.Idx → EReal))
          (colv (V c main_v0_0 : S4096x1.Idx → EReal)) (rowv (V c main_v3 : S1x256.Idx → EReal))
          (cur (V c main_arg2 : S4096x32.Idx → EReal)) (cur (V c main_v4 : S256x16.Idx → EReal))
          (cur (V c main_v5 : S32x16.Idx → EReal)) (rowv (V c main_v6 : S1x16.Idx → EReal)) r j := by
  refine (pay1_apply (blockL V c t) (blockM V c t) p j).trans ?_
  have hL : ∀ k : Fin 16, blockL V c t (ix2 p k)
      = lgG (hG (cur (V c main_v0_2 : S4096x4096.Idx → EReal)) (cur (V c main_v2 : S4096x256.Idx → EReal))
          (colv (V c main_v0_0 : S4096x1.Idx → EReal)) (rowv (V c main_v3 : S1x256.Idx → EReal)))
          (cur (V c main_arg2 : S4096x32.Idx → EReal)) (cur (V c main_v4 : S256x16.Idx → EReal))
          (cur (V c main_v5 : S32x16.Idx → EReal)) (rowv (V c main_v6 : S1x16.Idx → EReal)) r k := fun k => blockL_apply V c t p k r hr
  rw [blockM_apply V c t p 0 r hr]
  simp only [hL]
  rfl

/-- What point t writes back to the second output's array is block t of the class probabilities. -/
theorem flushedY (c : Dev nD) (t : Fin cfg2.N) :
    (dat2 V c).flushed 9 t = ((cfg2.win 9).blk t).view.read (Elt Ideal) (wholeY V c) := by
  show (cfg2.win 9).cut (grid2.coords t) ((dat2 V c).after 9 t) = _
  rw [after2_9, outs9]
  funext j
  obtain ⟨p, q, rfl⟩ : ∃ (p : Fin 256) (q : Fin 16), j = ix2 p q := ⟨j 0, j 1, eq_ix2 j⟩
  have hi := idxY t
  have hN : cfg2.N = 16 := N_2
  have hp : 256 * t.val + p.val < 4096 := by have := t.isLt; omega
  rw [View.read_apply]
  refine (congrArg (blockY V c t)
    (funext fun a => Fin.ext rfl : (cfg2.win 9).xinj (grid2.coords t) (ix2 p q) = ix2 p q)).trans ?_
  refine (blockY_apply V c t p q ⟨256 * t.val + p.val, hp⟩ rfl).trans ?_
  show yG _ _ _ _ _ _ _ _ _ _
    = yG _ _ _ _ _ _ _ _ ((((cfg2.win 9).blk t).view.emb (ix2 p q)) 0) ((((cfg2.win 9).blk t).view.emb (ix2 p q)) 1)
  congr 1
  · exact Fin.ext (by show 256 * t.val + p.val = win2_9.index t 0 * 256 + 1 * p.val; rw [hi.1]; omega)
  · exact Fin.ext (by show q.val = win2_9.index t 1 * 16 + 1 * q.val; rw [hi.2]; omega)

/-- Row r of the second output's array lies in the block of point r / 256. -/
theorem coverY (i : S4096x16.Idx) :
    ∃ t : Fin cfg2.N, (cfg2.win 9).flush t = true ∧ i ∈ ((cfg2.win 9).blk t).view.set := by
  have hN : cfg2.N = 16 := N_2
  have h0 : (i 0).val < 4096 := (i 0).isLt
  have h1 : (i 1).val < 16 := (i 1).isLt
  have ht : (i 0).val / 256 < cfg2.N := by rw [hN]; omega
  refine ⟨⟨(i 0).val / 256, ht⟩, flush2_9 _, ?_⟩
  have hi := idxY ⟨(i 0).val / 256, ht⟩
  show i ∈ ((View.whole main_v7_1).slice (win2_9.rect ⟨(i 0).val / 256, ht⟩)).set
  rw [View.set_slice_whole, Rect.mem_set_unit]
  intro a
  match a with
  | ⟨0, _⟩ =>
    show win2_9.index ⟨(i 0).val / 256, ht⟩ 0 * 256 ≤ (i 0).val
      ∧ (i 0).val < win2_9.index ⟨(i 0).val / 256, ht⟩ 0 * 256 + 256
    rw [hi.1]; dsimp only; omega
  | ⟨1, _⟩ =>
    show win2_9.index ⟨(i 0).val / 256, ht⟩ 1 * 16 ≤ (i 1).val
      ∧ (i 1).val < win2_9.index ⟨(i 0).val / 256, ht⟩ 1 * 16 + 16
    rw [hi.2]; omega

/-- The third launch's second output array ends holding the class probabilities, as a function of the same four
    arrays and of the side features, the two pieces of the classifier's weights and its bias row. -/
theorem final_y (c : Dev nD) :
    (dat2 V c).arrAt 9 cfg2.N
      = (fun idx : S4096x16.Idx => yG (cur (V c main_v0_2 : S4096x4096.Idx → EReal))
          (cur (V c main_v2 : S4096x256.Idx → EReal)) (colv (V c main_v0_0 : S4096x1.Idx → EReal))
          (rowv (V c main_v3 : S1x256.Idx → EReal)) (cur (V c main_arg2 : S4096x32.Idx → EReal))
          (cur (V c main_v4 : S256x16.Idx → EReal)) (cur (V c main_v5 : S32x16.Idx → EReal))
          (rowv (V c main_v6 : S1x16.Idx → EReal)) (idx 0) (idx 1)) :=
  (dat2 V c).arrAt_eq_of_cover 9 (wholeY V c) (fun t _ => flushedY V c t) coverY

end Cert.KernelIdeal.Launch2
-- ==== Proof.KernelValue.lean ====
/-
  The kernel program's two results as functions of its nine arguments: the three launches' outputs threaded through
  the host operations between them.

  Launch 0 reads adj, x, W0 and writes d, the scaled support s0 = d · (x · W0), and a copy of adj. A reshape makes b0 a
  row. Launch 1 reads the copy, s0, d, W1 and that row and writes s1 = d · (leaky (d · (adj · s0 + s0) + b0) · W1).
  A reshape makes b1 a row, two slices cut Wc into the rows that meet h and the rows that meet S, a reshape makes bc
  a row. Launch 2 reads the copy, s1, d, those four and S and writes h and y. Each array a later launch reads is
  either an argument nobody writes, or an earlier launch's output as that launch's value lemma names it.
-/
import proofs.«148359_g79121887527625_cont_sun_m_466_4_alg».proof.Proof.KernelRun
import proofs.«148359_g79121887527625_cont_sun_m_466_4_alg».proof.Proof.Launch0
import proofs.«148359_g79121887527625_cont_sun_m_466_4_alg».proof.Proof.Launch1
import proofs.«148359_g79121887527625_cont_sun_m_466_4_alg».proof.Proof.Launch2
import Idealize.ShloMosaic.Lib.StableHlo.Run
import Idealize.ShloMosaic.Lib.ValueLayout
import Idealize.ShloMosaic.Lib.Pipeline.Value

noncomputable section

open scoped BigOperators

namespace Cert.KernelIdeal.Chain

open Idealize.ShloMosaic Idealize.ShloMosaic.TcCoe Idealize.SL.Sem Idealize.ShloMosaic.ValueIdx
open Idealize.ShloMosaic.Pipeline (Dat)
open Cert.KernelIdeal Cert.KernelIdeal.Gen Cert.Gcn

variable (m : (ℓ : Loc nD τ sig) → Buf (Elt Ideal) ℓ) (ρ : Dev nD → PrngReg)

/-! ## The nine arguments as arrays of extended reals -/

abbrev aX (c : Dev nD) : S4096x512.Idx → EReal := m ((c : Thread nD τ).loc main_arg0)
abbrev aAdj (c : Dev nD) : S4096x4096.Idx → EReal := m ((c : Thread nD τ).loc main_arg1)
abbrev aS (c : Dev nD) : S4096x32.Idx → EReal := m ((c : Thread nD τ).loc main_arg2)
abbrev aW0 (c : Dev nD) : S512x512.Idx → EReal := m ((c : Thread nD τ).loc main_arg3)
abbrev aB0 (c : Dev nD) : S512.Idx → EReal := m ((c : Thread nD τ).loc main_arg4)
abbrev aW1 (c : Dev nD) : S512x256.Idx → EReal := m ((c : Thread nD τ).loc main_arg5)
abbrev aB1 (c : Dev nD) : S256.Idx → EReal := m ((c : Thread nD τ).loc main_arg6)
abbrev aWc (c : Dev nD) : S288x16.Idx → EReal := m ((c : Thread nD τ).loc main_arg7)
abbrev aBc (c : Dev nD) : S16.Idx → EReal := m ((c : Thread nD τ).loc main_arg8)

/-! ## What the first launch leaves -/

/-- d as an array. -/
abbrev dArr (c : Dev nD) : S4096x1.Idx → EReal := fun idx => dG (cur (aAdj m c)) (idx 0)
/-- The scaled support of layer 0 as an array. -/
abbrev s0Arr (c : Dev nD) : S4096x512.Idx → EReal :=
  fun idx => s0G (cur (aAdj m c)) (cur (aX m c)) (cur (aW0 m c)) (idx 0) (idx 1)

theorem w1_d (c : Dev nD) : W1 m ρ c (Proc.devRef .tc main_v0_0) = dArr m c :=
  (W1_arr m ρ c 3).trans (Launch0.final_d (V0 m ρ) c)

theorem w1_s0 (c : Dev nD) : W1 m ρ c (Proc.devRef .tc main_v0_1) = s0Arr m c :=
  (W1_arr m ρ c 4).trans (Launch0.final_s0 (V0 m ρ) c)

theorem w1_adjb (c : Dev nD) : W1 m ρ c (Proc.devRef .tc main_v0_2) = aAdj m c :=
  (W1_arr m ρ c 5).trans (Launch0.final_adjb (V0 m ρ) c)

/-! ## What the second launch finds -/

theorem v2_adjb (c : Dev nD) : V2 m ρ c main_v0_2 = aAdj m c :=
  (StableHlo.after_of_forall_not_mem (b := Proc.devRef .tc main_v0_2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (w1_adjb m ρ c)

theorem v2_s0 (c : Dev nD) : V2 m ρ c main_v0_1 = s0Arr m c :=
  (StableHlo.after_of_forall_not_mem (b := Proc.devRef .tc main_v0_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (w1_s0 m ρ c)

theorem v2_d (c : Dev nD) : V2 m ρ c main_v0_0 = dArr m c :=
  (StableHlo.after_of_forall_not_mem (b := Proc.devRef .tc main_v0_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (w1_d m ρ c)

theorem v2_W1 (c : Dev nD) : V2 m ρ c main_arg5 = aW1 m c :=
  (StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_of_ne m ρ c main_arg5 (by decide))

theorem w1_b0 (c : Dev nD) : W1 m ρ c (Proc.devRef .tc main_arg4) = aB0 m c :=
  W1_of_ne m ρ c main_arg4 (by decide)

/-- The bias of layer 0 as a row. -/
abbrev b0Row (c : Dev nD) : S1x512.Idx → EReal := shapeCast S1x512 (aB0 m c) shapeCasts_S512_S1x512

/-- The second launch finds the reshape of the argument in the bias row's buffer. -/
theorem v2_b0row (c : Dev nD) : V2 m ρ c main_v1 = b0Row m c := by
  unfold b0Row
  rw [← w1_b0 m ρ c]
  show StableHlo.after hostOps1 (W1 m ρ c) (Proc.devRef .tc main_v1) = _
  after_results <;> rfl

/-! ## What the second launch leaves -/

/-- The scaled support of layer 1 as an array. -/
abbrev s1Arr (c : Dev nD) : S4096x256.Idx → EReal :=
  fun idx => s1G (cur (aAdj m c)) (cur (s0Arr m c)) (colv (dArr m c)) (cur (aW1 m c)) (rowv (b0Row m c)) (idx 0) (idx 1)

theorem w3_s1 (c : Dev nD) : W3 m ρ c (Proc.devRef .tc main_v2) = s1Arr m c := by
  refine (W3_arr m ρ c 5).trans ((Launch1.final_s1 (V2 m ρ) c).trans ?_)
  rw [v2_adjb m ρ c, v2_s0 m ρ c, v2_d m ρ c, v2_W1 m ρ c, v2_b0row m ρ c]

theorem w3_adjb (c : Dev nD) : W3 m ρ c (Proc.devRef .tc main_v0_2) = aAdj m c :=
  (W3_arr m ρ c 0).trans ((((dat1 (V2 m ρ) c).arrAt_in 0 rfl _).trans (A_eq1 (V2 m ρ) c 0)).trans (v2_adjb m ρ c))

theorem w3_d (c : Dev nD) : W3 m ρ c (Proc.devRef .tc main_v0_0) = dArr m c :=
  (W3_arr m ρ c 2).trans ((((dat1 (V2 m ρ) c).arrAt_in 2 rfl _).trans (A_eq1 (V2 m ρ) c 2)).trans (v2_d m ρ c))

/-- An argument no launch has touched so far and no host operation writes. -/
theorem w3_arg2 (c : Dev nD) : W3 m ρ c (Proc.devRef .tc main_arg2) = aS m c :=
  (W3_of_ne m ρ c main_arg2 (by decide)).trans ((StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_of_ne m ρ c main_arg2 (by decide)))
theorem w3_arg6 (c : Dev nD) : W3 m ρ c (Proc.devRef .tc main_arg6) = aB1 m c :=
  (W3_of_ne m ρ c main_arg6 (by decide)).trans ((StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_of_ne m ρ c main_arg6 (by decide)))
theorem w3_arg7 (c : Dev nD) : W3 m ρ c (Proc.devRef .tc main_arg7) = aWc m c :=
  (W3_of_ne m ρ c main_arg7 (by decide)).trans ((StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_of_ne m ρ c main_arg7 (by decide)))
theorem w3_arg8 (c : Dev nD) : W3 m ρ c (Proc.devRef .tc main_arg8) = aBc m c :=
  (W3_of_ne m ρ c main_arg8 (by decide)).trans ((StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_of_ne m ρ c main_arg8 (by decide)))

/-! ## What the third launch finds -/

theorem v4_adjb (c : Dev nD) : V4 m ρ c main_v0_2 = aAdj m c :=
  (StableHlo.after_of_forall_not_mem (b := Proc.devRef .tc main_v0_2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (w3_adjb m ρ c)

theorem v4_s1 (c : Dev nD) : V4 m ρ c main_v2 = s1Arr m c :=
  (StableHlo.after_of_forall_not_mem (b := Proc.devRef .tc main_v2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (w3_s1 m ρ c)

theorem v4_d (c : Dev nD) : V4 m ρ c main_v0_0 = dArr m c :=
  (StableHlo.after_of_forall_not_mem (b := Proc.devRef .tc main_v0_0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (w3_d m ρ c)

theorem v4_S (c : Dev nD) : V4 m ρ c main_arg2 = aS m c :=
  (StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (w3_arg2 m ρ c)

/-- The bias of layer 1 as a row. -/
abbrev b1Row (c : Dev nD) : S1x256.Idx → EReal := shapeCast S1x256 (aB1 m c) shapeCasts_S256_S1x256
/-- Rows 0 … 255 of the classifier's weights. -/
abbrev wchArr (c : Dev nD) : S256x16.Idx → EReal := extractStridedSlice S256x16 ![0, 0] (aWc m c) slices_S288x16_S256x16_0_0
/-- Rows 256 … 287 of the classifier's weights. -/
abbrev wcsArr (c : Dev nD) : S32x16.Idx → EReal := extractStridedSlice S32x16 ![256, 0] (aWc m c) slices_S288x16_S32x16_256_0
/-- The classifier's bias as a row. -/
abbrev bcRow (c : Dev nD) : S1x16.Idx → EReal := shapeCast S1x16 (aBc m c) shapeCasts_S16_S1x16

theorem v4_b1row (c : Dev nD) : V4 m ρ c main_v3 = b1Row m c := by
  unfold b1Row
  rw [← w3_arg6 m ρ c]
  show StableHlo.after hostOps2 (W3 m ρ c) (Proc.devRef .tc main_v3) = _
  after_results <;> rfl

theorem v4_wch (c : Dev nD) : V4 m ρ c main_v4 = wchArr m c := by
  unfold wchArr
  rw [← w3_arg7 m ρ c]
  show StableHlo.after hostOps2 (W3 m ρ c) (Proc.devRef .tc main_v4) = _
  after_results <;> rfl

theorem v4_wcs (c : Dev nD) : V4 m ρ c main_v5 = wcsArr m c := by
  unfold wcsArr
  rw [← w3_arg7 m ρ c]
  show StableHlo.after hostOps2 (W3 m ρ c) (Proc.devRef .tc main_v5) = _
  after_results <;> rfl

theorem v4_bcrow (c : Dev nD) : V4 m ρ c main_v6 = bcRow m c := by
  unfold bcRow
  rw [← w3_arg8 m ρ c]
  show StableHlo.after hostOps2 (W3 m ρ c) (Proc.devRef .tc main_v6) = _
  after_results <;> rfl

/-! ## The two results -/

theorem w5_h (c : Dev nD) :
    W5 m ρ c (Proc.devRef .tc main_v7_0)
      = (fun idx : S4096x256.Idx =>
          hG (cur (aAdj m c)) (cur (s1Arr m c)) (colv (dArr m c)) (rowv (b1Row m c)) (idx 0) (idx 1)) := by
  refine (W5_arr m ρ c 8).trans ((Launch2.final_h (V4 m ρ) c).trans ?_)
  rw [v4_adjb m ρ c, v4_s1 m ρ c, v4_d m ρ c, v4_b1row m ρ c]

theorem w5_y (c : Dev nD) :
    W5 m ρ c (Proc.devRef .tc main_v7_1)
      = (fun idx : S4096x16.Idx =>
          yG (cur (aAdj m c)) (cur (s1Arr m c)) (colv (dArr m c)) (rowv (b1Row m c)) (cur (aS m c))
            (cur (wchArr m c)) (cur (wcsArr m c)) (rowv (bcRow m c)) (idx 0) (idx 1)) := by
  refine (W5_arr m ρ c 9).trans ((Launch2.final_y (V4 m ρ) c).trans ?_)
  rw [v4_adjb m ρ c, v4_s1 m ρ c, v4_d m ρ c, v4_b1row m ρ c, v4_S m ρ c, v4_wch m ρ c, v4_wcs m ρ c, v4_bcrow m ρ c]

/-! ## The same, over the arguments read by coordinates -/

theorem rowv_b0 (c : Dev nD) : rowv (b0Row m c) = vec1 (aB0 m c) :=
  funext fun j => shapeCast_a_1a_apply (aB0 m c) shapeCasts_S512_S1x512 0 j
theorem rowv_b1 (c : Dev nD) : rowv (b1Row m c) = vec1 (aB1 m c) :=
  funext fun j => shapeCast_a_1a_apply (aB1 m c) shapeCasts_S256_S1x256 0 j
theorem rowv_bc (c : Dev nD) : rowv (bcRow m c) = vec1 (aBc m c) :=
  funext fun j => shapeCast_a_1a_apply (aBc m c) shapeCasts_S16_S1x16 0 j
theorem cur_wch (c : Dev nD) : cur (wchArr m c) = WcTop (cur (aWc m c)) :=
  funext fun q => funext fun j => slice2_axis0_apply 0 (aWc m c) slices_S288x16_S256x16_0_0 q j ⟨q.val, by omega⟩ (by simp)
theorem cur_wcs (c : Dev nD) : cur (wcsArr m c) = WcBot (cur (aWc m c)) :=
  funext fun q => funext fun j => slice2_axis0_apply 256 (aWc m c) slices_S288x16_S32x16_256_0 q j ⟨256 + q.val, by omega⟩ rfl

/-- The scaled support of layer 1 over the arguments read by coordinates. -/
theorem cur_s1 (c : Dev nD) :
    cur (s1Arr m c)
      = s1G (cur (aAdj m c)) (s0G (cur (aAdj m c)) (cur (aX m c)) (cur (aW0 m c))) (dG (cur (aAdj m c))) (cur (aW1 m c))
          (vec1 (aB0 m c)) := by
  funext i j
  show s1G (cur (aAdj m c)) (cur (s0Arr m c)) (colv (dArr m c)) (cur (aW1 m c)) (rowv (b0Row m c)) i j = _
  rw [rowv_b0 m c]

/-- The kernel program's first result buffer ends at the kernel's arrangement of layer 1 of its arguments. -/
theorem result_h (c : Dev nD) :
    W5 m ρ c (Proc.devRef .tc main_v7_0)
      = (fun idx : S4096x256.Idx =>
          hK (cur (aAdj m c)) (cur (aX m c)) (cur (aW0 m c)) (vec1 (aB0 m c)) (cur (aW1 m c)) (vec1 (aB1 m c)) (idx 0) (idx 1)) := by
  rw [w5_h m ρ c, cur_s1 m c, rowv_b1 m c]
  rfl

/-- The kernel program's second result buffer ends at the kernel's arrangement of the class probabilities. -/
theorem result_y (c : Dev nD) :
    W5 m ρ c (Proc.devRef .tc main_v7_1)
      = (fun idx : S4096x16.Idx =>
          yK (cur (aAdj m c)) (cur (aX m c)) (cur (aS m c)) (cur (aW0 m c)) (vec1 (aB0 m c)) (cur (aW1 m c)) (vec1 (aB1 m c))
            (cur (aWc m c)) (vec1 (aBc m c)) (idx 0) (idx 1)) := by
  rw [w5_y m ρ c, cur_s1 m c, rowv_b1 m c, rowv_bc m c, cur_wch m c, cur_wcs m c]
  rfl

/-- The first result as an array: the kernel's arrangement of layer 1 of the arguments. -/
abbrev hRes (c : Dev nD) : S4096x256.Idx → EReal := fun idx =>
  hK (cur (aAdj m c)) (cur (aX m c)) (cur (aW0 m c)) (vec1 (aB0 m c)) (cur (aW1 m c)) (vec1 (aB1 m c)) (idx 0) (idx 1)

/-- The second result as an array: the kernel's arrangement of the class probabilities of the arguments. -/
abbrev yRes (c : Dev nD) : S4096x16.Idx → EReal := fun idx =>
  yK (cur (aAdj m c)) (cur (aX m c)) (cur (aS m c)) (cur (aW0 m c)) (vec1 (aB0 m c)) (cur (aW1 m c)) (vec1 (aB1 m c))
    (cur (aWc m c)) (vec1 (aBc m c)) (idx 0) (idx 1)

/-- The kernel program runs, ends with its two results at the kernel's arrangement of its arguments, and leaves its
    arguments as launched. -/
theorem run : θ_run defs (onTc (τ := τ) (main (F := Ideal))) ⟨m, fun _ => 0, ρ⟩ (fun r => ∀ c : Dev nD,
      r.2.mem ((c.tc : Thread nD τ).loc main_v7_0) = hRes m c
      ∧ r.2.mem ((c.tc : Thread nD τ).loc main_v7_1) = yRes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono
    (fun _ h c => ⟨(h c).1.1.trans (result_h m ρ c), (h c).1.2.trans (result_y m ρ c), (h c).2⟩)
    (run_results m ρ)

end Cert.KernelIdeal.Chain

end
-- ==== Proof.RefTerm.lean ====
/-
  The reference's two results as pure terms of its argument arrays: its host operations composed in the order the
  program performs them, at any float instance. Both layers normalise the adjacency the same way, from the same
  argument, so one term `tAn` serves both.

    tA   = I + adj                                  (the identity as a comparison of two index grids, made a float)
    tD   = 1 / sqrt (row sums of tA)
    tAn  = (tA · tD by rows) · tD by columns
    tZ0  = tAn · (x · W0) + b0                      tLeaky z = select (z ≥ 0) z (slope · z)
    tH   = tAn · (tLeaky tZ0 · W1) + b1             the first result
    tLg  = [tH | S] · Wc + bc
    tY   = exp (tLg − max (−∞, rowmax tLg)) / rowsum of the same exponentials      the second result
-/
import proofs.«148359_g79121887527625_cont_sun_m_466_4_alg».proof.ReferenceIdeal

noncomputable section

namespace Cert.ReferenceIdeal.Term

open Idealize.ShloMosaic
open Cert.ReferenceIdeal Cert.ReferenceIdeal.Facts₀ Cert.ReferenceIdeal.Facts

variable {F : FTy → Type} [FloatOps F] [Cert.ReferenceIdeal.Facts]

/-- I + adj: the identity is the comparison "row index + 0 = column index", converted to a float. -/
def tA (adj : FVec F S4096x4096 .f32) : FVec F S4096x4096 .f32 :=
  addf (uitofp .f32 (cmpi .eq
      (addi (iotaInDim S4096x4096 32 0) (broadcastInDim S4096x4096 ![] bcast_S_S4096x4096 (constantI S_ 32 0#32)))
      (iotaInDim S4096x4096 32 1))) adj

/-- The row sums of I + adj, from 0.0. -/
def tRs (adj : FVec F S4096x4096 .f32) : FVec F S4096 .f32 :=
  Host.reduceAdd (tA adj) (constant S_ .f32 0x00000000#32) reducesTo_S4096x4096_S4096_d1 h_S_

/-- 1 / sqrt (row sums). -/
def tD (adj : FVec F S4096x4096 .f32) : FVec F S4096 .f32 :=
  Host.divf (broadcastInDim S4096 ![] bcast_S_S4096 (constant S_ .f32 0x3F800000#32)) (Host.sqrt (tRs adj))

/-- The normalised adjacency: scaled along rows, then along columns. -/
def tAn (adj : FVec F S4096x4096 .f32) : FVec F S4096x4096 .f32 :=
  mulf
    (mulf (tA adj)
      (broadcastInDim S4096x4096 ![0, 1] bcast_S4096x1_S4096x4096_0_1
        (broadcastInDim S4096x1 ![0] bcast_S4096_S4096x1_0 (tD adj))))
    (broadcastInDim S4096x4096 ![0, 1] bcast_S1x4096_S4096x4096_0_1
      (broadcastInDim S1x4096 ![1] bcast_S4096_S1x4096_1 (tD adj)))

/-- Layer 0 before its rectifier. -/
def tZ0 (x : FVec F S4096x512 .f32) (adj : FVec F S4096x4096 .f32) (W0 : FVec F S512x512 .f32) (b0 : FVec F S512 .f32) :
    FVec F S4096x512 .f32 :=
  addf
    (Host.dotGeneral dot_S4096x4096_S4096x512_S4096x512_1_0_0_1_n_n none (tAn adj)
      (Host.dotGeneral dot_S4096x512_S512x512_S4096x512_1_0_0_1_n_n none x W0))
    (broadcastInDim S4096x512 ![0, 1] bcast_S1x512_S4096x512_0_1 (broadcastInDim S1x512 ![1] bcast_S512_S1x512_1 b0))

/-- The leaky rectifier as the outlined function computes it. -/
def tLeaky (z : FVec F S4096x512 .f32) : FVec F S4096x512 .f32 :=
  select (cmpf .oge z (broadcastInDim S4096x512 ![] bcast_S_S4096x512 (constant S_ .f32 0x00000000#32))) z
    (mulf (broadcastInDim S4096x512 ![] bcast_S_S4096x512 (id (constant S_ .f32 0x3C23D70A#32))) z)

/-- Layer 1: the first result. -/
def tH (x : FVec F S4096x512 .f32) (adj : FVec F S4096x4096 .f32) (W0 : FVec F S512x512 .f32) (b0 : FVec F S512 .f32)
    (W1 : FVec F S512x256 .f32) (b1 : FVec F S256 .f32) : FVec F S4096x256 .f32 :=
  addf
    (Host.dotGeneral dot_S4096x4096_S4096x256_S4096x256_1_0_0_1_n_n none (tAn adj)
      (Host.dotGeneral dot_S4096x512_S512x256_S4096x256_1_0_0_1_n_n none (tLeaky (tZ0 x adj W0 b0)) W1))
    (broadcastInDim S4096x256 ![0, 1] bcast_S1x256_S4096x256_0_1 (broadcastInDim S1x256 ![1] bcast_S256_S1x256_1 b1))

/-- The classifier's logits over the concatenation of layer 1 and the side features. -/
def tLg (h : FVec F S4096x256 .f32) (S : FVec F S4096x32 .f32) (Wc : FVec F S288x16 .f32) (bc : FVec F S16 .f32) :
    FVec F S4096x16 .f32 :=
  addf
    (Host.dotGeneral dot_S4096x288_S288x16_S4096x16_1_0_0_1_n_n none
      (concatenate S4096x288 1 [⟨S4096x256, h⟩, ⟨S4096x32, S⟩] concatenates_S4096x256_S4096x32_S4096x288_d1) Wc)
    (broadcastInDim S4096x16 ![0, 1] bcast_S1x16_S4096x16_0_1 (broadcastInDim S1x16 ![1] bcast_S16_S1x16_1 bc))

/-- The row maxima the softmax shifts by: the larger of -∞ and the fold of max from -∞. -/
def tMx (lg : FVec F S4096x16 .f32) : FVec F S4096 .f32 :=
  maximumf (broadcastInDim S4096 ![] bcast_S_S4096 (constant S_ .f32 0xFF800000#32))
    (Host.reduce FloatOps.maximumf lg (constant S_ .f32 0xFF800000#32) reducesTo_S4096x16_S4096_d1 h_S_)

/-- The shifted exponentials. -/
def tE (lg : FVec F S4096x16 .f32) : FVec F S4096x16 .f32 :=
  Host.exp (subf lg
    (broadcastInDim S4096x16 ![0, 1] bcast_S4096x1_S4096x16_0_1 (broadcastInDim S4096x1 ![0] bcast_S4096_S4096x1_0 (tMx lg))))

/-- The softmax of the logits, row by row. -/
def tSoftmax (lg : FVec F S4096x16 .f32) : FVec F S4096x16 .f32 :=
  Host.divf (tE lg)
    (broadcastInDim S4096x16 ![0, 1] bcast_S4096x1_S4096x16_0_1
      (broadcastInDim S4096x1 ![0] bcast_S4096_S4096x1_0
        (Host.reduceAdd (tE lg) (constant S_ .f32 0x00000000#32) reducesTo_S4096x16_S4096_d1 h_S_)))

/-- The class probabilities: the second result. -/
def tY (x : FVec F S4096x512 .f32) (adj : FVec F S4096x4096 .f32) (S : FVec F S4096x32 .f32) (W0 : FVec F S512x512 .f32)
    (b0 : FVec F S512 .f32) (W1 : FVec F S512x256 .f32) (b1 : FVec F S256 .f32) (Wc : FVec F S288x16 .f32)
    (bc : FVec F S16 .f32) : FVec F S4096x16 .f32 :=
  tSoftmax (tLg (tH x adj W0 b0 W1 b1) S Wc bc)

end Cert.ReferenceIdeal.Term
-- ==== Proof.RefRun.lean ====
/-
  The reference program runs: every weakly fair execution of it terminates, its two results hold the pure terms of
  its argument arrays (the operations composed in program order), and its nine arguments are unchanged.
-/
import proofs.«148359_g79121887527625_cont_sun_m_466_4_alg».proof.Proof.Gen.ReferenceIdeal
import proofs.«148359_g79121887527625_cont_sun_m_466_4_alg».proof.Proof.RefTerm
import Idealize.ShloMosaic.Lib.StableHlo.Run
import Idealize.ShloMosaic.Lib.Pipeline.Frame
import Mathlib.Data.List.Basic

noncomputable section

namespace Cert.ReferenceIdeal.Value

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-! ## The program as a line of operations

The program's statements in order, cut in three stretches at the two places where only a handful of buffers carry
over: after the rectifier (its result and the arguments), and before the concatenation (the first result and the
arguments). The outlined rectifier's body is listed where it is called, over the call's own buffers. -/

/-- Layer 0 and its rectifier: the normalised adjacency, the two products, the bias, and the outlined rectifier's
    seven operations over the call's own buffers. -/
abbrev opsA : List (HloOp τ sig (Elt F)) :=
  [ nullary main_v0 (iotaInDim S4096x4096 32 0),
    nullary main_v1 (iotaInDim S4096x4096 32 1),
    nullary main_c (constantI S_ 32 0#32),
    unary main_c main_v2 (broadcastInDim S4096x4096 ![] bcast_S_S4096x4096 : (⟨S_, .i32⟩ : BufTy).Contents (Elt F) → (⟨S4096x4096, .i32⟩ : BufTy).Contents (Elt F)),
    binary main_v0 main_v2 main_v3 (addi : (⟨S4096x4096, .i32⟩ : BufTy).Contents (Elt F) → (⟨S4096x4096, .i32⟩ : BufTy).Contents (Elt F) → (⟨S4096x4096, .i32⟩ : BufTy).Contents (Elt F)),
    binary main_v3 main_v1 main_v4 (cmpi .eq : (⟨S4096x4096, .i32⟩ : BufTy).Contents (Elt F) → (⟨S4096x4096, .i32⟩ : BufTy).Contents (Elt F) → (⟨S4096x4096, .i1⟩ : BufTy).Contents (Elt F)),
    unary main_v4 main_v5 (uitofp .f32 : (⟨S4096x4096, .i1⟩ : BufTy).Contents (Elt F) → (⟨S4096x4096, .f32⟩ : BufTy).Contents (Elt F)),
    binary main_v5 main_arg1 main_v6 (addf : (⟨S4096x4096, .f32⟩ : BufTy).Contents (Elt F) → (⟨S4096x4096, .f32⟩ : BufTy).Contents (Elt F) → (⟨S4096x4096, .f32⟩ : BufTy).Contents (Elt F)),
    nullary main_cst (constant S_ .f32 0x00000000#32),
    binary main_v6 main_cst main_v7 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v7 main_v8 (Host.sqrt : (⟨S4096, .f32⟩ : BufTy).Contents (Elt F) → (⟨S4096, .f32⟩ : BufTy).Contents (Elt F)),
    nullary main_cst_0 (constant S_ .f32 0x3F800000#32),
    unary main_cst_0 main_v9 (broadcastInDim S4096 ![] bcast_S_S4096 : (⟨S_, .f32⟩ : BufTy).Contents (Elt F) → (⟨S4096, .f32⟩ : BufTy).Contents (Elt F)),
    binary main_v9 main_v8 main_v10 (Host.divf : (⟨S4096, .f32⟩ : BufTy).Contents (Elt F) → (⟨S4096, .f32⟩ : BufTy).Contents (Elt F) → (⟨S4096, .f32⟩ : BufTy).Contents (Elt F)),
    unary main_v10 main_v11 (broadcastInDim S4096x1 ![0] bcast_S4096_S4096x1_0 : (⟨S4096, .f32⟩ : BufTy).Contents (Elt F) → (⟨S4096x1, .f32⟩ : BufTy).Contents (Elt F)),
    unary main_v11 main_v12 (broadcastInDim S4096x4096 ![0, 1] bcast_S4096x1_S4096x4096_0_1 : (⟨S4096x1, .f32⟩ : BufTy).Contents (Elt F) → (⟨S4096x4096, .f32⟩ : BufTy).Contents (Elt F)),
    binary main_v6 main_v12 main_v13 (mulf : (⟨S4096x4096, .f32⟩ : BufTy).Contents (Elt F) → (⟨S4096x4096, .f32⟩ : BufTy).Contents (Elt F) → (⟨S4096x4096, .f32⟩ : BufTy).Contents (Elt F)),
    unary main_v10 main_v14 (broadcastInDim S1x4096 ![1] bcast_S4096_S1x4096_1 : (⟨S4096, .f32⟩ : BufTy).Contents (Elt F) → (⟨S1x4096, .f32⟩ : BufTy).Contents (Elt F)),
    unary main_v14 main_v15 (broadcastInDim S4096x4096 ![0, 1] bcast_S1x4096_S4096x4096_0_1 : (⟨S1x4096, .f32⟩ : BufTy).Contents (Elt F) → (⟨S4096x4096, .f32⟩ : BufTy).Contents (Elt F)),
    binary main_v13 main_v15 main_v16 (mulf : (⟨S4096x4096, .f32⟩ : BufTy).Contents (Elt F) → (⟨S4096x4096, .f32⟩ : BufTy).Contents (Elt F) → (⟨S4096x4096, .f32⟩ : BufTy).Contents (Elt F)),
    binary main_arg0 main_arg3 main_v17 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    binary main_v16 main_v17 main_v18 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    unary main_arg4 main_v19 (broadcastInDim S1x512 ![1] bcast_S512_S1x512_1 : (⟨S512, .f32⟩ : BufTy).Contents (Elt F) → (⟨S1x512, .f32⟩ : BufTy).Contents (Elt F)),
    unary main_v19 main_v20 (broadcastInDim S4096x512 ![0, 1] bcast_S1x512_S4096x512_0_1 : (⟨S1x512, .f32⟩ : BufTy).Contents (Elt F) → (⟨S4096x512, .f32⟩ : BufTy).Contents (Elt F)),
    binary main_v18 main_v20 main_v21 (addf : (⟨S4096x512, .f32⟩ : BufTy).Contents (Elt F) → (⟨S4096x512, .f32⟩ : BufTy).Contents (Elt F) → (⟨S4096x512, .f32⟩ : BufTy).Contents (Elt F)),
    nullary main_cst_1 (constant S_ .f32 0x3C23D70A#32),
    TRef.nullary main_call0.cst (constant S_ .f32 0x00000000#32),
    TRef.unary main_call0.cst main_call0.v0 (broadcastInDim S4096x512 ![] bcast_S_S4096x512),
    TRef.binary (.of main_v21) main_call0.v0 main_call0.v1 (cmpf .oge),
    TRef.unary (.of main_cst_1) main_call0.v2 id,
    TRef.unary main_call0.v2 main_call0.v3 (broadcastInDim S4096x512 ![] bcast_S_S4096x512),
    TRef.binary main_call0.v3 (.of main_v21) main_call0.v4 mulf,
    TRef.ternary main_call0.v1 (.of main_v21) main_call0.v4 main_call0.call0.v0 select ]

/-- Layer 1: the normalised adjacency computed again into fresh buffers, the two products, the bias. -/
abbrev opsB : List (HloOp τ sig (Elt F)) :=
  [ nullary main_v23 (iotaInDim S4096x4096 32 0),
    nullary main_v24 (iotaInDim S4096x4096 32 1),
    nullary main_c_2 (constantI S_ 32 0#32),
    unary main_c_2 main_v25 (broadcastInDim S4096x4096 ![] bcast_S_S4096x4096 : (⟨S_, .i32⟩ : BufTy).Contents (Elt F) → (⟨S4096x4096, .i32⟩ : BufTy).Contents (Elt F)),
    binary main_v23 main_v25 main_v26 (addi : (⟨S4096x4096, .i32⟩ : BufTy).Contents (Elt F) → (⟨S4096x4096, .i32⟩ : BufTy).Contents (Elt F) → (⟨S4096x4096, .i32⟩ : BufTy).Contents (Elt F)),
    binary main_v26 main_v24 main_v27 (cmpi .eq : (⟨S4096x4096, .i32⟩ : BufTy).Contents (Elt F) → (⟨S4096x4096, .i32⟩ : BufTy).Contents (Elt F) → (⟨S4096x4096, .i1⟩ : BufTy).Contents (Elt F)),
    unary main_v27 main_v28 (uitofp .f32 : (⟨S4096x4096, .i1⟩ : BufTy).Contents (Elt F) → (⟨S4096x4096, .f32⟩ : BufTy).Contents (Elt F)),
    binary main_v28 main_arg1 main_v29 (addf : (⟨S4096x4096, .f32⟩ : BufTy).Contents (Elt F) → (⟨S4096x4096, .f32⟩ : BufTy).Contents (Elt F) → (⟨S4096x4096, .f32⟩ : BufTy).Contents (Elt F)),
    nullary main_cst_3 (constant S_ .f32 0x00000000#32),
    binary main_v29 main_cst_3 main_v30 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v30 main_v31 (Host.sqrt : (⟨S4096, .f32⟩ : BufTy).Contents (Elt F) → (⟨S4096, .f32⟩ : BufTy).Contents (Elt F)),
    nullary main_cst_4 (constant S_ .f32 0x3F800000#32),
    unary main_cst_4 main_v32 (broadcastInDim S4096 ![] bcast_S_S4096 : (⟨S_, .f32⟩ : BufTy).Contents (Elt F) → (⟨S4096, .f32⟩ : BufTy).Contents (Elt F)),
    binary main_v32 main_v31 main_v33 (Host.divf : (⟨S4096, .f32⟩ : BufTy).Contents (Elt F) → (⟨S4096, .f32⟩ : BufTy).Contents (Elt F) → (⟨S4096, .f32⟩ : BufTy).Contents (Elt F)),
    unary main_v33 main_v34 (broadcastInDim S4096x1 ![0] bcast_S4096_S4096x1_0 : (⟨S4096, .f32⟩ : BufTy).Contents (Elt F) → (⟨S4096x1, .f32⟩ : BufTy).Contents (Elt F)),
    unary main_v34 main_v35 (broadcastInDim S4096x4096 ![0, 1] bcast_S4096x1_S4096x4096_0_1 : (⟨S4096x1, .f32⟩ : BufTy).Contents (Elt F) → (⟨S4096x4096, .f32⟩ : BufTy).Contents (Elt F)),
    binary main_v29 main_v35 main_v36 (mulf : (⟨S4096x4096, .f32⟩ : BufTy).Contents (Elt F) → (⟨S4096x4096, .f32⟩ : BufTy).Contents (Elt F) → (⟨S4096x4096, .f32⟩ : BufTy).Contents (Elt F)),
    unary main_v33 main_v37 (broadcastInDim S1x4096 ![1] bcast_S4096_S1x4096_1 : (⟨S4096, .f32⟩ : BufTy).Contents (Elt F) → (⟨S1x4096, .f32⟩ : BufTy).Contents (Elt F)),
    unary main_v37 main_v38 (broadcastInDim S4096x4096 ![0, 1] bcast_S1x4096_S4096x4096_0_1 : (⟨S1x4096, .f32⟩ : BufTy).Contents (Elt F) → (⟨S4096x4096, .f32⟩ : BufTy).Contents (Elt F)),
    binary main_v36 main_v38 main_v39 (mulf : (⟨S4096x4096, .f32⟩ : BufTy).Contents (Elt F) → (⟨S4096x4096, .f32⟩ : BufTy).Contents (Elt F) → (⟨S4096x4096, .f32⟩ : BufTy).Contents (Elt F)),
    binary main_v22 main_arg5 main_v40 ((fun l r => Host.dotGeneral dot_S4096x512_S512x256_S4096x256_1_0_0_1_n_n none l r) : (⟨S4096x512, .f32⟩ : BufTy).Contents (Elt F) → (⟨S512x256, .f32⟩ : BufTy).Contents (Elt F) → (⟨S4096x256, .f32⟩ : BufTy).Contents (Elt F)),
    binary main_v39 main_v40 main_v41 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)),
    unary main_arg6 main_v42 (broadcastInDim S1x256 ![1] bcast_S256_S1x256_1 : (⟨S256, .f32⟩ : BufTy).Contents (Elt F) → (⟨S1x256, .f32⟩ : BufTy).Contents (Elt F)),
    unary main_v42 main_v43 (broadcastInDim S4096x256 ![0, 1] bcast_S1x256_S4096x256_0_1 : (⟨S1x256, .f32⟩ : BufTy).Contents (Elt F) → (⟨S4096x256, .f32⟩ : BufTy).Contents (Elt F)),
    binary main_v41 main_v43 main_v44 (addf : (⟨S4096x256, .f32⟩ : BufTy).Contents (Elt F) → (⟨S4096x256, .f32⟩ : BufTy).Contents (Elt F) → (⟨S4096x256, .f32⟩ : BufTy).Contents (Elt F)) ]

/-- The classifier over the concatenation, and the row softmax. -/
abbrev opsC : List (HloOp τ sig (Elt F)) :=
  [ binary main_v44 main_arg2 main_v45 ((fun a b => concatenate S4096x288 1 [⟨S4096x256, a⟩, ⟨S4096x32, b⟩] concatenates_S4096x256_S4096x32_S4096x288_d1) : (⟨S4096x256, .f32⟩ : BufTy).Contents (Elt F) → (⟨S4096x32, .f32⟩ : BufTy).Contents (Elt F) → (⟨S4096x288, .f32⟩ : BufTy).Contents (Elt F)),
    binary main_v45 main_arg7 main_v46 ((fun l r => Host.dotGeneral dot_S4096x288_S288x16_S4096x16_1_0_0_1_n_n none l r) : (⟨S4096x288, .f32⟩ : BufTy).Contents (Elt F) → (⟨S288x16, .f32⟩ : BufTy).Contents (Elt F) → (⟨S4096x16, .f32⟩ : BufTy).Contents (Elt F)),
    unary main_arg8 main_v47 (broadcastInDim S1x16 ![1] bcast_S16_S1x16_1 : (⟨S16, .f32⟩ : BufTy).Contents (Elt F) → (⟨S1x16, .f32⟩ : BufTy).Contents (Elt F)),
    unary main_v47 main_v48 (broadcastInDim S4096x16 ![0, 1] bcast_S1x16_S4096x16_0_1 : (⟨S1x16, .f32⟩ : BufTy).Contents (Elt F) → (⟨S4096x16, .f32⟩ : BufTy).Contents (Elt F)),
    binary main_v46 main_v48 main_v49 (addf : (⟨S4096x16, .f32⟩ : BufTy).Contents (Elt F) → (⟨S4096x16, .f32⟩ : BufTy).Contents (Elt F) → (⟨S4096x16, .f32⟩ : BufTy).Contents (Elt F)),
    nullary main_cst_5 (constant S_ .f32 0xFF800000#32),
    binary main_v49 main_cst_5 main_v50 ((fun x v => Host.reduce FloatOps.maximumf x v reducesTo_S4096x16_S4096_d1 h_S_) : (⟨S4096x16, .f32⟩ : BufTy).Contents (Elt F) → (⟨S_, .f32⟩ : BufTy).Contents (Elt F) → (⟨S4096, .f32⟩ : BufTy).Contents (Elt F)),
    nullary main_cst_6 (constant S_ .f32 0xFF800000#32),
    unary main_cst_6 main_v51 (broadcastInDim S4096 ![] bcast_S_S4096 : (⟨S_, .f32⟩ : BufTy).Contents (Elt F) → (⟨S4096, .f32⟩ : BufTy).Contents (Elt F)),
    binary main_v51 main_v50 main_v52 (maximumf : (⟨S4096, .f32⟩ : BufTy).Contents (Elt F) → (⟨S4096, .f32⟩ : BufTy).Contents (Elt F) → (⟨S4096, .f32⟩ : BufTy).Contents (Elt F)),
    unary main_v52 main_v53 (broadcastInDim S4096x1 ![0] bcast_S4096_S4096x1_0 : (⟨S4096, .f32⟩ : BufTy).Contents (Elt F) → (⟨S4096x1, .f32⟩ : BufTy).Contents (Elt F)),
    unary main_v53 main_v54 (broadcastInDim S4096x16 ![0, 1] bcast_S4096x1_S4096x16_0_1 : (⟨S4096x1, .f32⟩ : BufTy).Contents (Elt F) → (⟨S4096x16, .f32⟩ : BufTy).Contents (Elt F)),
    binary main_v49 main_v54 main_v55 (subf : (⟨S4096x16, .f32⟩ : BufTy).Contents (Elt F) → (⟨S4096x16, .f32⟩ : BufTy).Contents (Elt F) → (⟨S4096x16, .f32⟩ : BufTy).Contents (Elt F)),
    unary main_v55 main_v56 (Host.exp : (⟨S4096x16, .f32⟩ : BufTy).Contents (Elt F) → (⟨S4096x16, .f32⟩ : BufTy).Contents (Elt F)),
    nullary main_cst_7 (constant S_ .f32 0x00000000#32),
    binary main_v56 main_cst_7 main_v57 ((fun x v => Host.reduceAdd x v reducesTo_S4096x16_S4096_d1 h_S_) : (⟨S4096x16, .f32⟩ : BufTy).Contents (Elt F) → (⟨S_, .f32⟩ : BufTy).Contents (Elt F) → (⟨S4096, .f32⟩ : BufTy).Contents (Elt F)),
    unary main_v57 main_v58 (broadcastInDim S4096x1 ![0] bcast_S4096_S4096x1_0 : (⟨S4096, .f32⟩ : BufTy).Contents (Elt F) → (⟨S4096x1, .f32⟩ : BufTy).Contents (Elt F)),
    unary main_v58 main_v59 (broadcastInDim S4096x16 ![0, 1] bcast_S4096x1_S4096x16_0_1 : (⟨S4096x1, .f32⟩ : BufTy).Contents (Elt F) → (⟨S4096x16, .f32⟩ : BufTy).Contents (Elt F)),
    binary main_v56 main_v59 main_v60 (Host.divf : (⟨S4096x16, .f32⟩ : BufTy).Contents (Elt F) → (⟨S4096x16, .f32⟩ : BufTy).Contents (Elt F) → (⟨S4096x16, .f32⟩ : BufTy).Contents (Elt F)) ]

set_option maxHeartbeats 4000000 in
set_option maxRecDepth 4096 in
/-- The program is that line: the two windows and the two outlined bodies unfolded, sequencing reassociated. -/
theorem main_eq (c : Dev nD) : main (F := F) c = seq (opsA ++ opsB ++ opsC) := by
  simp only [main, main_part0, main_part1, fn_leaky_relu.body, fn_where.body, seq, List.cons_append, List.nil_append,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., nullary_bufs_sub .., nullary_bufs_sub .., unary_bufs_sub .., binary_bufs_sub .., binary_bufs_sub ..,
    unary_bufs_sub .., binary_bufs_sub .., nullary_bufs_sub .., binary_bufs_sub .., unary_bufs_sub .., nullary_bufs_sub ..,
    unary_bufs_sub .., binary_bufs_sub .., unary_bufs_sub .., unary_bufs_sub .., binary_bufs_sub .., unary_bufs_sub ..,
    unary_bufs_sub .., binary_bufs_sub .., binary_bufs_sub .., binary_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub ..⟩

theorem opsB_sub : (opsB : List (HloOp τ sig (Elt F))).Forall fun op => op.bufs ⊆ tcRefs τ sig :=
  ⟨nullary_bufs_sub .., nullary_bufs_sub .., nullary_bufs_sub .., unary_bufs_sub .., binary_bufs_sub .., binary_bufs_sub ..,
    unary_bufs_sub .., binary_bufs_sub .., nullary_bufs_sub .., binary_bufs_sub .., unary_bufs_sub .., nullary_bufs_sub ..,
    unary_bufs_sub .., binary_bufs_sub .., unary_bufs_sub .., unary_bufs_sub .., binary_bufs_sub .., unary_bufs_sub ..,
    unary_bufs_sub .., binary_bufs_sub .., binary_bufs_sub .., binary_bufs_sub .., unary_bufs_sub .., unary_bufs_sub ..,
    binary_bufs_sub ..⟩

theorem opsC_sub : (opsC : List (HloOp τ sig (Elt F))).Forall fun op => op.bufs ⊆ tcRefs τ sig :=
  ⟨binary_bufs_sub .., binary_bufs_sub .., unary_bufs_sub .., unary_bufs_sub .., binary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub ..⟩

theorem ops_sub : (opsA ++ opsB ++ opsC : List (HloOp τ sig (Elt F))).Forall fun op => op.bufs ⊆ tcRefs τ sig :=
  List.forall_append.mpr ⟨List.forall_append.mpr ⟨opsA_sub, opsB_sub⟩, opsC_sub⟩

theorem opsA_fresh : ∀ op ∈ (opsA : List (HloOp τ sig (Elt F))), op.fresh = ∅ := by
  intro _ h; (repeat (cases h with | head => rfl | tail _ h => ?_)); exact nomatch h
theorem opsB_fresh : ∀ op ∈ (opsB : List (HloOp τ sig (Elt F))), op.fresh = ∅ := by
  intro _ h; (repeat (cases h with | head => rfl | tail _ h => ?_)); exact nomatch h
theorem opsC_fresh : ∀ op ∈ (opsC : List (HloOp τ sig (Elt F))), op.fresh = ∅ := by
  intro _ h; (repeat (cases h with | head => rfl | tail _ h => ?_)); exact nomatch h

theorem ops_fresh : ∀ op ∈ (opsA ++ opsB ++ opsC : List (HloOp τ sig (Elt F))), op.fresh = ∅ := fun op h =>
  (List.mem_append.mp h).elim (fun h => (List.mem_append.mp h).elim (opsA_fresh op) (opsB_fresh op)) (opsC_fresh op)

/-! ## What each stretch leaves, from any contents -/

set_option maxHeartbeats 4000000 in
set_option maxRecDepth 4096 in
/-- After the first stretch the rectifier's result buffer holds the rectified layer 0 of the arguments. -/
theorem afterA_v22 (V : Valuation τ sig (Elt F)) :
    after opsA V (Proc.devRef .tc main_v22)
      = Term.tLeaky (Term.tZ0 (V (Proc.devRef .tc main_arg0)) (V (Proc.devRef .tc main_arg1)) (V (Proc.devRef .tc main_arg3)) (V (Proc.devRef .tc main_arg4))) := by
  after_results_simp
  rfl
theorem afterA_arg0 (V : Valuation τ sig (Elt F)) :
    after opsA V (Proc.devRef .tc main_arg0) = V (Proc.devRef .tc main_arg0) := by after_results_simp
theorem afterA_arg1 (V : Valuation τ sig (Elt F)) :
    after opsA V (Proc.devRef .tc main_arg1) = V (Proc.devRef .tc main_arg1) := by after_results_simp
theorem afterA_arg2 (V : Valuation τ sig (Elt F)) :
    after opsA V (Proc.devRef .tc main_arg2) = V (Proc.devRef .tc main_arg2) := by after_results_simp
theorem afterA_arg3 (V : Valuation τ sig (Elt F)) :
    after opsA V (Proc.devRef .tc main_arg3) = V (Proc.devRef .tc main_arg3) := by after_results_simp
theorem afterA_arg4 (V : Valuation τ sig (Elt F)) :
    after opsA V (Proc.devRef .tc main_arg4) = V (Proc.devRef .tc main_arg4) := by after_results_simp
theorem afterA_arg5 (V : Valuation τ sig (Elt F)) :
    after opsA V (Proc.devRef .tc main_arg5) = V (Proc.devRef .tc main_arg5) := by after_results_simp
theorem afterA_arg6 (V : Valuation τ sig (Elt F)) :
    after opsA V (Proc.devRef .tc main_arg6) = V (Proc.devRef .tc main_arg6) := by after_results_simp
theorem afterA_arg7 (V : Valuation τ sig (Elt F)) :
    after opsA V (Proc.devRef .tc main_arg7) = V (Proc.devRef .tc main_arg7) := by after_results_simp
theorem afterA_arg8 (V : Valuation τ sig (Elt F)) :
    after opsA V (Proc.devRef .tc main_arg8) = V (Proc.devRef .tc main_arg8) := by after_results_simp

set_option maxHeartbeats 4000000 in
set_option maxRecDepth 4096 in
/-- After the second stretch the first result's buffer holds layer 1 of what the rectifier left and the arguments. -/
theorem afterB_v44 (V : Valuation τ sig (Elt F)) :
    after opsB V (Proc.devRef .tc main_v44)
      = addf
          (Host.dotGeneral dot_S4096x4096_S4096x256_S4096x256_1_0_0_1_n_n none (Term.tAn (V (Proc.devRef .tc main_arg1)))
            (Host.dotGeneral dot_S4096x512_S512x256_S4096x256_1_0_0_1_n_n none (V (Proc.devRef .tc main_v22)) (V (Proc.devRef .tc main_arg5))))
          (broadcastInDim S4096x256 ![0, 1] bcast_S1x256_S4096x256_0_1
            (broadcastInDim S1x256 ![1] bcast_S256_S1x256_1 (V (Proc.devRef .tc main_arg6)))) := by
  after_results_simp
  rfl
theorem afterB_arg0 (V : Valuation τ sig (Elt F)) :
    after opsB V (Proc.devRef .tc main_arg0) = V (Proc.devRef .tc main_arg0) := by after_results_simp
theorem afterB_arg1 (V : Valuation τ sig (Elt F)) :
    after opsB V (Proc.devRef .tc main_arg1) = V (Proc.devRef .tc main_arg1) := by after_results_simp
theorem afterB_arg2 (V : Valuation τ sig (Elt F)) :
    after opsB V (Proc.devRef .tc main_arg2) = V (Proc.devRef .tc main_arg2) := by after_results_simp
theorem afterB_arg3 (V : Valuation τ sig (Elt F)) :
    after opsB V (Proc.devRef .tc main_arg3) = V (Proc.devRef .tc main_arg3) := by after_results_simp
theorem afterB_arg4 (V : Valuation τ sig (Elt F)) :
    after opsB V (Proc.devRef .tc main_arg4) = V (Proc.devRef .tc main_arg4) := by after_results_simp
theorem afterB_arg5 (V : Valuation τ sig (Elt F)) :
    after opsB V (Proc.devRef .tc main_arg5) = V (Proc.devRef .tc main_arg5) := by after_results_simp
theorem afterB_arg6 (V : Valuation τ sig (Elt F)) :
    after opsB V (Proc.devRef .tc main_arg6) = V (Proc.devRef .tc main_arg6) := by after_results_simp
theorem afterB_arg7 (V : Valuation τ sig (Elt F)) :
    after opsB V (Proc.devRef .tc main_arg7) = V (Proc.devRef .tc main_arg7) := by after_results_simp
theorem afterB_arg8 (V : Valuation τ sig (Elt F)) :
    after opsB V (Proc.devRef .tc main_arg8) = V (Proc.devRef .tc main_arg8) := by after_results_simp

set_option maxHeartbeats 4000000 in
set_option maxRecDepth 4096 in
/-- After the third stretch the second result's buffer holds the softmax of the classifier's logits. -/
theorem afterC_v60 (V : Valuation τ sig (Elt F)) :
    after opsC V (Proc.devRef .tc main_v60)
      = Term.tSoftmax (Term.tLg (V (Proc.devRef .tc main_v44)) (V (Proc.devRef .tc main_arg2)) (V (Proc.devRef .tc main_arg7)) (V (Proc.devRef .tc main_arg8))) := by
  after_results_simp
  rfl
theorem afterC_v44 (V : Valuation τ sig (Elt F)) :
    after opsC V (Proc.devRef .tc main_v44) = V (Proc.devRef .tc main_v44) := by after_results_simp
theorem afterC_arg0 (V : Valuation τ sig (Elt F)) :
    after opsC V (Proc.devRef .tc main_arg0) = V (Proc.devRef .tc main_arg0) := by after_results_simp
theorem afterC_arg1 (V : Valuation τ sig (Elt F)) :
    after opsC V (Proc.devRef .tc main_arg1) = V (Proc.devRef .tc main_arg1) := by after_results_simp
theorem afterC_arg2 (V : Valuation τ sig (Elt F)) :
    after opsC V (Proc.devRef .tc main_arg2) = V (Proc.devRef .tc main_arg2) := by after_results_simp
theorem afterC_arg3 (V : Valuation τ sig (Elt F)) :
    after opsC V (Proc.devRef .tc main_arg3) = V (Proc.devRef .tc main_arg3) := by after_results_simp
theorem afterC_arg4 (V : Valuation τ sig (Elt F)) :
    after opsC V (Proc.devRef .tc main_arg4) = V (Proc.devRef .tc main_arg4) := by after_results_simp
theorem afterC_arg5 (V : Valuation τ sig (Elt F)) :
    after opsC V (Proc.devRef .tc main_arg5) = V (Proc.devRef .tc main_arg5) := by after_results_simp
theorem afterC_arg6 (V : Valuation τ sig (Elt F)) :
    after opsC V (Proc.devRef .tc main_arg6) = V (Proc.devRef .tc main_arg6) := by after_results_simp
theorem afterC_arg7 (V : Valuation τ sig (Elt F)) :
    after opsC V (Proc.devRef .tc main_arg7) = V (Proc.devRef .tc main_arg7) := by after_results_simp
theorem afterC_arg8 (V : Valuation τ sig (Elt F)) :
    after opsC V (Proc.devRef .tc main_arg8) = V (Proc.devRef .tc main_arg8) := by after_results_simp

/-! ## The whole line -/

theorem after_all (V : Valuation τ sig (Elt F)) :
    after (opsA ++ opsB ++ opsC) V = after opsC (after opsB (after opsA V)) := by
  rw [StableHlo.after_append, StableHlo.after_append]

/-- The first result: layer 1 of the arguments. -/
theorem res_v44 (V : Valuation τ sig (Elt F)) :
    after (opsA ++ opsB ++ opsC) V (Proc.devRef .tc main_v44)
      = Term.tH (V (Proc.devRef .tc main_arg0)) (V (Proc.devRef .tc main_arg1)) (V (Proc.devRef .tc main_arg3)) (V (Proc.devRef .tc main_arg4)) (V (Proc.devRef .tc main_arg5)) (V (Proc.devRef .tc main_arg6)) := by
  rw [after_all, afterC_v44, afterB_v44, afterA_v22, afterA_arg1, afterA_arg5, afterA_arg6]
  rfl

/-- The second result: the class probabilities of the arguments. -/
theorem res_v60 (V : Valuation τ sig (Elt F)) :
    after (opsA ++ opsB ++ opsC) V (Proc.devRef .tc main_v60)
      = Term.tY (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  have h44 := res_v44 V
  rw [after_all, afterC_v44] at h44
  rw [after_all, afterC_v60, h44, afterB_arg2, afterB_arg7, afterB_arg8, afterA_arg2, afterA_arg7, afterA_arg8]
  rfl

theorem res_arg0 (V : Valuation τ sig (Elt F)) :
    after (opsA ++ opsB ++ opsC) V (Proc.devRef .tc main_arg0) = V (Proc.devRef .tc main_arg0) := by
  rw [after_all, afterC_arg0, afterB_arg0, afterA_arg0]
theorem res_arg1 (V : Valuation τ sig (Elt F)) :
    after (opsA ++ opsB ++ opsC) V (Proc.devRef .tc main_arg1) = V (Proc.devRef .tc main_arg1) := by
  rw [after_all, afterC_arg1, afterB_arg1, afterA_arg1]
theorem res_arg2 (V : Valuation τ sig (Elt F)) :
    after (opsA ++ opsB ++ opsC) V (Proc.devRef .tc main_arg2) = V (Proc.devRef .tc main_arg2) := by
  rw [after_all, afterC_arg2, afterB_arg2, afterA_arg2]
theorem res_arg3 (V : Valuation τ sig (Elt F)) :
    after (opsA ++ opsB ++ opsC) V (Proc.devRef .tc main_arg3) = V (Proc.devRef .tc main_arg3) := by
  rw [after_all, afterC_arg3, afterB_arg3, afterA_arg3]
theorem res_arg4 (V : Valuation τ sig (Elt F)) :
    after (opsA ++ opsB ++ opsC) V (Proc.devRef .tc main_arg4) = V (Proc.devRef .tc main_arg4) := by
  rw [after_all, afterC_arg4, afterB_arg4, afterA_arg4]
theorem res_arg5 (V : Valuation τ sig (Elt F)) :
    after (opsA ++ opsB ++ opsC) V (Proc.devRef .tc main_arg5) = V (Proc.devRef .tc main_arg5) := by
  rw [after_all, afterC_arg5, afterB_arg5, afterA_arg5]
theorem res_arg6 (V : Valuation τ sig (Elt F)) :
    after (opsA ++ opsB ++ opsC) V (Proc.devRef .tc main_arg6) = V (Proc.devRef .tc main_arg6) := by
  rw [after_all, afterC_arg6, afterB_arg6, afterA_arg6]
theorem res_arg7 (V : Valuation τ sig (Elt F)) :
    after (opsA ++ opsB ++ opsC) V (Proc.devRef .tc main_arg7) = V (Proc.devRef .tc main_arg7) := by
  rw [after_all, afterC_arg7, afterB_arg7, afterA_arg7]
theorem res_arg8 (V : Valuation τ sig (Elt F)) :
    after (opsA ++ opsB ++ opsC) V (Proc.devRef .tc main_arg8) = V (Proc.devRef .tc main_arg8) := by
  rw [after_all, afterC_arg8, afterB_arg8, afterA_arg8]

/-- On every device, for any float values, from any memory with zero counters: every weakly fair execution of the
    reference terminates with its two results at the pure terms of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      (r.2.mem ((c.tc : Thread nD τ).loc main_v44)
          = Term.tH (m ((c.tc : Thread nD τ).loc main_arg0)) (m ((c.tc : Thread nD τ).loc main_arg1)) (m ((c.tc : Thread nD τ).loc main_arg3)) (m ((c.tc : Thread nD τ).loc main_arg4))
              (m ((c.tc : Thread nD τ).loc main_arg5)) (m ((c.tc : Thread nD τ).loc main_arg6))
        ∧ r.2.mem ((c.tc : Thread nD τ).loc main_v60)
          = Term.tY (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8)))
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8))) :=
  (θ_run defs _ _).mono (fun _ h c =>
      ⟨⟨(h c main_v44).trans (res_v44 _), (h c main_v60).trans (res_v60 _)⟩,
        (h c main_arg0).trans (res_arg0 _),
        (h c main_arg1).trans (res_arg1 _),
        (h c main_arg2).trans (res_arg2 _),
        (h c main_arg3).trans (res_arg3 _),
        (h c main_arg4).trans (res_arg4 _),
        (h c main_arg5).trans (res_arg5 _),
        (h c main_arg6).trans (res_arg6 _),
        (h c main_arg7).trans (res_arg7 _),
        (h c main_arg8).trans (res_arg8 _)⟩)
    (run_seq scopedRefs_eq scopedSems_eq defs main (fun _ => opsA ++ opsB ++ opsC) main_eq (fun _ => ops_sub) m ρ
      (fun _ => ops_fresh))

end Cert.ReferenceIdeal.Value

end
-- ==== Proof.LibEye.lean ====
/-
  The identity matrix as both the reference and the precondition build it: entry (i, k) compares "row index + 0" with
  "column index" as 32-bit words and converts the one-bit answer to a float. Row and column indices are below 4096, so
  their words are equal exactly when the indices are, and the entry is 1 on the diagonal and 0 off it.
-/
import Idealize.ShloMosaic.PureOps.Ideal
import Idealize.ShloMosaic.Lib.ValueIdx
import proofs.«148359_g79121887527625_cont_sun_m_466_4_alg».proof.Proof.Spec

noncomputable section

namespace Cert.LibEye

open Idealize.ShloMosaic Idealize.ShloMosaic.ValueIdx

/-- The printed identity matrix of extent 4096, read at (i, k) at the ideal values, is 1 when i = k and 0 otherwise. -/
theorem eye_apply (h : (⟨0, ![]⟩ : Shape).BroadcastsInDim ⟨2, ![4096, 4096]⟩ (![] : Fin 0 → Fin 2)) (i k : Fin 4096) :
    (uitofp (F := Ideal) .f32 (cmpi .eq
        (addi (iotaInDim ⟨2, ![4096, 4096]⟩ 32 0) (broadcastInDim ⟨2, ![4096, 4096]⟩ ![] h (constantI ⟨0, ![]⟩ 32 0#32)))
        (iotaInDim ⟨2, ![4096, 4096]⟩ 32 1)) : FVec Ideal ⟨2, ![4096, 4096]⟩ .f32) (ix2 i k)
      = Cert.Gcn.delta i k := by
  -- Every operation is pointwise; at (i, k) the entry is the one-bit answer of "word of i, plus the zero word, equals
  -- word of k", read as an unsigned integer.
  show (((IntOp.cmpi .eq (IntOp.addi (BitVec.ofNat 32 i.val) 0#32) (BitVec.ofNat 32 k.val)).toNat : ℝ) : EReal)
    = Cert.Gcn.delta i k
  have hi : i.val < 4096 := i.isLt
  have hk : k.val < 4096 := k.isLt
  -- Below 2 ^ 32 a number is recovered from its word, so the words agree exactly when the indices do.
  have hword : (IntOp.addi (BitVec.ofNat 32 i.val) 0#32 = BitVec.ofNat 32 k.val) ↔ i = k := by
    constructor
    · intro e
      have e' := congrArg BitVec.toNat e
      simp only [IntOp.addi, BitVec.add_zero, BitVec.toNat_ofNat] at e'
      apply Fin.ext
      rw [Nat.mod_eq_of_lt (by omega), Nat.mod_eq_of_lt (by omega)] at e'
      exact e'
    · intro e
      subst e
      simp only [IntOp.addi, BitVec.add_zero]
  unfold Cert.Gcn.delta
  by_cases e : i = k
  · have hc : IntOp.cmpi .eq (IntOp.addi (BitVec.ofNat 32 i.val) 0#32) (BitVec.ofNat 32 k.val) = 1#1 := by
      simp only [IntOp.cmpi, hword.mpr e, beq_self_eq_true, BitVec.ofBool_true]
      rfl
    rw [hc, if_pos e]
    simp
  · have hc : IntOp.cmpi .eq (IntOp.addi (BitVec.ofNat 32 i.val) 0#32) (BitVec.ofNat 32 k.val) = 0#1 := by
      have hne : ¬ (IntOp.addi (BitVec.ofNat 32 i.val) 0#32 = BitVec.ofNat 32 k.val) := fun h => e (hword.mp h)
      simp only [IntOp.cmpi, beq_eq_false_iff_ne.mpr hne, BitVec.ofBool_false]
      rfl
    rw [hc, if_neg e]
    simp

end Cert.LibEye
-- ==== Proof.RefRead.lean ====
/-
  The reference's two result terms read at an index, at the ideal values: they are the functions hR and yR of the
  argument arrays read by coordinates.
-/
import proofs.«148359_g79121887527625_cont_sun_m_466_4_alg».proof.Proof.RefTerm
import proofs.«148359_g79121887527625_cont_sun_m_466_4_alg».proof.Proof.Spec
import proofs.«148359_g79121887527625_cont_sun_m_466_4_alg».proof.Proof.LibEye
import proofs.«148359_g79121887527625_cont_sun_m_466_4_alg».proof.Proof.LibDotPlain
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.TermRead

open Idealize.ShloMosaic Idealize.ShloMosaic.ValueIdx
open Cert.ReferenceIdeal Cert.ReferenceIdeal.Term Cert.Gcn

variable [Cert.ReferenceIdeal.Facts]

open Cert.ReferenceIdeal.Facts₀ Cert.ReferenceIdeal.Facts

/-- I + adj at (i, k): the identity's entry plus the adjacency's. -/
theorem tA_apply (adj : FVec Ideal S4096x4096 .f32) (i k : Fin 4096) :
    tA (F := Ideal) adj (ix2 i k) = AR (cur adj) i k := by
  unfold tA
  refine (addf_apply _ _ _).trans ?_
  exact congrArg (· + adj (ix2 i k)) (Cert.LibEye.eye_apply _ i k)

/-- Row i of a 4096 × 4096 array with the column k put back is the entry (i, k). -/
theorem lift_row4096 (h : Shape.Reduces S4096x4096 [1] S4096) (i : Fin 4096) (k : Fin 4096) :
    h.lift (ix1 i) k = ix2 i k := by
  funext a
  apply Fin.ext
  match a with
  | ⟨0, _⟩ => rfl
  | ⟨1, _⟩ => rfl

/-- The row sums of I + adj at i: the word of 0.0 plus the sum over the columns of row i. -/
theorem tRs_apply (adj : FVec Ideal S4096x4096 .f32) (i : Fin 4096) :
    tRs (F := Ideal) adj (ix1 i) = rsR (cur adj) i := by
  unfold tRs Host.reduceAdd
  refine (Ideal.hostReduceAdd_single reducesTo_S4096x4096_S4096_d1 (by decide) (tA adj) _ (ix1 i)).trans ?_
  refine congrArg (c0 + ·) (Finset.sum_congr rfl fun k _ => ?_)
  exact (congrArg (tA adj) (lift_row4096 _ i k)).trans (tA_apply adj i k)

/-- 1 / sqrt (row sum) at i: the word of 1.0 read everywhere, divided by the square root of the i-th row sum. -/
theorem tD_apply (adj : FVec Ideal S4096x4096 .f32) (i : Fin 4096) :
    tD (F := Ideal) adj (ix1 i) = dR (cur adj) i := by
  show Ideal.div c1 (Ideal.sqrt (tRs adj (ix1 i))) = _
  exact congrArg (fun r => Ideal.div c1 (Ideal.sqrt r)) (tRs_apply adj i)

/-- A column of 4096 values stretched along the rows of a 4096 × 4096 array reads its row's value. -/
theorem bcastCol4096 (v : FVec Ideal S4096 .f32) (i k : Fin 4096) :
    broadcastInDim S4096x4096 ![0, 1] bcast_S4096x1_S4096x4096_0_1
        (broadcastInDim S4096x1 ![0] bcast_S4096_S4096x1_0 v) (ix2 i k) = v (ix1 i) := by
  refine (broadcastInDim_apply _ _ _ (ix2 i k) (ix2 i 0) ?_).trans ?_
  · intro a
    match a with
    | ⟨0, _⟩ => rfl
    | ⟨1, _⟩ => rfl
  · refine (broadcastInDim_apply _ _ _ (ix2 i 0) (ix1 i) ?_)
    intro a
    match a with
    | ⟨0, _⟩ => rfl

/-- A row of 4096 values stretched down the columns of a 4096 × 4096 array reads its column's value. -/
theorem bcastRow4096 (v : FVec Ideal S4096 .f32) (i k : Fin 4096) :
    broadcastInDim S4096x4096 ![0, 1] bcast_S1x4096_S4096x4096_0_1
        (broadcastInDim S1x4096 ![1] bcast_S4096_S1x4096_1 v) (ix2 i k) = v (ix1 k) := by
  refine (broadcastInDim_apply _ _ _ (ix2 i k) (ix2 0 k) ?_).trans ?_
  · intro a
    match a with
    | ⟨0, _⟩ => rfl
    | ⟨1, _⟩ => rfl
  · refine (broadcastInDim_apply _ _ _ (ix2 0 k) (ix1 k) ?_)
    intro a
    match a with
    | ⟨0, _⟩ => rfl

/-- The normalised adjacency at (i, k): the entry of I + adj scaled by d i, then by d k. -/
theorem tAn_apply (adj : FVec Ideal S4096x4096 .f32) (i k : Fin 4096) :
    tAn (F := Ideal) adj (ix2 i k) = AnR (cur adj) i k := by
  unfold tAn
  refine (mulf_apply _ _ _).trans ?_
  rw [bcastRow4096, tD_apply]
  refine congrArg (· * dR (cur adj) k) ?_
  refine (mulf_apply _ _ _).trans ?_
  rw [bcastCol4096, tD_apply, tA_apply]

/-- The 4096 × 512 by 512 × 512 product at an entry: the first of the reference's five products, each of which reads at
    an entry as the sum of its factors' products. -/
theorem dot_xW0 (A : FVec Ideal S4096x512 .f32) (B : FVec Ideal S512x512 .f32) (i : Fin 4096) (j : Fin 512) :
    Host.dotGeneral dot_S4096x512_S512x512_S4096x512_1_0_0_1_n_n none A B (ix2 i j)
      = ∑ q : Fin 512, A (ix2 i q) * B (ix2 q j) :=
  Cert.LibDotPlain.dotGeneral_plain 4096 512 512 none .single A B i j

/-- The 4096 × 4096 by 4096 × 512 product at an entry. -/
theorem dot_An512 (A : FVec Ideal S4096x4096 .f32) (B : FVec Ideal S4096x512 .f32) (i : Fin 4096) (j : Fin 512) :
    Host.dotGeneral dot_S4096x4096_S4096x512_S4096x512_1_0_0_1_n_n none A B (ix2 i j)
      = ∑ q : Fin 4096, A (ix2 i q) * B (ix2 q j) :=
  Cert.LibDotPlain.dotGeneral_plain 4096 4096 512 none .single A B i j

/-- The 4096 × 512 by 512 × 256 product at an entry. -/
theorem dot_zW1 (A : FVec Ideal S4096x512 .f32) (B : FVec Ideal S512x256 .f32) (i : Fin 4096) (j : Fin 256) :
    Host.dotGeneral dot_S4096x512_S512x256_S4096x256_1_0_0_1_n_n none A B (ix2 i j)
      = ∑ q : Fin 512, A (ix2 i q) * B (ix2 q j) :=
  Cert.LibDotPlain.dotGeneral_plain 4096 512 256 none .single A B i j

/-- The 4096 × 4096 by 4096 × 256 product at an entry. -/
theorem dot_An256 (A : FVec Ideal S4096x4096 .f32) (B : FVec Ideal S4096x256 .f32) (i : Fin 4096) (j : Fin 256) :
    Host.dotGeneral dot_S4096x4096_S4096x256_S4096x256_1_0_0_1_n_n none A B (ix2 i j)
      = ∑ q : Fin 4096, A (ix2 i q) * B (ix2 q j) :=
  Cert.LibDotPlain.dotGeneral_plain 4096 4096 256 none .single A B i j

/-- The 4096 × 288 by 288 × 16 product at an entry. -/
theorem dot_catWc (A : FVec Ideal S4096x288 .f32) (B : FVec Ideal S288x16 .f32) (i : Fin 4096) (j : Fin 16) :
    Host.dotGeneral dot_S4096x288_S288x16_S4096x16_1_0_0_1_n_n none A B (ix2 i j)
      = ∑ q : Fin 288, A (ix2 i q) * B (ix2 q j) :=
  Cert.LibDotPlain.dotGeneral_plain 4096 288 16 none .single A B i j

/-- A bias of 512 values laid as one row and stretched down 4096 rows reads its column's value. -/
theorem bias512 (b : FVec Ideal S512 .f32) (i : Fin 4096) (j : Fin 512) :
    broadcastInDim S4096x512 ![0, 1] bcast_S1x512_S4096x512_0_1
        (broadcastInDim S1x512 ![1] bcast_S512_S1x512_1 b) (ix2 i j) = vec1 b j := by
  refine (broadcastInDim_apply _ _ _ (ix2 i j) (ix2 0 j) ?_).trans ?_
  · intro a
    match a with
    | ⟨0, _⟩ => rfl
    | ⟨1, _⟩ => rfl
  · refine (broadcastInDim_apply _ _ _ (ix2 0 j) (ix1 j) ?_)
    intro a
    match a with
    | ⟨0, _⟩ => rfl

/-- A bias of 256 values laid as one row and stretched down 4096 rows reads its column's value. -/
theorem bias256 (b : FVec Ideal S256 .f32) (i : Fin 4096) (j : Fin 256) :
    broadcastInDim S4096x256 ![0, 1] bcast_S1x256_S4096x256_0_1
        (broadcastInDim S1x256 ![1] bcast_S256_S1x256_1 b) (ix2 i j) = vec1 b j := by
  refine (broadcastInDim_apply _ _ _ (ix2 i j) (ix2 0 j) ?_).trans ?_
  · intro a
    match a with
    | ⟨0, _⟩ => rfl
    | ⟨1, _⟩ => rfl
  · refine (broadcastInDim_apply _ _ _ (ix2 0 j) (ix1 j) ?_)
    intro a
    match a with
    | ⟨0, _⟩ => rfl

/-- A bias of 16 values laid as one row and stretched down 4096 rows reads its column's value. -/
theorem bias16 (b : FVec Ideal S16 .f32) (i : Fin 4096) (j : Fin 16) :
    broadcastInDim S4096x16 ![0, 1] bcast_S1x16_S4096x16_0_1
        (broadcastInDim S1x16 ![1] bcast_S16_S1x16_1 b) (ix2 i j) = vec1 b j := by
  refine (broadcastInDim_apply _ _ _ (ix2 i j) (ix2 0 j) ?_).trans ?_
  · intro a
    match a with
    | ⟨0, _⟩ => rfl
    | ⟨1, _⟩ => rfl
  · refine (broadcastInDim_apply _ _ _ (ix2 0 j) (ix1 j) ?_)
    intro a
    match a with
    | ⟨0, _⟩ => rfl

/-- Layer 0 before its rectifier at (i, j): the normalised adjacency's row i against column j of x · W0, plus b0 j. -/
theorem tZ0_apply (x : FVec Ideal S4096x512 .f32) (adj : FVec Ideal S4096x4096 .f32) (W0 : FVec Ideal S512x512 .f32)
    (b0 : FVec Ideal S512 .f32) (i : Fin 4096) (j : Fin 512) :
    tZ0 (F := Ideal) x adj W0 b0 (ix2 i j) = z0R (cur adj) (cur x) (cur W0) (vec1 b0) i j := by
  unfold tZ0
  refine (addf_apply _ _ _).trans ?_
  rw [bias512, dot_An512]
  refine congrArg (· + vec1 b0 j) (Finset.sum_congr rfl fun k _ => ?_)
  rw [tAn_apply, dot_xW0]

/-- The rectifier at an entry: the comparison with the word of 0.0 chooses between z and slope · z, entry by entry. -/
theorem tLeaky_apply (z : FVec Ideal S4096x512 .f32) (i : Fin 4096) (j : Fin 512) :
    tLeaky (F := Ideal) z (ix2 i j) = leaky (z (ix2 i j)) := rfl

/-- Layer 1 at (i, j): the normalised adjacency's row i against column j of leaky (layer 0) · W1, plus b1 j. -/
theorem tH_apply (x : FVec Ideal S4096x512 .f32) (adj : FVec Ideal S4096x4096 .f32) (W0 : FVec Ideal S512x512 .f32)
    (b0 : FVec Ideal S512 .f32) (W1 : FVec Ideal S512x256 .f32) (b1 : FVec Ideal S256 .f32) (i : Fin 4096) (j : Fin 256) :
    tH (F := Ideal) x adj W0 b0 W1 b1 (ix2 i j)
      = hR (cur adj) (cur x) (cur W0) (vec1 b0) (cur W1) (vec1 b1) i j := by
  unfold tH
  refine (addf_apply _ _ _).trans ?_
  rw [bias256, dot_An256]
  refine congrArg (· + vec1 b1 j) (Finset.sum_congr rfl fun k _ => ?_)
  rw [tAn_apply, dot_zW1]
  refine congrArg (AnR (cur adj) i k * ·) (Finset.sum_congr rfl fun q _ => ?_)
  rw [tLeaky_apply, tZ0_apply]

/-- Layer 1 and the side features joined along the columns: a column below 256 reads layer 1, a later one the side
    features 256 columns back. -/
theorem cat_apply (h : FVec Ideal S4096x256 .f32) (S : FVec Ideal S4096x32 .f32) (i : Fin 4096) (q : Fin 288) :
    concatenate S4096x288 1 [⟨S4096x256, h⟩, ⟨S4096x32, S⟩] concatenates_S4096x256_S4096x32_S4096x288_d1 (ix2 i q)
      = if hq : q.val < 256 then h (ix2 i ⟨q.val, hq⟩) else S (ix2 i ⟨q.val - 256, by omega⟩) := by
  by_cases hq : q.val < 256
  · rw [dif_pos hq]
    refine concatenate_pair_apply_left 1 h S _ (ix2 i q) rfl (ix2 i ⟨q.val, hq⟩) ?_
    intro b
    match b with
    | ⟨0, _⟩ => rfl
    | ⟨1, _⟩ => rfl
  · rw [dif_neg hq]
    refine concatenate_pair_apply_right 1 h S _ (ix2 i q) rfl rfl (ix2 i ⟨q.val - 256, by omega⟩) ?_ ?_
    · intro b hb
      match b with
      | ⟨0, _⟩ => rfl
      | ⟨1, _⟩ => exact absurd rfl hb
    · show q.val - 256 + 256 = q.val
      omega

/-- The logits at (i, j): row i of the joined array against column j of Wc, plus bc j. -/
theorem tLg_apply (h : FVec Ideal S4096x256 .f32) (S : FVec Ideal S4096x32 .f32) (Wc : FVec Ideal S288x16 .f32)
    (bc : FVec Ideal S16 .f32) (i : Fin 4096) (j : Fin 16) :
    tLg (F := Ideal) h S Wc bc (ix2 i j)
      = (∑ q : Fin 288, (if hq : q.val < 256 then h (ix2 i ⟨q.val, hq⟩) else S (ix2 i ⟨q.val - 256, by omega⟩))
          * Wc (ix2 q j)) + vec1 bc j := by
  unfold tLg
  refine (addf_apply _ _ _).trans ?_
  rw [bias16, dot_catWc]
  refine congrArg (· + vec1 bc j) (Finset.sum_congr rfl fun q _ => ?_)
  rw [cat_apply]

/-- Row i of a 4096 × 16 array with the column k put back is the entry (i, k). -/
theorem lift_row16 (h : Shape.Reduces S4096x16 [1] S4096) (i : Fin 4096) (k : Fin 16) :
    h.lift (ix1 i) k = ix2 i k := by
  funext a
  apply Fin.ext
  match a with
  | ⟨0, _⟩ => rfl
  | ⟨1, _⟩ => rfl

/-- The shift of a row of logits: the larger of -∞ and the fold of max from -∞ over the row. -/
theorem tMx_apply (lg : FVec Ideal S4096x16 .f32) (i : Fin 4096) :
    tMx (F := Ideal) lg (ix1 i)
      = max negInf ((Finset.univ : Finset (Fin 16)).fold max negInf fun j => lg (ix2 i j)) := by
  unfold tMx
  refine (maximumf_apply _ _ _).trans ?_
  refine congrArg (max negInf) ?_
  refine (Host.reduce_eq_fold_single FloatOps.maximumf lg _ reducesTo_S4096x16_S4096_d1 (by decide) h_S_ (ix1 i)).trans ?_
  have e : (lg ∘ Shape.Reduces.lift (s := S4096x16) (a := 1) (t := S4096) (by decide) (ix1 i))
      = fun j : Fin 16 => lg (ix2 i j) := funext fun k => congrArg lg (lift_row16 _ i k)
  rw [e]
  rfl

/-- The shifted exponential at (i, j): exp of the logit less its row's shift. -/
theorem tE_apply (lg : FVec Ideal S4096x16 .f32) (i : Fin 4096) (j : Fin 16) :
    tE (F := Ideal) lg (ix2 i j) = Ideal.exp (lg (ix2 i j) - tMx lg (ix1 i)) := by
  unfold tE
  show Ideal.exp (lg (ix2 i j) - _) = _
  refine congrArg (fun m => Ideal.exp (lg (ix2 i j) - m)) ?_
  refine (broadcastInDim_apply _ _ _ (ix2 i j) (ix2 i 0) ?_).trans ?_
  · intro a
    match a with
    | ⟨0, _⟩ => rfl
    | ⟨1, _⟩ => rfl
  · refine (broadcastInDim_apply _ _ _ (ix2 i 0) (ix1 i) ?_)
    intro a
    match a with
    | ⟨0, _⟩ => rfl

/-- A column of 4096 values stretched along the rows of a 4096 × 16 array reads its row's value. -/
theorem bcastCol16 (v : FVec Ideal S4096 .f32) (i : Fin 4096) (j : Fin 16) :
    broadcastInDim S4096x16 ![0, 1] bcast_S4096x1_S4096x16_0_1
        (broadcastInDim S4096x1 ![0] bcast_S4096_S4096x1_0 v) (ix2 i j) = v (ix1 i) := by
  refine (broadcastInDim_apply _ _ _ (ix2 i j) (ix2 i 0) ?_).trans ?_
  · intro a
    match a with
    | ⟨0, _⟩ => rfl
    | ⟨1, _⟩ => rfl
  · refine (broadcastInDim_apply _ _ _ (ix2 i 0) (ix1 i) ?_)
    intro a
    match a with
    | ⟨0, _⟩ => rfl

/-- The row sums of the shifted exponentials, from 0.0. -/
theorem tEsum_apply (lg : FVec Ideal S4096x16 .f32) (i : Fin 4096) :
    Host.reduceAdd (tE (F := Ideal) lg) (constant S_ .f32 0x00000000#32) reducesTo_S4096x16_S4096_d1 h_S_ (ix1 i)
      = c0 + ∑ j' : Fin 16, tE lg (ix2 i j') := by
  unfold Host.reduceAdd
  refine (Ideal.hostReduceAdd_single reducesTo_S4096x16_S4096_d1 (by decide) (tE lg) _ (ix1 i)).trans ?_
  refine congrArg (c0 + ·) (Finset.sum_congr rfl fun k _ => ?_)
  exact congrArg (tE lg) (lift_row16 _ i k)

/-- The softmax at (i, j): the shifted exponential over the word of 0.0 plus the row's sum of shifted exponentials. -/
theorem tSoftmax_apply (lg : FVec Ideal S4096x16 .f32) (i : Fin 4096) (j : Fin 16) :
    tSoftmax (F := Ideal) lg (ix2 i j)
      = Ideal.div (Ideal.exp (lg (ix2 i j) - max negInf ((Finset.univ : Finset (Fin 16)).fold max negInf fun j => lg (ix2 i j))))
          (c0 + ∑ j' : Fin 16,
            Ideal.exp (lg (ix2 i j') - max negInf ((Finset.univ : Finset (Fin 16)).fold max negInf fun j => lg (ix2 i j)))) := by
  unfold tSoftmax
  show Ideal.div (tE lg (ix2 i j)) _ = _
  rw [bcastCol16, tEsum_apply, tE_apply, tMx_apply]
  refine congrArg (fun r => Ideal.div _ (c0 + r)) (Finset.sum_congr rfl fun j' _ => ?_)
  rw [tE_apply, tMx_apply]

/-- The first result term at (i, j) is the reference's layer 1 at (i, j). -/
theorem tH_eq (x : FVec Ideal S4096x512 .f32) (adj : FVec Ideal S4096x4096 .f32) (W0 : FVec Ideal S512x512 .f32)
    (b0 : FVec Ideal S512 .f32) (W1 : FVec Ideal S512x256 .f32) (b1 : FVec Ideal S256 .f32) :
    tH (F := Ideal) x adj W0 b0 W1 b1
      = fun idx : S4096x256.Idx => hR (cur adj) (cur x) (cur W0) (vec1 b0) (cur W1) (vec1 b1) (idx 0) (idx 1) := by
  funext idx
  obtain ⟨i, j, rfl⟩ : ∃ (i : Fin 4096) (j : Fin 256), idx = ix2 i j := ⟨idx 0, idx 1, eq_ix2 idx⟩
  exact tH_apply x adj W0 b0 W1 b1 i j

/-- The logits over the first result term are the reference's logits. -/
theorem tLg_tH_apply (x : FVec Ideal S4096x512 .f32) (adj : FVec Ideal S4096x4096 .f32) (S : FVec Ideal S4096x32 .f32)
    (W0 : FVec Ideal S512x512 .f32) (b0 : FVec Ideal S512 .f32) (W1 : FVec Ideal S512x256 .f32) (b1 : FVec Ideal S256 .f32)
    (Wc : FVec Ideal S288x16 .f32) (bc : FVec Ideal S16 .f32) (i : Fin 4096) (j : Fin 16) :
    tLg (F := Ideal) (tH x adj W0 b0 W1 b1) S Wc bc (ix2 i j)
      = lgR (cur adj) (cur x) (cur S) (cur W0) (vec1 b0) (cur W1) (vec1 b1) (cur Wc) (vec1 bc) i j := by
  rw [tLg_apply]
  unfold lgR
  refine congrArg (· + vec1 bc j) (Finset.sum_congr rfl fun q _ => ?_)
  refine congrArg (· * Wc (ix2 q j)) ?_
  unfold catR
  by_cases hq : q.val < 256
  · rw [dif_pos hq, dif_pos hq, tH_apply]
  · rw [dif_neg hq, dif_neg hq]

/-- The softmax of a logits array whose row i reads as the function L. -/
theorem tSoftmax_row (lg : FVec Ideal S4096x16 .f32) (L : Fin 16 → EReal) (i : Fin 4096)
    (hL : ∀ j : Fin 16, lg (ix2 i j) = L j) (j : Fin 16) :
    tSoftmax (F := Ideal) lg (ix2 i j)
      = Ideal.div (Ideal.exp (L j - max negInf ((Finset.univ : Finset (Fin 16)).fold max negInf L)))
          (c0 + ∑ j' : Fin 16, Ideal.exp (L j' - max negInf ((Finset.univ : Finset (Fin 16)).fold max negInf L))) := by
  have e : (fun j : Fin 16 => lg (ix2 i j)) = L := funext hL
  subst e
  exact tSoftmax_apply lg i j

/-- The second result term at (i, j) by coordinates. -/
theorem tY_apply (x : FVec Ideal S4096x512 .f32) (adj : FVec Ideal S4096x4096 .f32) (S : FVec Ideal S4096x32 .f32)
    (W0 : FVec Ideal S512x512 .f32) (b0 : FVec Ideal S512 .f32) (W1 : FVec Ideal S512x256 .f32) (b1 : FVec Ideal S256 .f32)
    (Wc : FVec Ideal S288x16 .f32) (bc : FVec Ideal S16 .f32) (i : Fin 4096) (j : Fin 16) :
    tY (F := Ideal) x adj S W0 b0 W1 b1 Wc bc (ix2 i j)
      = yR (cur adj) (cur x) (cur S) (cur W0) (vec1 b0) (cur W1) (vec1 b1) (cur Wc) (vec1 bc) i j := by
  unfold tY yR
  exact tSoftmax_row _ _ i (fun j => tLg_tH_apply x adj S W0 b0 W1 b1 Wc bc i j) j

/-- The second result term at (i, j) is the reference's class probability at (i, j). -/
theorem tY_eq (x : FVec Ideal S4096x512 .f32) (adj : FVec Ideal S4096x4096 .f32) (S : FVec Ideal S4096x32 .f32)
    (W0 : FVec Ideal S512x512 .f32) (b0 : FVec Ideal S512 .f32) (W1 : FVec Ideal S512x256 .f32) (b1 : FVec Ideal S256 .f32)
    (Wc : FVec Ideal S288x16 .f32) (bc : FVec Ideal S16 .f32) :
    tY (F := Ideal) x adj S W0 b0 W1 b1 Wc bc
      = fun idx : S4096x16.Idx => yR (cur adj) (cur x) (cur S) (cur W0) (vec1 b0) (cur W1) (vec1 b1) (cur Wc) (vec1 bc)
          (idx 0) (idx 1) := by
  funext idx
  obtain ⟨i, j, rfl⟩ : ∃ (i : Fin 4096) (j : Fin 16), idx = ix2 i j := ⟨idx 0, idx 1, eq_ix2 idx⟩
  exact tY_apply x adj S W0 b0 W1 b1 Wc bc i j

end Cert.ReferenceIdeal.TermRead
-- ==== Proof.Algebra.lean ====
/-
  The kernel's arrangement of the two-layer graph convolution equals the reference's when every input is a real number
  and every row sum of I + a is positive.
-/
import proofs.«148359_g79121887527625_cont_sun_m_466_4_alg».proof.Proof.Spec
import Idealize.ShloMosaic.PureOps.Ideal.Laws
import Mathlib.Algebra.BigOperators.Fin
import Mathlib.Data.Finset.Fold

noncomputable section

open scoped BigOperators

namespace Cert.Gcn

open Idealize.ShloMosaic

/-! ## The three literals -/

/-- The word of 0.0 denotes 0. -/
theorem c0_eq : c0 = 0 := Ideal.ofBits_zero_f32

/-- The word of 1.0 denotes 1: sign +, exponent 127, fraction 0, that is 2 ^ 23 · 2 ^ (-23). -/
theorem c1_eq : c1 = 1 := by
  have h : c1 = ((8388608 : ℝ) : EReal) * (((2 : ℝ) ^ 23)⁻¹ : ℝ) := by simp [c1, Ideal.ofBits, Ideal.ieee]
  rw [h, ← EReal.coe_mul]
  norm_num

/-- The leaky slope's word denotes a real number (which one is never used). -/
theorem slope_real : ∃ s : ℝ, slope = (s : EReal) := by
  have h : slope = ((10737418 : ℝ) : EReal) * (((2 : ℝ) ^ 30)⁻¹ : ℝ) := by simp [slope, Ideal.ofBits, Ideal.ieee]
  exact ⟨_, h.trans (EReal.coe_mul _ _).symm⟩

/-! ## Real numbers among the extended reals -/

theorem isFin_coe (r : ℝ) : IsFin (r : EReal) := ⟨EReal.coe_ne_bot r, EReal.coe_ne_top r⟩

theorem IsFin.eq_coe {z : EReal} (h : IsFin z) : ∃ r : ℝ, z = (r : EReal) :=
  ⟨z.toReal, (EReal.coe_toReal h.2 h.1).symm⟩

theorem IsFin.add {y z : EReal} (hy : IsFin y) (hz : IsFin z) : IsFin (y + z) := by
  obtain ⟨r, rfl⟩ := hy.eq_coe
  obtain ⟨s, rfl⟩ := hz.eq_coe
  rw [← EReal.coe_add]
  exact isFin_coe _

theorem IsFin.mul {y z : EReal} (hy : IsFin y) (hz : IsFin z) : IsFin (y * z) := by
  obtain ⟨r, rfl⟩ := hy.eq_coe
  obtain ⟨s, rfl⟩ := hz.eq_coe
  rw [← EReal.coe_mul]
  exact isFin_coe _

theorem isFin_zero : IsFin (0 : EReal) := isFin_coe 0

theorem isFin_one : IsFin (1 : EReal) := isFin_coe 1

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A finite sum of real numbers is a real number. -/
theorem isFin_sum {ι : Type*} (s : Finset ι) (f : ι → EReal) (h : ∀ i, IsFin (f i)) : IsFin (∑ i ∈ s, f i) := by
  classical
  induction s using Finset.induction_on with
  | empty => rw [Finset.sum_empty]; exact isFin_zero
  | insert i s hi ih => rw [Finset.sum_insert hi]; exact (h i).add ih

/-- A family of real numbers among the extended reals is the image of a real family. -/
theorem exists_real_fun {ι : Type*} (f : ι → EReal) (h : ∀ i, IsFin (f i)) :
    ∃ g : ι → ℝ, f = fun i => (g i : EReal) :=
  ⟨fun i => (f i).toReal, funext fun i => (EReal.coe_toReal (h i).2 (h i).1).symm⟩

theorem exists_real_fun₂ {ι κ : Type*} (f : ι → κ → EReal) (h : ∀ i k, IsFin (f i k)) :
    ∃ g : ι → κ → ℝ, f = fun i k => (g i k : EReal) :=
  ⟨fun i k => (f i k).toReal, funext fun i => funext fun k => (EReal.coe_toReal (h i k).2 (h i k).1).symm⟩

/-! ## The aggregation law -/

/-- Over the reals: the normalised adjacency's row against a column p is the kernel's folded form. The identity's
    entry picks the single term k = i out of the sum, the rest is the distributive law. -/
theorem agg_real {ι : Type*} [Fintype ι] [DecidableEq ι] (a : ι → ι → ℝ) (d p : ι → ℝ) (i : ι) :
    d i * (∑ k, a i k * (d k * p k) + d i * p i)
      = ∑ k, (((if i = k then (1 : ℝ) else 0) + a i k) * d i) * d k * p k := by
  have h : ∀ k, (((if i = k then (1 : ℝ) else 0) + a i k) * d i) * d k * p k
      = (if i = k then d i * (d k * p k) else 0) + d i * (a i k * (d k * p k)) := by
    intro k
    split_ifs <;> ring
  simp only [h, Finset.sum_add_distrib, Finset.sum_ite_eq, Finset.mem_univ, if_true, ← Finset.mul_sum]
  ring

/-- The same over the extended reals, for families of real numbers. -/
theorem agg_law {ι : Type*} [Fintype ι] [DecidableEq ι] (a : ι → ι → EReal) (d p : ι → EReal)
    (ha : ∀ i k, IsFin (a i k)) (hd : ∀ i, IsFin (d i)) (hp : ∀ i, IsFin (p i)) (i : ι) :
    d i * (∑ k, a i k * (d k * p k) + d i * p i)
      = ∑ k, (((if i = k then (1 : EReal) else 0) + a i k) * d i) * d k * p k := by
  obtain ⟨a', rfl⟩ := exists_real_fun₂ a ha
  obtain ⟨d', rfl⟩ := exists_real_fun d hd
  obtain ⟨p', rfl⟩ := exists_real_fun p hp
  have hite : ∀ k, (if i = k then (1 : EReal) else 0) = ((if i = k then (1 : ℝ) else 0 : ℝ) : EReal) := by
    intro k
    split_ifs <;> rfl
  simp only [hite, ← EReal.coe_mul, ← EReal.coe_add, ← coe_sum]
  exact congrArg _ (agg_real a' d' p' i)

/-! ## The degree scaling d -/

/-- At a positive real the reciprocal square root and 1 / sqrt are the same real number. -/
theorem rsqrt_eq_div_sqrt {r : ℝ} (hr : 0 < r) :
    Ideal.rsqrt (r : EReal) = Ideal.div 1 (Ideal.sqrt (r : EReal)) ∧ IsFin (Ideal.rsqrt (r : EReal)) := by
  have hs : Real.sqrt r ≠ 0 := (Real.sqrt_pos.mpr hr).ne'
  have h1 : Ideal.rsqrt (r : EReal) = (((Real.sqrt r)⁻¹ : ℝ) : EReal) := by
    rw [Ideal.rsqrt_coe, if_neg (not_lt.mpr hr.le), if_neg hr.ne']
  have h2 : Ideal.div 1 (Ideal.sqrt (r : EReal)) = (((Real.sqrt r)⁻¹ : ℝ) : EReal) := by
    rw [Ideal.sqrt_coe, if_neg (not_lt.mpr hr.le), Ideal.div_coe hs, one_mul, one_div]
  exact ⟨h1.trans h2.symm, h1 ▸ isFin_coe _⟩

/-- The row sums of I + a, the way the reference spells them, are 1 + Σ k, a i k, the way the kernel does: the
    identity's row sums to 1. No finiteness is needed. -/
theorem rsR_eq (a : Fin 4096 → Fin 4096 → EReal) (i : Fin 4096) : rsR a i = c1 + ∑ k : Fin 4096, a i k := by
  unfold rsR AR delta
  rw [c0_eq, zero_add, Finset.sum_add_distrib, Finset.sum_ite_eq, if_pos (Finset.mem_univ i), c1_eq]

/-- With real entries and a positive row sum, the kernel's d and the reference's d are the same real number. -/
theorem dG_eq_dR (a : Fin 4096 → Fin 4096 → EReal) (ha : ∀ i k, IsFin (a i k)) (hpos : ∀ i, 0 < rsR a i)
    (i : Fin 4096) : dG a i = dR a i ∧ IsFin (dG a i) := by
  have hfin : IsFin (c1 + ∑ k : Fin 4096, a i k) := by
    rw [c1_eq]
    exact isFin_one.add (isFin_sum _ _ (ha i))
  obtain ⟨r, hr⟩ := hfin.eq_coe
  have hp : 0 < r := by
    have := hpos i
    rw [rsR_eq, hr] at this
    exact_mod_cast this
  unfold dG dR
  rw [rsR_eq, hr, c1_eq]
  exact rsqrt_eq_div_sqrt hp

/-! ## The leaky rectifier -/

/-- The rectifier returns its argument or the slope times it. -/
theorem leaky_cases (z : EReal) : leaky z = z ∨ leaky z = slope * z := by
  unfold leaky Scalar.select
  split_ifs
  · exact Or.inl rfl
  · exact Or.inr rfl

/-- So it maps real numbers to real numbers. -/
theorem isFin_leaky {z : EReal} (hz : IsFin z) : IsFin (leaky z) := by
  obtain ⟨s, hs⟩ := slope_real
  rcases leaky_cases z with h | h
  · rw [h]; exact hz
  · rw [h, hs]; exact (isFin_coe s).mul hz

variable (a : Fin 4096 → Fin 4096 → EReal) (x : Fin 4096 → Fin 512 → EReal) (S : Fin 4096 → Fin 32 → EReal)
  (W0 : Fin 512 → Fin 512 → EReal) (b0 : Fin 512 → EReal) (W1 : Fin 512 → Fin 256 → EReal) (b1 : Fin 256 → EReal)
  (Wc : Fin 288 → Fin 16 → EReal) (bc : Fin 16 → EReal)

/-! ## Layer 0 -/

/-- Layer 0 before its rectifier agrees: the aggregation law with p = x · W0, a real matrix. -/
theorem z0G_eq_z0R (ha : ∀ i k, IsFin (a i k)) (hx : ∀ i q, IsFin (x i q)) (hW0 : ∀ q j, IsFin (W0 q j))
    (hpos : ∀ i, 0 < rsR a i) : aggG a (s0G a x W0) (dG a) b0 = z0R a x W0 b0 := by
  have hd : dR a = dG a := funext fun i => (dG_eq_dR a ha hpos i).1.symm
  funext i q
  show dG a i * (∑ k : Fin 4096, a i k * (dG a k * ∑ q' : Fin 512, x k q' * W0 q' q)
        + dG a i * ∑ q' : Fin 512, x i q' * W0 q' q) + b0 q
      = (∑ k : Fin 4096, (((if i = k then (1 : EReal) else 0) + a i k) * dR a i) * dR a k
          * ∑ q' : Fin 512, x k q' * W0 q' q) + b0 q
  rw [hd]
  exact congrArg (· + b0 q) (agg_law a (dG a) (fun k => ∑ q' : Fin 512, x k q' * W0 q' q) ha
    (fun i => (dG_eq_dR a ha hpos i).2) (fun k => isFin_sum _ _ fun q' => (hx k q').mul (hW0 q' q)) i)

/-- Layer 0 before its rectifier is a real matrix. -/
theorem isFin_z0G (ha : ∀ i k, IsFin (a i k)) (hx : ∀ i q, IsFin (x i q)) (hW0 : ∀ q j, IsFin (W0 q j))
    (hb0 : ∀ j, IsFin (b0 j)) (hpos : ∀ i, 0 < rsR a i) (i : Fin 4096) (q : Fin 512) :
    IsFin (aggG a (s0G a x W0) (dG a) b0 i q) := by
  have hd : ∀ i, IsFin (dG a i) := fun i => (dG_eq_dR a ha hpos i).2
  have hs : ∀ i j, IsFin (s0G a x W0 i j) := fun i j =>
    (hd i).mul (isFin_sum _ _ fun q' => (hx i q').mul (hW0 q' j))
  exact ((hd i).mul ((isFin_sum _ _ fun k => (ha i k).mul (hs k q)).add (hs i q))).add (hb0 q)

/-- Layer 1 agrees: with real inputs and positive row sums, d is a positive real, every intermediate value is real,
    and the kernel's  d i · (Σ k, a i k · (d k · p k j) + d i · p i j) + b j  is the reference's
    Σ k, ((δ i k + a i k) · d i · d k) · p k j + b j  by the distributive law, in both layers. -/
theorem hK_eq_hR (ha : ∀ i k, IsFin (a i k)) (hx : ∀ i q, IsFin (x i q)) (hW0 : ∀ q j, IsFin (W0 q j))
    (hb0 : ∀ j, IsFin (b0 j)) (hW1 : ∀ q j, IsFin (W1 q j)) (hb1 : ∀ j, IsFin (b1 j)) (hpos : ∀ i, 0 < rsR a i) :
    hK a x W0 b0 W1 b1 = hR a x W0 b0 W1 b1 := by
  have hd : dR a = dG a := funext fun i => (dG_eq_dR a ha hpos i).1.symm
  have hz : aggG a (s0G a x W0) (dG a) b0 = z0R a x W0 b0 := z0G_eq_z0R a x W0 b0 ha hx hW0 hpos
  have hzfin : ∀ k q, IsFin (z0R a x W0 b0 k q) := fun k q => hz ▸ isFin_z0G a x W0 b0 ha hx hW0 hb0 hpos k q
  funext i j
  show dG a i * (∑ k : Fin 4096, a i k
          * (dG a k * ∑ q : Fin 512, leaky (aggG a (s0G a x W0) (dG a) b0 k q) * W1 q j)
        + dG a i * ∑ q : Fin 512, leaky (aggG a (s0G a x W0) (dG a) b0 i q) * W1 q j) + b1 j
      = (∑ k : Fin 4096, (((if i = k then (1 : EReal) else 0) + a i k) * dR a i) * dR a k
          * ∑ q : Fin 512, leaky (z0R a x W0 b0 k q) * W1 q j) + b1 j
  rw [hd, hz]
  exact congrArg (· + b1 j) (agg_law a (dG a) (fun k => ∑ q : Fin 512, leaky (z0R a x W0 b0 k q) * W1 q j) ha
    (fun i => (dG_eq_dR a ha hpos i).2)
    (fun k => isFin_sum _ _ fun q => (isFin_leaky (hzfin k q)).mul (hW1 q j)) i)

/-! ## The classifier -/

/-- The sum over the 288 concatenated columns is the sum over the 256 columns of h plus the sum over the 32 columns
    of S, each against its rows of the classifier's weights. No finiteness is needed. -/
theorem lgG_eq_lgR (i : Fin 4096) :
    lgG (hR a x W0 b0 W1 b1) S (WcTop Wc) (WcBot Wc) bc i = lgR a x S W0 b0 W1 b1 Wc bc i := by
  funext j
  have hsplit := Fin.sum_univ_add (a := 256) (b := 32) (fun q : Fin 288 => catR a x S W0 b0 W1 b1 i q * Wc q j)
  have htop : ∀ q : Fin 256, catR a x S W0 b0 W1 b1 i (Fin.castAdd 32 q) * Wc (Fin.castAdd 32 q) j
      = hR a x W0 b0 W1 b1 i q * WcTop Wc q j := by
    intro q
    have hq : (Fin.castAdd 32 q).val < 256 := q.isLt
    unfold catR WcTop
    rw [dif_pos hq]
    rfl
  have hbot : ∀ q : Fin 32, catR a x S W0 b0 W1 b1 i (Fin.natAdd 256 q) * Wc (Fin.natAdd 256 q) j
      = S i q * WcBot Wc q j := by
    intro q
    have hq : ¬ (Fin.natAdd 256 q).val < 256 := by simp [Fin.natAdd]
    have hidx : (⟨(Fin.natAdd 256 q).val - 256, by have := q.isLt; have := Fin.coe_natAdd 256 q; omega⟩ : Fin 32) = q :=
      Fin.ext (by simp [Fin.natAdd])
    unfold catR WcBot
    rw [dif_neg hq, hidx]
    rfl
  simp only [htop, hbot] at hsplit
  show (∑ q : Fin 256, hR a x W0 b0 W1 b1 i q * WcTop Wc q j + ∑ q : Fin 32, S i q * WcBot Wc q j) + bc j
      = (∑ q : Fin 288, catR a x S W0 b0 W1 b1 i q * Wc q j) + bc j
  exact congrArg (· + bc j) hsplit.symm

/-- A fold of max is at least its starting value, so taking the larger of the two changes nothing; and a sum started
    from the word of 0.0 is the sum. Hence the reference's softmax is the kernel's, as functions of the logits. -/
theorem softmaxRow_eq (lg : Fin 16 → EReal) (j : Fin 16) :
    softmaxRow lg j
      = Ideal.div (Ideal.exp (lg j - max negInf ((Finset.univ : Finset (Fin 16)).fold max negInf lg)))
          (c0 + ∑ j' : Fin 16, Ideal.exp (lg j' - max negInf ((Finset.univ : Finset (Fin 16)).fold max negInf lg))) := by
  have hmax : max negInf ((Finset.univ : Finset (Fin 16)).fold max negInf lg)
      = (Finset.univ : Finset (Fin 16)).fold max negInf lg :=
    max_eq_right ((Finset.le_fold_max negInf).mpr (Or.inl le_rfl))
  rw [hmax, c0_eq, zero_add]
  rfl

/-- The class probabilities agree: the logits agree because the sum over the 288 concatenated columns splits into
    the 256 columns of h and the 32 columns of S, and the two softmaxes are the same function of the logits. -/
theorem yK_eq_yR (ha : ∀ i k, IsFin (a i k)) (hx : ∀ i q, IsFin (x i q)) (hW0 : ∀ q j, IsFin (W0 q j))
    (hb0 : ∀ j, IsFin (b0 j)) (hW1 : ∀ q j, IsFin (W1 q j)) (hb1 : ∀ j, IsFin (b1 j)) (hpos : ∀ i, 0 < rsR a i) :
    yK a x S W0 b0 W1 b1 Wc bc = yR a x S W0 b0 W1 b1 Wc bc := by
  have hh : hK a x W0 b0 W1 b1 = hR a x W0 b0 W1 b1 := hK_eq_hR a x W0 b0 W1 b1 ha hx hW0 hb0 hW1 hb1 hpos
  funext i j
  show softmaxRow (lgG (hK a x W0 b0 W1 b1) S (WcTop Wc) (WcBot Wc) bc i) j = yR a x S W0 b0 W1 b1 Wc bc i j
  rw [hh, lgG_eq_lgR]
  exact softmaxRow_eq _ j

end Cert.Gcn
-- ==== Proof.PreDecode.lean ====
/-
  What the precondition says at the ideal values: every entry of every argument array is a real number, and every row
  sum of I + adj (computed as the reference computes it) is positive.
-/
import proofs.«148359_g79121887527625_cont_sun_m_466_4_alg».proof.Pre_finite_inputs
import proofs.«148359_g79121887527625_cont_sun_m_466_4_alg».proof.Proof.Spec
import proofs.«148359_g79121887527625_cont_sun_m_466_4_alg».proof.Proof.LibEye
import Idealize.ShloMosaic.Lib.ReduceAll
import Idealize.ShloMosaic.Lib.ValueIdx
import Idealize.ShloMosaic.PureOps.Ideal.Laws

noncomputable section

open scoped BigOperators

namespace Cert.Gcn.Pre

open Idealize.ShloMosaic Idealize.ShloMosaic.ValueIdx
open Cert.Pre_finite_inputs Cert.Gcn

variable [Cert.Pre_finite_inputs.Facts]

/-- The scalar shape has one index. -/
instance : Subsingleton S_.Idx := ⟨fun a b => funext fun d => d.elim0⟩

/-- A decided proposition whose one-bit word is 1 holds. -/
theorem of_bit_one {p : Prop} [Decidable p] (e : BitVec.ofBool (decide p) = 1#1) : p := by
  by_contra hn
  rw [decide_eq_false hn] at e
  exact absurd e (by decide)

/-- The word 0x7F800000 denotes +∞. -/
theorem inf_word : Ideal.ofBits .f32 0x7F800000#32 = (⊤ : EReal) := by
  simp [Ideal.ofBits, Ideal.ieee]

/-- One conjunct of the finiteness part, over any shape and any set of reduced axes: if the conjunction over all
    entries of "|v j| < +∞" is 1, every v j is a real number. |z| is max z (-z); it is below +∞ exactly when neither z
    nor -z is +∞, that is when z is neither +∞ nor -∞. -/
theorem fin_of_all {s : Shape} {axes : List (Fin s.rank)} (v : FVec Ideal s .f32)
    (hb : S_.BroadcastsInDim s (![] : Fin 0 → Fin s.rank)) (hr : s.ReducesTo axes S_) (hu : 0 < S_.numel)
    (e : Host.reduce IntOp.andi (cmpf .olt (Host.absf v) (broadcastInDim s ![] hb (constant S_ .f32 0x7F800000#32)))
          (constantI S_ 1 1#1) hr hu ix0 = 1#1) :
    ∀ j, IsFin (v j) := by
  intro j
  have hj := Host.reduce_andi_all _ _ hr hu ix0 e j
  have hj' : BitVec.ofBool (decide (max (v j) (-(v j)) < Ideal.ofBits .f32 0x7F800000#32)) = 1#1 := hj
  rw [inf_word] at hj'
  obtain ⟨h1, h2⟩ := max_lt_iff.1 (of_bit_one hj')
  refine ⟨?_, ?_⟩
  · intro hbot
    rw [hbot] at h2
    simp at h2
  · intro htop
    rw [htop] at h1
    exact lt_irrefl _ h1

/-- Row i of a 4096 × 4096 array with column k inserted is the entry (i, k). -/
theorem lift_row (hR : S4096x4096.Reduces [1] S4096) (i k : Fin 4096) : hR.lift (ix1 i) k = ix2 i k := by
  funext a
  match a with
  | ⟨0, _⟩ => exact Fin.ext rfl
  | ⟨1, _⟩ => exact Fin.ext rfl

/-- From the printed precondition holding (its one-bit result is 1) to the facts the value proof uses. -/
theorem of_pre (x : FVec Ideal S4096x512 .f32) (adj : FVec Ideal S4096x4096 .f32) (S : FVec Ideal S4096x32 .f32)
    (W0 : FVec Ideal S512x512 .f32) (b0 : FVec Ideal S512 .f32) (W1 : FVec Ideal S512x256 .f32) (b1 : FVec Ideal S256 .f32)
    (Wc : FVec Ideal S288x16 .f32) (bc : FVec Ideal S16 .f32)
    (h : Cert.Pre_finite_inputs.fn (F := Ideal) x adj S W0 b0 W1 b1 Wc bc = fun _ => 1#1) :
    (∀ j, IsFin (x j)) ∧ (∀ j, IsFin (adj j)) ∧ (∀ j, IsFin (S j)) ∧ (∀ j, IsFin (W0 j)) ∧ (∀ j, IsFin (b0 j))
      ∧ (∀ j, IsFin (W1 j)) ∧ (∀ j, IsFin (b1 j)) ∧ (∀ j, IsFin (Wc j)) ∧ (∀ j, IsFin (bc j))
      ∧ ∀ i : Fin 4096, 0 < rsR (cur adj) i := by
  -- The result has one index; there the printed function is a chain of ten one-bit conjunctions, nested to the left.
  have h0 := congrFun h ix0
  dsimp only [fn, fn_part1, fn_part2, fn_part3] at h0
  obtain ⟨h0, h10⟩ := IntOp.andi_eq_one.1 h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  refine ⟨fin_of_all x _ _ _ h1, fin_of_all adj _ _ _ h2, fin_of_all S _ _ _ h3, fin_of_all W0 _ _ _ h4,
    fin_of_all b0 _ _ _ h5, fin_of_all W1 _ _ _ h6, fin_of_all b1 _ _ _ h7, fin_of_all Wc _ _ _ h8,
    fin_of_all bc _ _ _ h9, ?_⟩
  -- The tenth conjunct at row i: the word of 0.0 is below the row sum of (identity + adj), summed from the word of 0.0.
  intro i
  have hR : S4096x4096.Reduces [1] S4096 := by decide
  have hi := Host.reduce_andi_all _ _ _ _ ix0 h10 (ix1 i)
  have hi' : BitVec.ofBool (decide (c0 < Ideal.hostReduceAdd Facts.reducesTo_S4096x4096_S4096_d1
      (addf (uitofp (F := Ideal) .f32 (cmpi .eq
        (addi (iotaInDim S4096x4096 32 0) (broadcastInDim S4096x4096 ![] Facts.bcast_S_S4096x4096 (constantI S_ 32 0#32)))
        (iotaInDim S4096x4096 32 1))) adj) c0 (ix1 i))) = 1#1 := hi
  have hpos := lt_of_eq_of_lt Ideal.ofBits_zero_f32.symm (of_bit_one hi')
  -- That row sum is the initial word plus the sum over the columns k of (δ i k + adj (i, k)).
  refine lt_of_lt_of_eq hpos ?_
  rw [Ideal.hostReduceAdd_single Facts.reducesTo_S4096x4096_S4096_d1 hR]
  unfold rsR AR
  refine congrArg (c0 + ·) (Finset.sum_congr rfl fun (k : Fin 4096) _ => ?_)
  -- Column k of row i is the entry (i, k); there the sum's term is (identity entry) + adj (i, k).
  refine (congrArg (addf _ adj) (lift_row hR i k)).trans ?_
  exact congrArg (· + adj (ix2 i k)) (LibEye.eye_apply _ i k)

end Cert.Gcn.Pre
-- ==== Proof.lean ====
/-
  The certificate of the two-layer graph convolution with a softmax classifier.

  The kernel computes, in three launches over 256-row blocks, d = (row sums of I + adj)^(-1/2), the scaled supports
  d · (h · W), and for each layer  d i · (Σ k, adj i k · s k j + s i j) + b j, never forming the normalised adjacency;
  the reference forms  (I + adj) · d i · d k  and multiplies. Under the precondition — every input a real number, and
  every row sum of I + adj positive, which is where the reference's 1 / sqrt is defined — d is a positive real, every
  intermediate value is a real, and the two arrangements agree by the distributive law; the classifier's logits agree
  because a sum over the 288 concatenated columns splits in the 256 columns of h and the 32 of S, and the two softmaxes
  are one function of the logits.

  The frames of the two kernel programs are the generated ones; the reference's frame is its run with the results
  dropped. No rewrite was applied when the kernel was idealized, so that claim is trivial. The value claim puts the
  kernel program's run (its results as the kernel's arrangement of the arguments) beside the reference's run (its
  results as the reference's arrangement) and joins them by the algebra, whose hypotheses the precondition gives.
-/
import proofs.«148359_g79121887527625_cont_sun_m_466_4_alg».proof.Defs
import proofs.«148359_g79121887527625_cont_sun_m_466_4_alg».proof.Proof.Gen.Kernel
import proofs.«148359_g79121887527625_cont_sun_m_466_4_alg».proof.Proof.Gen.Kernel.Frame
import proofs.«148359_g79121887527625_cont_sun_m_466_4_alg».proof.Proof.Gen.KernelIdeal
import proofs.«148359_g79121887527625_cont_sun_m_466_4_alg».proof.Proof.Gen.KernelIdeal.Frame
import proofs.«148359_g79121887527625_cont_sun_m_466_4_alg».proof.Proof.Gen.ReferenceIdeal
import proofs.«148359_g79121887527625_cont_sun_m_466_4_alg».proof.Proof.Gen.Pre_finite_inputs
import proofs.«148359_g79121887527625_cont_sun_m_466_4_alg».proof.Proof.KernelValue
import proofs.«148359_g79121887527625_cont_sun_m_466_4_alg».proof.Proof.RefRun
import proofs.«148359_g79121887527625_cont_sun_m_466_4_alg».proof.Proof.RefRead
import proofs.«148359_g79121887527625_cont_sun_m_466_4_alg».proof.Proof.Algebra
import proofs.«148359_g79121887527625_cont_sun_m_466_4_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx Cert.Gcn

theorem frame_k : Cert.frame_Kernel := fun m ρ _ => Cert.Kernel.Gen.frame m ρ

theorem frame_ki : Cert.frame_KernelIdeal := fun m ρ _ => Cert.KernelIdeal.Gen.frame m ρ

/-- The reference runs and leaves its arguments as launched: its run with the two results dropped. -/
theorem frame_ri : Cert.frame_ReferenceIdeal := fun m ρ _ =>
  (θ_run Cert.ReferenceIdeal.defs _ _).mono (fun _ h c => (h c).2) (Cert.ReferenceIdeal.Value.run (F := Ideal) m ρ)

/-- The two idealized programs, from memories that agree on the arguments, end with equal results. -/
theorem algebraic : Cert.algebraic_KernelIdeal_ReferenceIdeal := by
  intro m ρ m' ρ' hpre hagree
  refine ⟨Cert.KernelIdeal.Chain.hRes m, Cert.KernelIdeal.Chain.yRes m, Cert.KernelIdeal.Chain.run m ρ, ?_⟩
  refine (θ_run Cert.ReferenceIdeal.defs _ _).mono (fun _ h c => ⟨?_, ?_, (h c).2⟩)
    (Cert.ReferenceIdeal.Value.run (F := Ideal) m' ρ')
  all_goals
    obtain ⟨e0, e1, e2, e3, e4, e5, e6, e7, e8⟩ := hagree c
    obtain ⟨fx, fa, fS, fW0, fb0, fW1, fb1, fWc, fbc, hpos⟩ := Cert.Gcn.Pre.of_pre _ _ _ _ _ _ _ _ _ (hpre c)
  · rw [(h c).1.1, e0, e1, e3, e4, e5, e6, Cert.ReferenceIdeal.TermRead.tH_eq]
    funext idx
    exact (congrFun (congrFun (hK_eq_hR _ _ _ _ _ _ (fun i k => fa _) (fun i q => fx _) (fun q j => fW0 _)
      (fun j => fb0 _) (fun q j => fW1 _) (fun j => fb1 _) hpos) (idx 0)) (idx 1)).symm
  · rw [(h c).1.2, e0, e1, e2, e3, e4, e5, e6, e7, e8, Cert.ReferenceIdeal.TermRead.tY_eq]
    funext idx
    exact (congrFun (congrFun (yK_eq_yR _ _ _ _ _ _ _ _ _ (fun i k => fa _) (fun i q => fx _) (fun q j => fW0 _)
      (fun j => fb0 _) (fun q j => fW1 _) (fun j => fb1 _) hpos) (idx 0)) (idx 1)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
